-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S8192x2048 : Shape := ⟨2, ![8192, 2048]⟩
abbrev S2048x8192 : Shape := ⟨2, ![2048, 8192]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x1024x2048 .f32) (main_arg1 : FVec F S8192x2048 .f32) (main_arg2 : FVec F S2048x8192 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x1024x2048 : Shape := ⟨3, ![4, 1024, 2048]⟩
abbrev S8192x2048 : Shape := ⟨2, ![8192, 2048]⟩
abbrev S2048x8192 : Shape := ⟨2, ![2048, 8192]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S4096x8192 : Shape := ⟨2, ![4096, 8192]⟩
abbrev S256x2048 : Shape := ⟨2, ![256, 2048]⟩
abbrev S256x1 : Shape := ⟨2, ![256, 1]⟩
abbrev S512x2048 : Shape := ⟨2, ![512, 2048]⟩
abbrev S256x512 : Shape := ⟨2, ![256, 512]⟩
abbrev S2048x512 : Shape := ⟨2, ![2048, 512]⟩
abbrev S256x1024 : Shape := ⟨2, ![256, 1024]⟩
abbrev S512x1024 : Shape := ⟨2, ![512, 1024]⟩
abbrev S1024x512 : Shape := ⟨2, ![1024, 512]⟩

abbrev nBuf : Space → Nat
  | .hbm => 51
  | .vmem => 19
  | .smem => 0
  | _ => 0

abbrev bufTy : (tb : Table) → Fin (tcTables nBuf tb) → BufTy
  | .hbm, ⟨0, _⟩ => ⟨S4x1024x2048, .f32⟩
  | .hbm, ⟨1, _⟩ => ⟨S8192x2048, .f32⟩
  | .hbm, ⟨2, _⟩ => ⟨S2048x8192, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S2048x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x1, .f32⟩
  | .hbm, ⟨49, _⟩ => ⟨S4096x2048, .f32⟩
  | .hbm, ⟨50, _⟩ => ⟨S4x1024x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S512x1024, .f32⟩
  | .local _ .vmem, ⟨14, _⟩ => ⟨S512x1024, .f32⟩
  | .local _ .vmem, ⟨15, _⟩ => ⟨S1x1, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_call1_v0 : Ref sig .tc := ⟨.hbm, 21, rfl⟩
abbrev main_v10 : Ref sig .tc := ⟨.hbm, 22, rfl⟩
abbrev main_cst_5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_cst_10 : Ref sig .tc := ⟨.hbm, 41, rfl⟩
abbrev main_v22 : Ref sig .tc := ⟨.hbm, 42, rfl⟩
abbrev main_cst_11 : Ref sig .tc := ⟨.hbm, 43, rfl⟩
abbrev main_call3_v0 : Ref sig .tc := ⟨.hbm, 44, rfl⟩
abbrev main_v23 : Ref sig .tc := ⟨.hbm, 45, rfl⟩
abbrev main_cst_12 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_16 : BitVec 32 := 0#32
  let v39 : BitVec 1 := Scalar.cmpi .ne v38 c0_i32_16
  v39

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x1024x2048_S4096x2048 : S4x1024x2048.ShapeCasts S4096x2048
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S8192x2048_S_d0_1 : S8192x2048.ReducesTo [0, 1] S_
  shapeCasts_S_S1x1 : S_.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S512x2048_p1_0_S2048x512 : S512x2048.Transposes [1, 0] S2048x512
  inb_S256x512_S256x512_0_0 : ∀ a, (![0, 0] : Fin 2 → Nat) a + S256x512.size a ≤ S256x512.size a
  h_S256x512 : 0 < S256x512.numel
  reducesTo_S4096x8192_S4096_d1 : S4096x8192.ReducesTo [1] S4096
  reducesTo_S2048x8192_S_d0_1 : S2048x8192.ReducesTo [0, 1] S_
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S256x1_S256x1024 : S256x1.Broadcasts S256x1024
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  shapeCasts_S4096x2048_S4x1024x2048 : S4096x2048.ShapeCasts S4x1024x2048
  dot_S256x2048_S2048x512_S256x512_1_0_0_1_n_n_wf : DotDims.WF S256x2048 S2048x512 S256x512 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x8192.size a
  hwx0_4 : ∀ i : grid0.Coords, EltTy.bits .f32 = 32 ∨ (Rect.block (s := S4096x8192) S256x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x8192.size a
  hwx1_0 : ∀ i : grid1.Coords, EltTy.bits .f32 = 32 ∨ (Rect.block (s := S4096x8192) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x8192.size a
  hwx1_2 : ∀ i : grid1.Coords, EltTy.bits .f32 = 32 ∨ (Rect.block (s := S2048x8192) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S4096x2048.size a
  hwx1_4 : ∀ i : grid1.Coords, EltTy.bits .f32 = 32 ∨ (Rect.block (s := S4096x2048) S256x512.size (cc1_transform_4 i) (hinb1_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S256x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x1024x2048 : Shape := ⟨3, ![4, 1024, 2048]⟩
abbrev S8192x2048 : Shape := ⟨2, ![8192, 2048]⟩
abbrev S2048x8192 : Shape := ⟨2, ![2048, 8192]⟩
abbrev S_ : Shape := ⟨0, ![]⟩
abbrev S4x1024 : Shape := ⟨2, ![4, 1024]⟩
abbrev S4x1024x1 : Shape := ⟨3, ![4, 1024, 1]⟩
abbrev S4x1024x8192 : Shape := ⟨3, ![4, 1024, 8192]⟩

abbrev nBuf : Space → Nat
  | .hbm => 110
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S8192x2048, .f32⟩
  | .hbm, ⟨2, _⟩ => ⟨S2048x8192, .f32⟩
  | .hbm, ⟨3, _⟩ => ⟨S4x1024x2048, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S_, .f32⟩
  | .hbm, ⟨8, _⟩ => ⟨S_, .f32⟩
  | .hbm, ⟨9, _⟩ => ⟨S4x1024x1, .f32⟩
  | .hbm, ⟨10, _⟩ => ⟨S4x1024x1, .f32⟩
  | .hbm, ⟨11, _⟩ => ⟨S_, .f32⟩
  | .hbm, ⟨12, _⟩ => ⟨S4x1024x1, .f32⟩
  | .hbm, ⟨13, _⟩ => ⟨S4x1024x1, .f32⟩
  | .hbm, ⟨14, _⟩ => ⟨S4x1024x2048, .f32⟩
  | .hbm, ⟨15, _⟩ => ⟨S4x1024x2048, .f32⟩
  | .hbm, ⟨16, _⟩ => ⟨S4x1024x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x1024x2048, .f32⟩
  | .hbm, ⟨21, _⟩ => ⟨S4x1024x2048, .f32⟩
  | .hbm, ⟨22, _⟩ => ⟨S_, .f32⟩
  | .hbm, ⟨23, _⟩ => ⟨S4x1024x2048, .f32⟩
  | .hbm, ⟨24, _⟩ => ⟨S4x1024x2048, .f32⟩
  | .hbm, ⟨25, _⟩ => ⟨S4x1024x2048, .f32⟩
  | .hbm, ⟨26, _⟩ => ⟨S4x1024x2048, .f32⟩
  | .hbm, ⟨27, _⟩ => ⟨S4x1024x2048, .f32⟩
  | .hbm, ⟨28, _⟩ => ⟨S4x1024x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S4x1024x8192, .f32⟩
  | .hbm, ⟨55, _⟩ => ⟨S_, .f32⟩
  | .hbm, ⟨56, _⟩ => ⟨S4x1024x8192, .f32⟩
  | .hbm, ⟨57, _⟩ => ⟨S4x1024x8192, .f32⟩
  | .hbm, ⟨58, _⟩ => ⟨S4x1024x8192, .f32⟩
  | .hbm, ⟨59, _⟩ => ⟨S_, .f32⟩
  | .hbm, ⟨60, _⟩ => ⟨S4x1024, .f32⟩
  | .hbm, ⟨61, _⟩ => ⟨S4x1024x1, .f32⟩
  | .hbm, ⟨62, _⟩ => ⟨S_, .f32⟩
  | .hbm, ⟨63, _⟩ => ⟨S_, .f32⟩
  | .hbm, ⟨64, _⟩ => ⟨S4x1024x1, .f32⟩
  | .hbm, ⟨65, _⟩ => ⟨S4x1024x1, .f32⟩
  | .hbm, ⟨66, _⟩ => ⟨S_, .f32⟩
  | .hbm, ⟨67, _⟩ => ⟨S4x1024x1, .f32⟩
  | .hbm, ⟨68, _⟩ => ⟨S4x1024x1, .f32⟩
  | .hbm, ⟨69, _⟩ => ⟨S4x1024x8192, .f32⟩
  | .hbm, ⟨70, _⟩ => ⟨S4x1024x8192, .f32⟩
  | .hbm, ⟨71, _⟩ => ⟨S4x1024x8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4x1024x8192, .f32⟩
  | .hbm, ⟨76, _⟩ => ⟨S4x1024x8192, .f32⟩
  | .hbm, ⟨77, _⟩ => ⟨S_, .f32⟩
  | .hbm, ⟨78, _⟩ => ⟨S4x1024x8192, .f32⟩
  | .hbm, ⟨79, _⟩ => ⟨S4x1024x8192, .f32⟩
  | .hbm, ⟨80, _⟩ => ⟨S4x1024x8192, .f32⟩
  | .hbm, ⟨81, _⟩ => ⟨S4x1024x8192, .f32⟩
  | .hbm, ⟨82, _⟩ => ⟨S4x1024x8192, .f32⟩
  | .hbm, ⟨83, _⟩ => ⟨S4x1024x8192, .f32⟩
  | .hbm, ⟨84, _⟩ => ⟨S2048x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2048x8192, .f32⟩
  | .hbm, ⟨95, _⟩ => ⟨S2048x8192, .f32⟩
  | .hbm, ⟨96, _⟩ => ⟨S2048x8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S2048x8192, .f32⟩
  | .hbm, ⟨101, _⟩ => ⟨S2048x8192, .f32⟩
  | .hbm, ⟨102, _⟩ => ⟨S_, .f32⟩
  | .hbm, ⟨103, _⟩ => ⟨S2048x8192, .f32⟩
  | .hbm, ⟨104, _⟩ => ⟨S2048x8192, .f32⟩
  | .hbm, ⟨105, _⟩ => ⟨S2048x8192, .f32⟩
  | .hbm, ⟨106, _⟩ => ⟨S2048x8192, .f32⟩
  | .hbm, ⟨107, _⟩ => ⟨S2048x8192, .f32⟩
  | .hbm, ⟨108, _⟩ => ⟨S2048x8192, .f32⟩
  | .hbm, ⟨109, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call6_cst : Ref sig .tc := ⟨.hbm, 55, rfl⟩
abbrev main_call6_v0 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_call7_v0 : Ref sig .tc := ⟨.hbm, 63, rfl⟩
abbrev main_call7_v1 : Ref sig .tc := ⟨.hbm, 64, rfl⟩
abbrev main_v32 : Ref sig .tc := ⟨.hbm, 65, rfl⟩
abbrev main_cst_12 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_13 : Ref sig .tc := ⟨.hbm, 72, rfl⟩
abbrev main_cst_14 : Ref sig .tc := ⟨.hbm, 73, rfl⟩
abbrev main_call9_v0 : Ref sig .tc := ⟨.hbm, 74, rfl⟩
abbrev main_call9_v1 : Ref sig .tc := ⟨.hbm, 75, rfl⟩
abbrev main_call9_v2 : Ref sig .tc := ⟨.hbm, 76, rfl⟩
abbrev main_call9_v3 : Ref sig .tc := ⟨.hbm, 77, rfl⟩
abbrev main_call9_v4 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_15 : Ref sig .tc := ⟨.hbm, 85, rfl⟩
abbrev main_v44 : Ref sig .tc := ⟨.hbm, 86, rfl⟩
abbrev main_cst_16 : Ref sig .tc := ⟨.hbm, 87, rfl⟩
abbrev main_v45 : Ref sig .tc := ⟨.hbm, 88, rfl⟩
abbrev main_cst_17 : Ref sig .tc := ⟨.hbm, 89, rfl⟩
abbrev main_call10_v0 : Ref sig .tc := ⟨.hbm, 90, rfl⟩
abbrev main_v46 : Ref sig .tc := ⟨.hbm, 91, rfl⟩
abbrev main_cst_18 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_19 : Ref sig .tc := ⟨.hbm, 97, rfl⟩
abbrev main_cst_20 : Ref sig .tc := ⟨.hbm, 98, rfl⟩
abbrev main_call12_v0 : Ref sig .tc := ⟨.hbm, 99, rfl⟩
abbrev main_call12_v1 : Ref sig .tc := ⟨.hbm, 100, rfl⟩
abbrev main_call12_v2 : Ref sig .tc := ⟨.hbm, 101, rfl⟩
abbrev main_call12_v3 : Ref sig .tc := ⟨.hbm, 102, rfl⟩
abbrev main_call12_v4 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩

abbrev nD : Nat := 1
abbrev τ : Topo := Topo.v7x

variable {F : FTy → Type} [FloatOps F]

class Facts₀ : Prop where
  reducesTo_S4x1024x2048_S4x1024_d2 : S4x1024x2048.ReducesTo [2] S4x1024
  h_S_ : 0 < S_.numel
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x2048_0_1_2 : S4x1024x1.BroadcastsInDim S4x1024x2048 (![0, 1, 2] : Fin 3 → Fin S4x1024x2048.rank)
  bcast_S_S4x1024x2048 : S_.BroadcastsInDim S4x1024x2048 (![] : Fin 0 → Fin S4x1024x2048.rank)
  reducesTo_S8192x2048_S_d0_1 : S8192x2048.ReducesTo [0, 1] S_
  bcast_S_S8192x2048 : S_.BroadcastsInDim S8192x2048 (![] : Fin 0 → Fin S8192x2048.rank)
  bcast_S_S4x1024x8192 : S_.BroadcastsInDim S4x1024x8192 (![] : Fin 0 → Fin S4x1024x8192.rank)
  reducesTo_S4x1024x8192_S4x1024_d2 : S4x1024x8192.ReducesTo [2] S4x1024
  bcast_S4x1024x1_S4x1024x8192_0_1_2 : S4x1024x1.BroadcastsInDim S4x1024x8192 (![0, 1, 2] : Fin 3 → Fin S4x1024x8192.rank)
  reducesTo_S2048x8192_S_d0_1 : S2048x8192.ReducesTo [0, 1] S_
  bcast_S_S2048x8192 : S_.BroadcastsInDim S2048x8192 (![] : Fin 0 → Fin S2048x8192.rank)
  dot_S4x1024x2048_S8192x2048_S4x1024x8192_2_1_01_0_n_n_wf : DotDims.WF S4x1024x2048 S8192x2048 S4x1024x8192 [2] [1] [0, 1] [0] [] []
  dot_S4x1024x8192_S2048x8192_S4x1024x2048_2_1_01_0_n_n_wf : DotDims.WF S4x1024x8192 S2048x8192 S4x1024x2048 [2] [1] [0, 1] [0] [] []

variable [Facts₀]

def dot_S4x1024x2048_S8192x2048_S4x1024x8192_2_1_01_0_n_n : DotDims S4x1024x2048 S8192x2048 S4x1024x8192 where
  lhsContracting := [2]
  rhsContracting := [1]
  lhsNonContracting := [0, 1]
  rhsNonContracting := [0]
  lhsBatch := []
  rhsBatch := []
  wf := dot_S4x1024x2048_S8192x2048_S4x1024x8192_2_1_01_0_n_n_wf
def dot_S4x1024x8192_S2048x8192_S4x1024x2048_2_1_01_0_n_n : DotDims S4x1024x8192 S2048x8192 S4x1024x2048 where
  lhsContracting := [2]
  rhsContracting := [1]
  lhsNonContracting := [0, 1]
  rhsNonContracting := [0]
  lhsBatch := []
  rhsBatch := []
  wf := dot_S4x1024x8192_S2048x8192_S4x1024x2048_2_1_01_0_n_n_wf

class Facts : Prop extends Facts₀ where

variable [Facts]
-- ==== Proof.KRegion0.lean ====
/- The first kernel region of the word-level kernel program, for any float family: the quantising dense layer
   on a 16 × 16 grid. Each grid point reads four staged blocks whole (a 256 × 2048 activation block, its 256 × 1
   row scales, a 512 × 2048 weight block and a 1 × 1 weight scale) and overwrites the 256 × 512 output block whole
   with one value computed from the four. This module fixes the proof data of that pipeline — what every staging
   buffer holds after the body at every grid point — and proves the body's obligation against it. -/
import proofs.«174975_j41592463294489_1_alg».proof.Proof.Gen.Kernel.Launch
import proofs.«174975_j41592463294489_1_alg».proof.Proof.Gen.Kernel.Skeleton
import proofs.«174975_j41592463294489_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## Blocks -/

/-- The block of window w that grid point t addresses, read from the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ### An input's staging buffer holds the addressed block

For proof data whose array for the window is the entry array and whose body leaves the block where it was, the
current staging buffer holds the addressed block at every point: where the block was fetched this is the fetch;
where it was not, the block index is the previous point's, and so is the block. None of the four inputs is cut
at the array's edge and none is ever idle. -/

/-- The activation block (window 0): its index moves with the first grid coordinate only, so it is fetched once per row of the grid and found unmoved at the fifteen points that follow. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblock : ∀ s : Fin cfg0.N, dat.blockOf 0 s = iblk0 V c 0 s := fun s => by
    unfold Dat.blockOf iblk0; rw [hA]
  have hkeep : ∀ s : Fin cfg0.N, (cfg0.win 0).cut (cfg0.grid.coords s) (dat.after 0 s) = dat.blockOf 0 s := fun s => by
    rw [hafter s, hblock s]
  calc dat.before 0 t d
      = dat.fetched 0 t d := dat.before_in_eq_fetched 0 rfl (fun _ => rfl) (fun _ _ _ => rfl) hkeep t d
    _ = dat.blockOf 0 t := rfl
    _ = iblk0 V c 0 t := hblock t

/-- The row scales (window 1), addressed and fetched as the activation block is. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblock : ∀ s : Fin cfg0.N, dat.blockOf 1 s = iblk0 V c 1 s := fun s => by
    unfold Dat.blockOf iblk0; rw [hA]
  have hkeep : ∀ s : Fin cfg0.N, (cfg0.win 1).cut (cfg0.grid.coords s) (dat.after 1 s) = dat.blockOf 1 s := fun s => by
    rw [hafter s, hblock s]
  calc dat.before 1 t d
      = dat.fetched 1 t d := dat.before_in_eq_fetched 1 rfl (fun _ => rfl) (fun _ _ _ => rfl) hkeep t d
    _ = dat.blockOf 1 t := rfl
    _ = iblk0 V c 1 t := hblock t

/-- The weight block (window 2): its index is the second grid coordinate, which changes at every point, and it is fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hblock : ∀ s : Fin cfg0.N, dat.blockOf 2 s = iblk0 V c 2 s := fun s => by
    unfold Dat.blockOf iblk0; rw [hA]
  have hkeep : ∀ s : Fin cfg0.N, (cfg0.win 2).cut (cfg0.grid.coords s) (dat.after 2 s) = dat.blockOf 2 s := fun s => by
    rw [hafter s, hblock s]
  calc dat.before 2 t d
      = dat.fetched 2 t d := dat.before_in_eq_fetched 2 rfl (fun _ => rfl) (fun _ _ _ => rfl) hkeep t d
    _ = dat.blockOf 2 t := rfl
    _ = iblk0 V c 2 t := hblock t

/-- The weight scale (window 3): one block, fetched at the first point and found in place ever after. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hblock : ∀ s : Fin cfg0.N, dat.blockOf 3 s = iblk0 V c 3 s := fun s => by
    unfold Dat.blockOf iblk0; rw [hA]
  have hkeep : ∀ s : Fin cfg0.N, (cfg0.win 3).cut (cfg0.grid.coords s) (dat.after 3 s) = dat.blockOf 3 s := fun s => by
    rw [hafter s, hblock s]
  calc dat.before 3 t d
      = dat.fetched 3 t d := dat.before_in_eq_fetched 3 rfl (fun _ => rfl) (fun _ _ _ => rfl) hkeep t d
    _ = dat.blockOf 3 t := rfl
    _ = iblk0 V c 3 t := hblock t

/-! ## The rectangles the body reads and writes: each staging buffer whole, from the origin -/

theorem origin2 : (![0, 0] : Fin 2 → ℕ) = fun _ => 0 := by
  funext a; fin_cases a <;> rfl

abbrev r0_0 : Rect S256x2048 := Rect.unit (s := S256x2048) ![0, 0] S256x2048.size inb_S256x2048_S256x2048_0_0
abbrev r0_1 : Rect S256x1 := Rect.unit (s := S256x1) ![0, 0] S256x1.size inb_S256x1_S256x1_0_0
abbrev r0_2 : Rect S512x2048 := Rect.unit (s := S512x2048) ![0, 0] S512x2048.size inb_S512x2048_S512x2048_0_0
abbrev r0_3 : Rect S1x1 := Rect.unit (s := S1x1) ![0, 0] S1x1.size inb_S1x1_S1x1_0_0
abbrev r0_4 : Rect S256x512 := Rect.unit (s := S256x512) ![0, 0] S256x512.size inb_S256x512_S256x512_0_0

/-! ## What the body leaves in the output buffer -/

/-- The output staging buffer after the body, as a function of the four input blocks: its one store, whose value is
    the body's payload at what the four loads read. -/
def out0_4 (x0 : Vec F S256x2048 .f32) (x1 : Vec F S256x1 .f32) (x2 : Vec F S512x2048 .f32) (x3 : Vec F S1x1 .f32) : Vec F S256x512 .f32 :=
  View.canon [⟨r0_4, k0_pay1 (View.ld x0 r0_0) (View.ld x1 r0_1) (View.ld x2 r0_2) (View.ld x3 r0_3)⟩]

/-- The one store writes the whole buffer, so every index of the buffer lies under it. -/
theorem cover0_4 (p0 : Vec F S256x512 .f32) (y : S256x512.Idx) :
    ∃ pc ∈ ([⟨r0_4, p0⟩] : List (View.Piece (Elt F) S256x512 .f32)), y ∈ pc.1.set :=
  ⟨_, List.mem_singleton_self _, View.mem_set_unit_zero (S := S256x512) origin2 inb_S256x512_S256x512_0_0 y⟩

/-- A whole-buffer load reads the contents and one whole-buffer store leaves its value: the output buffer after the
    body IS the payload at the four blocks. -/
theorem out0_4_eq (x0 : Vec F S256x2048 .f32) (x1 : Vec F S256x1 .f32) (x2 : Vec F S512x2048 .f32) (x3 : Vec F S1x1 .f32) :
    out0_4 x0 x1 x2 x3 = k0_pay1 x0 x1 x2 x3 := by
  unfold out0_4
  rw [View.canon_unit_zero (S := S256x512) origin2 inb_S256x512_S256x512_0_0,
    View.ld_unit_zero (S := S256x2048) origin2 inb_S256x2048_S256x2048_0_0 x0,
    View.ld_unit_zero (S := S256x1) origin2 inb_S256x1_S256x1_0_0 x1,
    View.ld_unit_zero (S := S512x2048) origin2 inb_S512x2048_S512x2048_0_0 x2,
    View.ld_unit_zero (S := S1x1) origin2 inb_S1x1_S1x1_0_0 x3]

/-! ## The body as a triple -/

set_option maxHeartbeats 1000000 in
/-- On whole staging memrefs — the four inputs' at known contents, the output's at any — the body runs to a
    continuation that is handed the inputs' memrefs as they were and the output's at the payload of the four input
    contents. The body is five whole-buffer loads (the fifth reads the output buffer and its value is dropped) and
    one whole-buffer store of the payload. -/
theorem sound_kernel0 (c : Dev nD) (E : Set ℕ) (i : grid0.Coords)
    (arg2 : Memref sig .tc .vmem S256x2048 .f32) (harg2 : arg2.IsWhole) (arg3 : Memref sig .tc .vmem S256x1 .f32) (harg3 : arg3.IsWhole)
    (arg4 : Memref sig .tc .vmem S512x2048 .f32) (harg4 : arg4.IsWhole) (arg5 : Memref sig .tc .vmem S1x1 .f32) (harg5 : arg5.IsWhole)
    (arg6 : Memref sig .tc .vmem S256x512 .f32) (harg6 : arg6.IsWhole)
    (x0 : Vec F S256x2048 .f32) (x1 : Vec F S256x1 .f32) (x2 : Vec F S512x2048 .f32) (x3 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) E
          (cc0__dense1_kernel i arg2 harg2 arg3 harg3 arg4 harg4 arg5 harg5 arg6 harg6) K := by
  simp only [cc0__dense1_kernel_eq_skeleton]; unfold cc0__dense1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_4 _)).trans (out0_4_eq _ _ _ _)

/-! ## The proof data -/

/-- The pipeline's proof data on core c. The arrays are as the region finds them. After the body at point t each
    input's staging buffer still holds its block, and the output's holds the payload of the four blocks. The
    invariant is the untouched remainder (the other scoped buffers and the generator register); all shares are
    full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 0 t) (iblk0 V c 1 t) (iblk0 V c 2 t) (iblk0 V c 3 t) := by dsimp only [dat0]

/-- So each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's obligation at a grid point -/

/-- What the body is entered with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the inputs' memrefs hold their blocks, so the body's triple applies with the blocks as the known
    contents; the invariant and the core's debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second kernel region of the word-level kernel program (the accumulating quantized product), generic in the
  float family: its proof data and its body obligation.
-/
import proofs.«174975_j41592463294489_1_alg».proof.Proof.Gen.Kernel.Launch
import proofs.«174975_j41592463294489_1_alg».proof.Proof.Gen.Kernel.Skeleton
import proofs.«174975_j41592463294489_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulating product), generic in the float family

The body at grid point `(i, j, k)` of the grid `16 × 4 × 8`: where `k = 0` it first clears the accumulator (a scoped
buffer of the kernel's own, carried from point to point); at every point it adds to the accumulator the product of the
point's quantized input blocks; where `k = 7` it copies the accumulator into the output window's block. Three control
cases, told apart by `k`, which is the point's number modulo 8. -/

/-! ## The two branch conditions, in closed form over the grid -/

/-- The first branch (clear the accumulator) is taken where the innermost coordinate is zero. -/
abbrev cond1_first (i : grid1.Coords) : Prop :=
  (Scalar.cmpi .ne (Scalar.extui (Scalar.cmpi .eq (BitVec.ofNat 32 (i 2).val) 0#32)) 0#32) = 1#1

/-- It holds at the points ≡ 0 (mod 8). -/
theorem hcond1_first : ∀ t : Fin cfg1.N, cond1_first (grid1.coords t) ↔ t.val % 8 = 0 :=
  (by decide +kernel : ∀ t : Fin grid1.N, cond1_first (grid1.coords t) ↔ t.val % 8 = 0)

/-- The last branch (write the accumulator out) is taken where the innermost coordinate is seven. -/
abbrev cond1_last (i : grid1.Coords) : Prop := k1_cond2 i = 1#1

/-- It holds at the points ≡ 7 (mod 8). -/
theorem hcond1_last : ∀ t : Fin cfg1.N, cond1_last (grid1.coords t) ↔ t.val % 8 = 7 :=
  (by decide +kernel : ∀ t : Fin grid1.N, cond1_last (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the last branch is not taken nothing is stored into the output window: it is idle there, -/
theorem idleAt1_4 : ∀ t : Fin cfg1.N, ¬cond1_last (grid1.coords t) → cfg1.idle 4 (grid1.coords t) = true := by decide +kernel
/-- and its block is not written back there. -/
theorem noFlush1_4 : ∀ t : Fin cfg1.N, ¬cond1_last (grid1.coords t) → (cfg1.win 4).flush t = false := by decide +kernel
/-- Where the last branch is taken the output window is live. -/
theorem liveAt1_4 : ∀ t : Fin cfg1.N, cond1_last (grid1.coords t) → cfg1.idle 4 (grid1.coords t) = false := by decide +kernel

/-! ## The body on any whole memrefs, case by case -/

/-- The offsets of every load and store of the body are zero. -/
theorem zeroOff1 : (![0, 0] : Fin 2 → Nat) = fun _ => 0 := funext fun a => by fin_cases a <;> rfl

set_option maxHeartbeats 1000000 in
/-- FIRST CASE (`k = 0`). On whole memrefs — the four inputs at `x0 … x3`, the output's at `xi4`, the accumulator at
    anything — the body runs to the continuation holding the inputs and the output's buffer as they were and the
    accumulator at the update of the cleared block: the clearing store is covered by the updating one, whose payload
    reads the cleared block back. -/
theorem run1_first (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : cond1_first i) (hc2 : ¬cond1_last i)
    (x0 : Vec F S256x1024 .f32) (x1 : Vec F S256x1 .f32) (x2 : Vec F S512x1024 .f32) (x3 : Vec F S1x1 .f32)
    (xi4 : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi4 ∗ (∃ d, owns (c : Thread nD τ) arg8 fullShare d)
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare xi4
            ∗ owns (c : Thread nD τ) arg8 fullShare (k1_pay2 x0 x1 x2 x3 (k1_pay1 (F := F)))) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [View.read_writes_eq_canon _ _ _ (fun y => ⟨_, List.mem_cons_self .., View.mem_set_unit_zero zeroOff1 inb_S256x512_S256x512_0_0 y⟩)]
  sl_unfold_words
  rw [View.canon_cons_unit_zero (S := S256x512) zeroOff1, View.readCov_unit_zero (S := S256x512) _ zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

set_option maxHeartbeats 1000000 in
/-- MIDDLE CASE (`0 < k < 7`). As the first, the accumulator handed in at what the point before left, `xs`, and left
    at its update. -/
theorem run1_mid (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : ¬cond1_first i) (hc2 : ¬cond1_last i)
    (x0 : Vec F S256x1024 .f32) (x1 : Vec F S256x1 .f32) (x2 : Vec F S512x1024 .f32) (x3 : Vec F S1x1 .f32)
    (xi4 : Vec F S256x512 .f32) (xs : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi4 ∗ owns (c : Thread nD τ) arg8 fullShare xs
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare xi4
            ∗ owns (c : Thread nD τ) arg8 fullShare (k1_pay2 x0 x1 x2 x3 xs)) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [View.read_writes_eq_canon _ _ _ (fun y => ⟨_, List.mem_cons_self .., View.mem_set_unit_zero zeroOff1 inb_S256x512_S256x512_0_0 y⟩),
    View.canon_unit_zero zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

set_option maxHeartbeats 1000000 in
/-- LAST CASE (`k = 7`). The accumulator is updated as in the middle case and then copied into the output's buffer,
    which is handed in at anything: both are left at the update. -/
theorem run1_last (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : ¬cond1_first i) (hc2 : cond1_last i)
    (x0 : Vec F S256x1024 .f32) (x1 : Vec F S256x1 .f32) (x2 : Vec F S512x1024 .f32) (x3 : Vec F S1x1 .f32)
    (xs : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare xs
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare (k1_pay2 x0 x1 x2 x3 xs)
            ∗ owns (c : Thread nD τ) arg8 fullShare (k1_pay2 x0 x1 x2 x3 xs)) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (fun y => ⟨_, List.mem_cons_self .., View.mem_set_unit_zero zeroOff1 inb_S256x512_S256x512_0_0 y⟩),
      View.canon_unit_zero zeroOff1]
    sl_unfold_words
    rw [View.readCov_unit_zero (S := S256x512) _ zeroOff1]
    simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]
  iexists _; isplitr
  swap; · iexact HS
  ipureintro
  sl_unfold_words
  rw [View.read_writes_eq_canon _ _ _ (fun y => ⟨_, List.mem_cons_self .., View.mem_set_unit_zero zeroOff1 inb_S256x512_S256x512_0_0 y⟩),
    View.canon_unit_zero zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

/-! ## The memrefs the pipeline calls the body with -/

/-- Each window's current staging memref at point `t`, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1 : Memref sig .tc .vmem S256x512 .f32 := Memref.whole cc1_scratch0

/-! ## The region's invariant: the other scoped buffers, and the accumulator -/

/-- The core's scoped buffers that this region neither stages through nor accumulates in (the first region's staging
    buffers), each at some contents, and the generator register at some state: untouched by the body. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

/-- What the launch hands the region, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ d, owns (c : Thread nD τ) scM1 fullShare d)) ∗ (∃ r, prngReg c r)) := by
  unfold Pipeline.ΦA; rw [scopedRest1_eq]; simp only [scM1, owns_whole]; try rfl

/-- It splits into the untouched rest and the accumulator, -/
theorem PhiA1_split (c : Dev nD) :
    Pipeline.ΦA spec1 c ⊢ (iprop(rest1 (F := F) c ∗ (∃ d, owns (c : Thread nD τ) scM1 fullShare d)) : sProp 𝕄) := by
  rw [PhiA1_eq]; unfold rest1
  iintro ⟨⟨A1, A2, A3, A4, A5, A6, A7, A8, A9, HS⟩, Hg⟩
  isplitr [HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact Hg
  iexact HS

/-- and is put together again from them. -/
theorem PhiA1_join (c : Dev nD) :
    (iprop(rest1 (F := F) c ∗ (∃ d, owns (c : Thread nD τ) scM1 fullShare d)) : sProp 𝕄) ⊢ Pipeline.ΦA spec1 c := by
  rw [PhiA1_eq]; unfold rest1
  iintro ⟨⟨A1, A2, A3, A4, A5, A6, A7, A8, A9, Hg⟩, HS⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-! ## The arrays as the region finds them, the blocks, the accumulation -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the accumulator holds after the body at point `n`: at the first point and at every point
    ≡ 0 (mod 8) the update of the cleared block by the point's input blocks; elsewhere the update of what the point
    before left. -/
def accAt1 (c : Dev nD) : (n : ℕ) → n < cfg1.N → Vec F S256x512 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (iblk1 V c 3 ⟨n + 1, hn⟩) (k1_pay1 (F := F))
    else
      k1_pay2 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

/-- At a point ≡ 0 (mod 8): the update of the cleared block. -/
theorem accAt1_reset (c : Dev nD) (t : Fin cfg1.N) (h : t.val % 8 = 0) :
    accAt1 V c t.val t.isLt = k1_pay2 (iblk1 V c 0 t) (iblk1 V c 1 t) (iblk1 V c 2 t) (iblk1 V c 3 t) (k1_pay1 (F := F)) := by
  obtain ⟨n, hn⟩ := t
  cases n with
  | zero => exact rfl
  | succ n => exact (if_pos h).trans rfl

/-- At any other point: the update of what the point before left. -/
theorem accAt1_step (c : Dev nD) (t : Fin cfg1.N) (h : t.val % 8 ≠ 0) :
    accAt1 V c t.val t.isLt = k1_pay2 (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: the untouched rest, and the accumulator — at anything before the first
    point, afterwards at what the point before left in it. -/
def PhiS1 (c : Dev nD) : (n : ℕ) → n ≤ cfg1.N → sProp 𝕄
  | 0, _ => iprop(rest1 (F := F) c ∗ (∃ d, owns (c : Thread nD τ) scM1 fullShare d))
  | n + 1, hn => iprop(rest1 (F := F) c ∗ owns (c : Thread nD τ) scM1 fullShare (accAt1 V c n hn))

theorem PhiS1_zero (c : Dev nD) (n : ℕ) (h : n ≤ cfg1.N) (hz : n = 0) :
    PhiS1 V c n h = iprop(rest1 (F := F) c ∗ (∃ d, owns (c : Thread nD τ) scM1 fullShare d)) := by
  subst hz; rfl

theorem PhiS1_succ (c : Dev nD) (n : ℕ) (hn : n < cfg1.N) :
    PhiS1 V c (n + 1) hn = iprop(rest1 (F := F) c ∗ owns (c : Thread nD τ) scM1 fullShare (accAt1 V c n hn)) := rfl

theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega))) := by
  cases n with
  | zero => exact absurd rfl hz
  | succ n => rfl

/-- Whatever the position, the invariant gives the rest and the accumulator at some contents. -/
theorem PhiS1_any (c : Dev nD) (n : ℕ) (h : n ≤ cfg1.N) :
    PhiS1 V c n h ⊢ (iprop(rest1 (F := F) c ∗ (∃ d, owns (c : Thread nD τ) scM1 fullShare d)) : sProp 𝕄) := by
  cases n with
  | zero => exact Idealize.SL.BI.Entails.refl _
  | succ n =>
    rw [PhiS1_succ]
    iintro ⟨HR, HS⟩
    isplitl [HR]; · iexact HR
    iexists _; iexact HS

/-! ## The region's proof data -/

/-- The proof data of the region on core `c`: the arrays as the region finds them (`V`); after the body at point `t`
    each input's buffer at its block and the output's at the accumulation; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt1 V c t.val t.isLt := by dsimp only [dat1]

/-! ## What the body finds in the inputs' buffers, and what it must leave in them -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- An input window is never idle: the body leaves its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's number modulo 8 says which case it is in;
    the invariant hands the body the accumulator — at anything where it is about to be cleared, else at what the point
    before left — and takes it back at this point's accumulation; the output's buffer is handed back untouched where the
    window is idle and left at the accumulation where it is written out; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, PhiS1_castSucc V c t]
  by_cases h0 : t.val % 8 = 0
  · have h7 : ¬t.val % 8 = 7 := by omega
    have hc1 : cond1_first (grid1.coords t) := (hcond1_first t).mpr h0
    have hc2 : ¬cond1_last (grid1.coords t) := fun h => h7 ((hcond1_last t).mp h)
    rw [Dat.leavesExact_idle (dat1 V c) 4 t (idleAt1_4 t hc2) (noFlush1_4 t hc2)]
    rw [accAt1_reset V c t h0]
    iintro ⟨HΦ, Ho, ⟨%d0, H0⟩, ⟨%d1, H1⟩, ⟨%d2, H2⟩, ⟨%d3, H3⟩, ⟨%d4, H4⟩⟩
    icases (PhiS1_any V c t.val (Nat.le_of_lt t.isLt)) $$ HΦ with ⟨HR, HS⟩
    iapply (run1_first c (grid1.coords t) _ _ _ _ _ _ _ _ _ _ _ _ hc1 hc2
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS]
    · isplitl [HR]; · iexact HR
      iexact HS
    isplitl [Ho]; · iexact Ho
    isplitl [H0]; · iexact H0
    isplitl [H1]; · iexact H1
    isplitl [H2]; · iexact H2
    isplitl [H3]; · iexact H3
    iexists _; iexact H4
  · have hc1 : ¬cond1_first (grid1.coords t) := fun h => h0 ((hcond1_first t).mp h)
    have hz : t.val ≠ 0 := fun e => h0 (by rw [e])
    rw [accAt1_step V c t h0, PhiS1_pos V c _ _ hz]
    by_cases h7 : t.val % 8 = 7
    · have hc2 : cond1_last (grid1.coords t) := (hcond1_last t).mpr h7
      rw [show (dat1 V c).leavesExact 4 t = owns (c : Thread nD τ) (ms1_4 t) fullShare ((dat1 V c).after 4 t) from by
        unfold Dat.leavesExact; rw [liveAt1_4 t hc2], after1_4, accAt1_step V c t h0]
      iintro ⟨⟨HR, HS⟩, Ho, ⟨%d0, H0⟩, ⟨%d1, H1⟩, ⟨%d2, H2⟩, ⟨%d3, H3⟩, ⟨%d4, H4⟩⟩
      iapply (run1_last c (grid1.coords t) _ _ _ _ _ _ _ _ _ _ _ _ hc1 hc2
        (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      iexact H4
    · have hc2 : ¬cond1_last (grid1.coords t) := fun h => h7 ((hcond1_last t).mp h)
      rw [Dat.leavesExact_idle (dat1 V c) 4 t (idleAt1_4 t hc2) (noFlush1_4 t hc2)]
      iintro ⟨⟨HR, HS⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ hc1 hc2
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region gives the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_split c

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.Kernel.Hand

end
-- ==== Proof.KRun.lean ====
/-
  The word-level kernel program's @main from launch to return: five stretches of host operations (the row scales of the
  activations and the weight scale of the first layer), the first kernel region (the first quantised product with its
  max(·, 0)), five more stretches (the scales of the second layer, read off the first region's result), the second kernel
  region (the second quantised product, accumulated over eight steps of the contraction axis in a scratch buffer) and the
  closing reshape.  Every unscoped buffer's contents are named at each of the fourteen boundaries; a region changes only
  its output array, which ends at what its write-backs leave.  The statement is generic in the float family, so it serves
  the word-level program's frame as well.
-/
import proofs.«174975_j41592463294489_1_alg».proof.Proof.KRegion0
import proofs.«174975_j41592463294489_1_alg».proof.Proof.KRegion1
import proofs.«174975_j41592463294489_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every buffer's contents at each boundary of @main

From the launch memory: the five host stretches before the first kernel region, the region's arrays at what its
write-backs leave, the five stretches between the regions, the second region's arrays, the closing reshape. -/

/-- Core c's buffers when the first region is entered. -/
abbrev W5 (c : Dev nD) : Valuation τ sig (Elt F) := Gen.V5 m c
/-- The same read at the TensorCore's references: what the first region's proof data take. -/
abbrev Ve0 : (c : Dev nD) → (b : Ref sig .tc) → Buf (Elt F) ((c : Thread nD τ).loc b) := fun c b => W5 m c b
/-- At the first region's exit: its arrays at what the pipeline leaves, every other buffer as entered. -/
def W6 (c : Dev nD) : Valuation τ sig (Elt F) :=
  Pipeline.withArrays spec0 c (W5 m c) fun w => (dat0 (Ve0 m) c).arrAt w cfg0.N
theorem W6_arr (c : Dev nD) (w : Fin cfg0.W) :
    W6 m c (Proc.devRef .tc (Pipeline.arrRef spec0 w)) = (dat0 (Ve0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev Vx0 : (c : Dev nD) → (b : Ref sig .tc) → Buf (Elt F) ((c : Thread nD τ).loc b) := fun c b => W6 m c b
theorem hF0 (c : Dev nD) (w : Fin cfg0.W) : (dat0 (Ve0 m) c).arrAt w cfg0.N = Vx0 m c (Pipeline.arrRef spec0 w) :=
  (W6_arr m c w).symm
theorem hrest0 (c : Dev nD) : ∀ b, b ∉ Finset.univ.image (Pipeline.arrRef spec0) → Vx0 m c b = Ve0 m c b :=
  fun b hb => W6_of_ne m c b fun w e => hb (Finset.mem_image.mpr ⟨w, Finset.mem_univ _, e⟩)

abbrev W7 (c : Dev nD) : Valuation τ sig (Elt F) := StableHlo.after hostOps1 (W6 m c)
abbrev W8 (c : Dev nD) : Valuation τ sig (Elt F) := StableHlo.after hostOps1_1 (W7 m c)
abbrev W9 (c : Dev nD) : Valuation τ sig (Elt F) := StableHlo.after hostOps1_2 (W8 m c)
abbrev W10 (c : Dev nD) : Valuation τ sig (Elt F) := StableHlo.after hostOps1_3 (W9 m c)
/-- Core c's buffers when the second region is entered. -/
abbrev W11 (c : Dev nD) : Valuation τ sig (Elt F) := StableHlo.after hostOps1_4 (W10 m c)
abbrev Ve1 : (c : Dev nD) → (b : Ref sig .tc) → Buf (Elt F) ((c : Thread nD τ).loc b) := fun c b => W11 m c b
/-- At the second region's exit. -/
def W12 (c : Dev nD) : Valuation τ sig (Elt F) :=
  Pipeline.withArrays spec1 c (W11 m c) fun w => (dat1 (Ve1 m) c).arrAt w cfg1.N
theorem W12_arr (c : Dev nD) (w : Fin cfg1.W) :
    W12 m c (Proc.devRef .tc (Pipeline.arrRef spec1 w)) = (dat1 (Ve1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev Vx1 : (c : Dev nD) → (b : Ref sig .tc) → Buf (Elt F) ((c : Thread nD τ).loc b) := fun c b => W12 m c b
theorem hF1 (c : Dev nD) (w : Fin cfg1.W) : (dat1 (Ve1 m) c).arrAt w cfg1.N = Vx1 m c (Pipeline.arrRef spec1 w) :=
  (W12_arr m c w).symm
theorem hrest1 (c : Dev nD) : ∀ b, b ∉ Finset.univ.image (Pipeline.arrRef spec1) → Vx1 m c b = Ve1 m c b :=
  fun b hb => W12_of_ne m c b fun w e => hb (Finset.mem_image.mpr ⟨w, Finset.mem_univ _, e⟩)
/-- Core c's buffers at the return. -/
abbrev W13 (c : Dev nD) : Valuation τ sig (Elt F) := StableHlo.after hostOps2 (W12 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c
abbrev 𝒱₀ : Variants := Variants.none
/-- No core owes another anything. -/
abbrev L : GSem nD τ sig → Finset Unit := fun _ => ∅
abbrev lv : GSem nD τ sig → Unit → ℕ := fun _ _ => 0
/-- Beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- The first region: entered with every unscoped buffer at W5, left at W6. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a region whose invariant begins as the class's. -/
theorem toΦA1 (c : Dev nD) :
    (iprop((∃ r, prngReg c r) ∗ Pipeline.prefHeld (pcfgs (F := F) 1).pre c (fun _ => fullShare) (Gen.adm (F := F) 1).1
      ∗ Pipeline.scopedRest (Pipeline.pin (pcfgs (F := F)) Gen.adm 1).spec c) : sProp 𝕄) ⊢ Pipeline.ΦA spec1 c := by
  unfold Pipeline.ΦA
  iintro ⟨Hp, -, Hr⟩
  isplitl [Hr]; · iexact Hr
  iexact Hp

set_option backward.isDefEq.respectTransparency.types false in
/-- The second region: entered with every unscoped buffer at W11, left at W12; its scratch rides in the invariant. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (Ve1 m) c)
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch's segment leaves the dues beside the last thread state. -/
abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .host (hseg hostOps1_1 hostOps1_1_sub hostOps1_1_fresh (W7 m)),
    .host (hseg hostOps1_2 hostOps1_2_sub hostOps1_2_fresh (W8 m)),
    .host (hseg hostOps1_3 hostOps1_3_sub hostOps1_3_fresh (W9 m)),
    .host (hseg hostOps1_4 hostOps1_4_sub hostOps1_4_fresh (W10 m)),
    .region (reg1 m),
    .host (hseg hostOps2 hostOps2_sub hostOps2_fresh (W12 m)) ]

/-- @main is the run of its segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents W13. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show (iprop(StableHlo.held (c : Thread nD τ) (Pipeline.ucRefs τ sig) (W13 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## The arguments end as launched -/

/-- A region keeps the array of an input window. -/
theorem W6_in (c : Dev nD) (w : Fin cfg0.W) (hw : (cfg0.win w).isOut = false) :
    W6 m c (Proc.devRef .tc (Pipeline.arrRef spec0 w)) = W5 m c (Proc.devRef .tc (Pipeline.arrRef spec0 w)) :=
  (W6_arr m c w).trans (((dat0 (Ve0 m) c).arrAt_in w hw _).trans (A_eq0 (Ve0 m) c w))
theorem W12_in (c : Dev nD) (w : Fin cfg1.W) (hw : (cfg1.win w).isOut = false) :
    W12 m c (Proc.devRef .tc (Pipeline.arrRef spec1 w)) = W11 m c (Proc.devRef .tc (Pipeline.arrRef spec1 w)) :=
  (W12_arr m c w).trans (((dat1 (Ve1 m) c).arrAt_in w hw _).trans (A_eq1 (Ve1 m) c w))

/-- No host stretch writes an argument and no region may change one: the last boundary's contents at an argument are
    the launch memory's. -/
theorem W13_arg (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : W6 m c (Proc.devRef .tc r) = W5 m c (Proc.devRef .tc r))
    (h6 : r ∉ hostOps1_W) (h7 : r ∉ hostOps1_1_W) (h8 : r ∉ hostOps1_2_W) (h9 : r ∉ hostOps1_3_W) (h10 : r ∉ hostOps1_4_W)
    (h11 : W12 m c (Proc.devRef .tc r) = W11 m c (Proc.devRef .tc r)) (h12 : r ∉ hostOps2_W) :
    W13 m c (Proc.devRef .tc r) = m ((c : Thread nD τ).loc r) :=
  (StableHlo.after_of_writes_sub hostOps2 _ hostOps2_writes h12).trans <|
  h11.trans <|
  (StableHlo.after_of_writes_sub hostOps1_4 _ hostOps1_4_writes h10).trans <|
  (StableHlo.after_of_writes_sub hostOps1_3 _ hostOps1_3_writes h9).trans <|
  (StableHlo.after_of_writes_sub hostOps1_2 _ hostOps1_2_writes h8).trans <|
  (StableHlo.after_of_writes_sub hostOps1_1 _ hostOps1_1_writes h7).trans <|
  (StableHlo.after_of_writes_sub hostOps1 _ hostOps1_writes h6).trans <|
  h5.trans <|
  (Gen.V5_of m c r h4).trans <| (Gen.V4_of m c r h3).trans <| (Gen.V3_of m c r h2).trans <|
  (Gen.V2_of m c r h1).trans <| (Gen.V1_of m c r h0).trans rfl

/-- The frame: every weakly fair execution terminates, nothing faulting, and the three argument arrays end unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W13_arg m c main_arg0 (by decide) (by decide) (by decide) (by decide) (by decide) (W6_of_ne m c main_arg0 (by decide)) (by decide) (by decide) (by decide) (by decide) (by decide) (W12_of_ne m c main_arg0 (by decide)) (by decide)),
     (h c _ (mem_uc main_arg1 (by decide))).trans (W13_arg m c main_arg1 (by decide) (by decide) (by decide) (by decide) (by decide) (W6_in m c 2 rfl) (by decide) (by decide) (by decide) (by decide) (by decide) (W12_of_ne m c main_arg1 (by decide)) (by decide)),
     (h c _ (mem_uc main_arg2 (by decide))).trans (W13_arg m c main_arg2 (by decide) (by decide) (by decide) (by decide) (by decide) (W6_of_ne m c main_arg2 (by decide)) (by decide) (by decide) (by decide) (by decide) (by decide) (W12_in m c 2 rfl) (by decide))⟩)
    (run_all m ρ)

/-- The run with the result named: the result array ends at the last boundary's contents, the arguments unchanged. -/
theorem run_value : θ_run defs (onTc (τ := τ) (main (F := F))) ⟨m, fun _ => 0, ρ⟩ (fun r => ∀ c : Dev nD,
      r.2.mem ((c.tc : Thread nD τ).loc main_v27) = W13 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v27 (by decide)),
     (h c _ (mem_uc main_arg0 (by decide))).trans (W13_arg m c main_arg0 (by decide) (by decide) (by decide) (by decide) (by decide) (W6_of_ne m c main_arg0 (by decide)) (by decide) (by decide) (by decide) (by decide) (by decide) (W12_of_ne m c main_arg0 (by decide)) (by decide)),
     (h c _ (mem_uc main_arg1 (by decide))).trans (W13_arg m c main_arg1 (by decide) (by decide) (by decide) (by decide) (by decide) (W6_in m c 2 rfl) (by decide) (by decide) (by decide) (by decide) (by decide) (W12_of_ne m c main_arg1 (by decide)) (by decide)),
     (h c _ (mem_uc main_arg2 (by decide))).trans (W13_arg m c main_arg2 (by decide) (by decide) (by decide) (by decide) (by decide) (W6_of_ne m c main_arg2 (by decide)) (by decide) (by decide) (by decide) (by decide) (by decide) (W12_in m c 2 rfl) (by decide))⟩)
    (run_all m ρ)

end Cert.Kernel.Hand

end
-- ==== Proof.KIRegion0.lean ====
/- The first kernel region of the idealized kernel program, for any float family: the quantising dense layer
   on a 16 × 16 grid. Each grid point reads four staged blocks whole (a 256 × 2048 activation block, its 256 × 1
   row scales, a 512 × 2048 weight block and a 1 × 1 weight scale) and overwrites the 256 × 512 output block whole
   with one value computed from the four. This module fixes the proof data of that pipeline — what every staging
   buffer holds after the body at every grid point — and proves the body's obligation against it. -/
import proofs.«174975_j41592463294489_1_alg».proof.Proof.Gen.KernelIdeal.Launch
import proofs.«174975_j41592463294489_1_alg».proof.Proof.Gen.KernelIdeal.Skeleton
import proofs.«174975_j41592463294489_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! ## Blocks -/

/-- The block of window w that grid point t addresses, read from the window's array at its entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ### An input's staging buffer holds the addressed block

For proof data whose array for the window is the entry array and whose body leaves the block where it was, the
current staging buffer holds the addressed block at every point: where the block was fetched this is the fetch;
where it was not, the block index is the previous point's, and so is the block. None of the four inputs is cut
at the array's edge and none is ever idle. -/

/-- The activation block (window 0): its index moves with the first grid coordinate only, so it is fetched once per row of the grid and found unmoved at the fifteen points that follow. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  have hblock : ∀ s : Fin cfg0.N, dat.blockOf 0 s = iblk0 V c 0 s := fun s => by
    unfold Dat.blockOf iblk0; rw [hA]
  have hkeep : ∀ s : Fin cfg0.N, (cfg0.win 0).cut (cfg0.grid.coords s) (dat.after 0 s) = dat.blockOf 0 s := fun s => by
    rw [hafter s, hblock s]
  calc dat.before 0 t d
      = dat.fetched 0 t d := dat.before_in_eq_fetched 0 rfl (fun _ => rfl) (fun _ _ _ => rfl) hkeep t d
    _ = dat.blockOf 0 t := rfl
    _ = iblk0 V c 0 t := hblock t

/-- The row scales (window 1), addressed and fetched as the activation block is. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  have hblock : ∀ s : Fin cfg0.N, dat.blockOf 1 s = iblk0 V c 1 s := fun s => by
    unfold Dat.blockOf iblk0; rw [hA]
  have hkeep : ∀ s : Fin cfg0.N, (cfg0.win 1).cut (cfg0.grid.coords s) (dat.after 1 s) = dat.blockOf 1 s := fun s => by
    rw [hafter s, hblock s]
  calc dat.before 1 t d
      = dat.fetched 1 t d := dat.before_in_eq_fetched 1 rfl (fun _ => rfl) (fun _ _ _ => rfl) hkeep t d
    _ = dat.blockOf 1 t := rfl
    _ = iblk0 V c 1 t := hblock t

/-- The weight block (window 2): its index is the second grid coordinate, which changes at every point, and it is fetched at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  have hblock : ∀ s : Fin cfg0.N, dat.blockOf 2 s = iblk0 V c 2 s := fun s => by
    unfold Dat.blockOf iblk0; rw [hA]
  have hkeep : ∀ s : Fin cfg0.N, (cfg0.win 2).cut (cfg0.grid.coords s) (dat.after 2 s) = dat.blockOf 2 s := fun s => by
    rw [hafter s, hblock s]
  calc dat.before 2 t d
      = dat.fetched 2 t d := dat.before_in_eq_fetched 2 rfl (fun _ => rfl) (fun _ _ _ => rfl) hkeep t d
    _ = dat.blockOf 2 t := rfl
    _ = iblk0 V c 2 t := hblock t

/-- The weight scale (window 3): one block, fetched at the first point and found in place ever after. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t := by
  have hblock : ∀ s : Fin cfg0.N, dat.blockOf 3 s = iblk0 V c 3 s := fun s => by
    unfold Dat.blockOf iblk0; rw [hA]
  have hkeep : ∀ s : Fin cfg0.N, (cfg0.win 3).cut (cfg0.grid.coords s) (dat.after 3 s) = dat.blockOf 3 s := fun s => by
    rw [hafter s, hblock s]
  calc dat.before 3 t d
      = dat.fetched 3 t d := dat.before_in_eq_fetched 3 rfl (fun _ => rfl) (fun _ _ _ => rfl) hkeep t d
    _ = dat.blockOf 3 t := rfl
    _ = iblk0 V c 3 t := hblock t

/-! ## The rectangles the body reads and writes: each staging buffer whole, from the origin -/

theorem origin2 : (![0, 0] : Fin 2 → ℕ) = fun _ => 0 := by
  funext a; fin_cases a <;> rfl

abbrev r0_0 : Rect S256x2048 := Rect.unit (s := S256x2048) ![0, 0] S256x2048.size inb_S256x2048_S256x2048_0_0
abbrev r0_1 : Rect S256x1 := Rect.unit (s := S256x1) ![0, 0] S256x1.size inb_S256x1_S256x1_0_0
abbrev r0_2 : Rect S512x2048 := Rect.unit (s := S512x2048) ![0, 0] S512x2048.size inb_S512x2048_S512x2048_0_0
abbrev r0_3 : Rect S1x1 := Rect.unit (s := S1x1) ![0, 0] S1x1.size inb_S1x1_S1x1_0_0
abbrev r0_4 : Rect S256x512 := Rect.unit (s := S256x512) ![0, 0] S256x512.size inb_S256x512_S256x512_0_0

/-! ## What the body leaves in the output buffer -/

/-- The output staging buffer after the body, as a function of the four input blocks: its one store, whose value is
    the body's payload at what the four loads read. -/
def out0_4 (x0 : Vec F S256x2048 .f32) (x1 : Vec F S256x1 .f32) (x2 : Vec F S512x2048 .f32) (x3 : Vec F S1x1 .f32) : Vec F S256x512 .f32 :=
  View.canon [⟨r0_4, k0_pay1 (View.ld x0 r0_0) (View.ld x1 r0_1) (View.ld x2 r0_2) (View.ld x3 r0_3)⟩]

/-- The one store writes the whole buffer, so every index of the buffer lies under it. -/
theorem cover0_4 (p0 : Vec F S256x512 .f32) (y : S256x512.Idx) :
    ∃ pc ∈ ([⟨r0_4, p0⟩] : List (View.Piece (Elt F) S256x512 .f32)), y ∈ pc.1.set :=
  ⟨_, List.mem_singleton_self _, View.mem_set_unit_zero (S := S256x512) origin2 inb_S256x512_S256x512_0_0 y⟩

/-- A whole-buffer load reads the contents and one whole-buffer store leaves its value: the output buffer after the
    body IS the payload at the four blocks. -/
theorem out0_4_eq (x0 : Vec F S256x2048 .f32) (x1 : Vec F S256x1 .f32) (x2 : Vec F S512x2048 .f32) (x3 : Vec F S1x1 .f32) :
    out0_4 x0 x1 x2 x3 = k0_pay1 x0 x1 x2 x3 := by
  unfold out0_4
  rw [View.canon_unit_zero (S := S256x512) origin2 inb_S256x512_S256x512_0_0,
    View.ld_unit_zero (S := S256x2048) origin2 inb_S256x2048_S256x2048_0_0 x0,
    View.ld_unit_zero (S := S256x1) origin2 inb_S256x1_S256x1_0_0 x1,
    View.ld_unit_zero (S := S512x2048) origin2 inb_S512x2048_S512x2048_0_0 x2,
    View.ld_unit_zero (S := S1x1) origin2 inb_S1x1_S1x1_0_0 x3]

/-! ## The body as a triple -/

set_option maxHeartbeats 1000000 in
/-- On whole staging memrefs — the four inputs' at known contents, the output's at any — the body runs to a
    continuation that is handed the inputs' memrefs as they were and the output's at the payload of the four input
    contents. The body is five whole-buffer loads (the fifth reads the output buffer and its value is dropped) and
    one whole-buffer store of the payload. -/
theorem sound_kernel0 (c : Dev nD) (E : Set ℕ) (i : grid0.Coords)
    (arg2 : Memref sig .tc .vmem S256x2048 .f32) (harg2 : arg2.IsWhole) (arg3 : Memref sig .tc .vmem S256x1 .f32) (harg3 : arg3.IsWhole)
    (arg4 : Memref sig .tc .vmem S512x2048 .f32) (harg4 : arg4.IsWhole) (arg5 : Memref sig .tc .vmem S1x1 .f32) (harg5 : arg5.IsWhole)
    (arg6 : Memref sig .tc .vmem S256x512 .f32) (harg6 : arg6.IsWhole)
    (x0 : Vec F S256x2048 .f32) (x1 : Vec F S256x1 .f32) (x2 : Vec F S512x2048 .f32) (x3 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) E
          (cc0__dense1_kernel i arg2 harg2 arg3 harg3 arg4 harg4 arg5 harg5 arg6 harg6) K := by
  simp only [cc0__dense1_kernel_eq_skeleton]; unfold cc0__dense1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_4 _)).trans (out0_4_eq _ _ _ _)

/-! ## The proof data -/

/-- The pipeline's proof data on core c. The arrays are as the region finds them. After the body at point t each
    input's staging buffer still holds its block, and the output's holds the payload of the four blocks. The
    invariant is the untouched remainder (the other scoped buffers and the generator register); all shares are
    full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 0 t) (iblk0 V c 1 t) (iblk0 V c 2 t) (iblk0 V c 3 t) := by dsimp only [dat0]

/-- So each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's obligation at a grid point -/

/-- What the body is entered with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the inputs' memrefs hold their blocks, so the body's triple applies with the blocks as the known
    contents; the invariant and the core's debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second kernel region of the idealized kernel program (the accumulating quantized product), generic in the
  float family: its proof data and its body obligation.
-/
import proofs.«174975_j41592463294489_1_alg».proof.Proof.Gen.KernelIdeal.Launch
import proofs.«174975_j41592463294489_1_alg».proof.Proof.Gen.KernelIdeal.Skeleton
import proofs.«174975_j41592463294489_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (the accumulating product), generic in the float family

The body at grid point `(i, j, k)` of the grid `16 × 4 × 8`: where `k = 0` it first clears the accumulator (a scoped
buffer of the kernel's own, carried from point to point); at every point it adds to the accumulator the product of the
point's quantized input blocks; where `k = 7` it copies the accumulator into the output window's block. Three control
cases, told apart by `k`, which is the point's number modulo 8. -/

/-! ## The two branch conditions, in closed form over the grid -/

/-- The first branch (clear the accumulator) is taken where the innermost coordinate is zero. -/
abbrev cond1_first (i : grid1.Coords) : Prop :=
  (Scalar.cmpi .ne (Scalar.extui (Scalar.cmpi .eq (BitVec.ofNat 32 (i 2).val) 0#32)) 0#32) = 1#1

/-- It holds at the points ≡ 0 (mod 8). -/
theorem hcond1_first : ∀ t : Fin cfg1.N, cond1_first (grid1.coords t) ↔ t.val % 8 = 0 :=
  (by decide +kernel : ∀ t : Fin grid1.N, cond1_first (grid1.coords t) ↔ t.val % 8 = 0)

/-- The last branch (write the accumulator out) is taken where the innermost coordinate is seven. -/
abbrev cond1_last (i : grid1.Coords) : Prop := k1_cond2 i = 1#1

/-- It holds at the points ≡ 7 (mod 8). -/
theorem hcond1_last : ∀ t : Fin cfg1.N, cond1_last (grid1.coords t) ↔ t.val % 8 = 7 :=
  (by decide +kernel : ∀ t : Fin grid1.N, cond1_last (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Where the last branch is not taken nothing is stored into the output window: it is idle there, -/
theorem idleAt1_4 : ∀ t : Fin cfg1.N, ¬cond1_last (grid1.coords t) → cfg1.idle 4 (grid1.coords t) = true := by decide +kernel
/-- and its block is not written back there. -/
theorem noFlush1_4 : ∀ t : Fin cfg1.N, ¬cond1_last (grid1.coords t) → (cfg1.win 4).flush t = false := by decide +kernel
/-- Where the last branch is taken the output window is live. -/
theorem liveAt1_4 : ∀ t : Fin cfg1.N, cond1_last (grid1.coords t) → cfg1.idle 4 (grid1.coords t) = false := by decide +kernel

/-! ## The body on any whole memrefs, case by case -/

/-- The offsets of every load and store of the body are zero. -/
theorem zeroOff1 : (![0, 0] : Fin 2 → Nat) = fun _ => 0 := funext fun a => by fin_cases a <;> rfl

set_option maxHeartbeats 1000000 in
/-- FIRST CASE (`k = 0`). On whole memrefs — the four inputs at `x0 … x3`, the output's at `xi4`, the accumulator at
    anything — the body runs to the continuation holding the inputs and the output's buffer as they were and the
    accumulator at the update of the cleared block: the clearing store is covered by the updating one, whose payload
    reads the cleared block back. -/
theorem run1_first (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : cond1_first i) (hc2 : ¬cond1_last i)
    (x0 : Vec F S256x1024 .f32) (x1 : Vec F S256x1 .f32) (x2 : Vec F S512x1024 .f32) (x3 : Vec F S1x1 .f32)
    (xi4 : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi4 ∗ (∃ d, owns (c : Thread nD τ) arg8 fullShare d)
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare xi4
            ∗ owns (c : Thread nD τ) arg8 fullShare (k1_pay2 x0 x1 x2 x3 (k1_pay1 (F := F)))) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [View.read_writes_eq_canon _ _ _ (fun y => ⟨_, List.mem_cons_self .., View.mem_set_unit_zero zeroOff1 inb_S256x512_S256x512_0_0 y⟩)]
  sl_unfold_words
  rw [View.canon_cons_unit_zero (S := S256x512) zeroOff1, View.readCov_unit_zero (S := S256x512) _ zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

set_option maxHeartbeats 1000000 in
/-- MIDDLE CASE (`0 < k < 7`). As the first, the accumulator handed in at what the point before left, `xs`, and left
    at its update. -/
theorem run1_mid (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : ¬cond1_first i) (hc2 : ¬cond1_last i)
    (x0 : Vec F S256x1024 .f32) (x1 : Vec F S256x1 .f32) (x2 : Vec F S512x1024 .f32) (x3 : Vec F S1x1 .f32)
    (xi4 : Vec F S256x512 .f32) (xs : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xi4 ∗ owns (c : Thread nD τ) arg8 fullShare xs
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare xi4
            ∗ owns (c : Thread nD τ) arg8 fullShare (k1_pay2 x0 x1 x2 x3 xs)) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  rw [View.read_writes_eq_canon _ _ _ (fun y => ⟨_, List.mem_cons_self .., View.mem_set_unit_zero zeroOff1 inb_S256x512_S256x512_0_0 y⟩),
    View.canon_unit_zero zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

set_option maxHeartbeats 1000000 in
/-- LAST CASE (`k = 7`). The accumulator is updated as in the middle case and then copied into the output's buffer,
    which is handed in at anything: both are left at the update. -/
theorem run1_last (c : Dev nD) (i : grid1.Coords)
    (arg3 : Memref sig .tc .vmem S256x1024 .f32) (harg3 : arg3.IsWhole)
    (arg4 : Memref sig .tc .vmem S256x1 .f32) (harg4 : arg4.IsWhole)
    (arg5 : Memref sig .tc .vmem S512x1024 .f32) (harg5 : arg5.IsWhole)
    (arg6 : Memref sig .tc .vmem S1x1 .f32) (harg6 : arg6.IsWhole)
    (arg7 : Memref sig .tc .vmem S256x512 .f32) (harg7 : arg7.IsWhole)
    (arg8 : Memref sig .tc .vmem S256x512 .f32) (harg8 : arg8.IsWhole)
    (hc1 : ¬cond1_first i) (hc2 : cond1_last i)
    (x0 : Vec F S256x1024 .f32) (x1 : Vec F S256x1 .f32) (x2 : Vec F S512x1024 .f32) (x3 : Vec F S1x1 .f32)
    (xs : Vec F S256x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare xs
        ∗ (iprop(owns (c : Thread nD τ) arg3 fullShare x0 ∗ owns (c : Thread nD τ) arg4 fullShare x1
        ∗ owns (c : Thread nD τ) arg5 fullShare x2 ∗ owns (c : Thread nD τ) arg6 fullShare x3
            ∗ owns (c : Thread nD τ) arg7 fullShare (k1_pay2 x0 x1 x2 x3 xs)
            ∗ owns (c : Thread nD τ) arg8 fullShare (k1_pay2 x0 x1 x2 x3 xs)) -∗ K ⟨⟩))
      ⊢ wp frame (wpE (defs₀ (F := F)) Variants.none c none) E
          (cc1__dense2_kernel i arg3 harg3 arg4 harg4 arg5 harg5 arg6 harg6 arg7 harg7 arg8 harg8) K := by
  simp only [cc1__dense2_kernel_eq_skeleton]; unfold cc1__dense2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (fun y => ⟨_, List.mem_cons_self .., View.mem_set_unit_zero zeroOff1 inb_S256x512_S256x512_0_0 y⟩),
      View.canon_unit_zero zeroOff1]
    sl_unfold_words
    rw [View.readCov_unit_zero (S := S256x512) _ zeroOff1]
    simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]
  iexists _; isplitr
  swap; · iexact HS
  ipureintro
  sl_unfold_words
  rw [View.read_writes_eq_canon _ _ _ (fun y => ⟨_, List.mem_cons_self .., View.mem_set_unit_zero zeroOff1 inb_S256x512_S256x512_0_0 y⟩),
    View.canon_unit_zero zeroOff1]
  simp only [View.readAt_eq_ld, harg3.read_unread, harg4.read_unread, harg5.read_unread, harg6.read_unread,
      harg8.read_unread, View.ld_unit_zero (S := S256x1024) zeroOff1, View.ld_unit_zero (S := S256x1) zeroOff1,
      View.ld_unit_zero (S := S512x1024) zeroOff1, View.ld_unit_zero (S := S1x1) zeroOff1,
      View.ld_unit_zero (S := S256x512) zeroOff1]

/-! ## The memrefs the pipeline calls the body with -/

/-- Each window's current staging memref at point `t`, and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x512 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1 : Memref sig .tc .vmem S256x512 .f32 := Memref.whole cc1_scratch0

/-! ## The region's invariant: the other scoped buffers, and the accumulator -/

/-- The core's scoped buffers that this region neither stages through nor accumulates in (the first region's staging
    buffers), each at some contents, and the generator register at some state: untouched by the body. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ r, prngReg c r))

/-- What the launch hands the region, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ d, owns (c : Thread nD τ) scM1 fullShare d)) ∗ (∃ r, prngReg c r)) := by
  unfold Pipeline.ΦA; rw [scopedRest1_eq]; simp only [scM1, owns_whole]; try rfl

/-- It splits into the untouched rest and the accumulator, -/
theorem PhiA1_split (c : Dev nD) :
    Pipeline.ΦA spec1 c ⊢ (iprop(rest1 (F := F) c ∗ (∃ d, owns (c : Thread nD τ) scM1 fullShare d)) : sProp 𝕄) := by
  rw [PhiA1_eq]; unfold rest1
  iintro ⟨⟨A1, A2, A3, A4, A5, A6, A7, A8, A9, HS⟩, Hg⟩
  isplitr [HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact Hg
  iexact HS

/-- and is put together again from them. -/
theorem PhiA1_join (c : Dev nD) :
    (iprop(rest1 (F := F) c ∗ (∃ d, owns (c : Thread nD τ) scM1 fullShare d)) : sProp 𝕄) ⊢ Pipeline.ΦA spec1 c := by
  rw [PhiA1_eq]; unfold rest1
  iintro ⟨⟨A1, A2, A3, A4, A5, A6, A7, A8, A9, Hg⟩, HS⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

/-! ## The arrays as the region finds them, the blocks, the accumulation -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the accumulator holds after the body at point `n`: at the first point and at every point
    ≡ 0 (mod 8) the update of the cleared block by the point's input blocks; elsewhere the update of what the point
    before left. -/
def accAt1 (c : Dev nD) : (n : ℕ) → n < cfg1.N → Vec F S256x512 .f32
  | 0, hn => k1_pay2 (iblk1 V c 0 ⟨0, hn⟩) (iblk1 V c 1 ⟨0, hn⟩) (iblk1 V c 2 ⟨0, hn⟩) (iblk1 V c 3 ⟨0, hn⟩) (k1_pay1 (F := F))
  | n + 1, hn =>
    if (n + 1) % 8 = 0 then
      k1_pay2 (iblk1 V c 0 ⟨n + 1, hn⟩) (iblk1 V c 1 ⟨n + 1, hn⟩) (iblk1 V c 2 ⟨n + 1, hn⟩) (iblk1 V c 3 ⟨n + 1, hn⟩) (k1_pay1 (F := F))
    else
      k1_pay2 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

/-- At a point ≡ 0 (mod 8): the update of the cleared block. -/
theorem accAt1_reset (c : Dev nD) (t : Fin cfg1.N) (h : t.val % 8 = 0) :
    accAt1 V c t.val t.isLt = k1_pay2 (iblk1 V c 0 t) (iblk1 V c 1 t) (iblk1 V c 2 t) (iblk1 V c 3 t) (k1_pay1 (F := F)) := by
  obtain ⟨n, hn⟩ := t
  cases n with
  | zero => exact rfl
  | succ n => exact (if_pos h).trans rfl

/-- At any other point: the update of what the point before left. -/
theorem accAt1_step (c : Dev nD) (t : Fin cfg1.N) (h : t.val % 8 ≠ 0) :
    accAt1 V c t.val t.isLt = k1_pay2 (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: the untouched rest, and the accumulator — at anything before the first
    point, afterwards at what the point before left in it. -/
def PhiS1 (c : Dev nD) : (n : ℕ) → n ≤ cfg1.N → sProp 𝕄
  | 0, _ => iprop(rest1 (F := F) c ∗ (∃ d, owns (c : Thread nD τ) scM1 fullShare d))
  | n + 1, hn => iprop(rest1 (F := F) c ∗ owns (c : Thread nD τ) scM1 fullShare (accAt1 V c n hn))

theorem PhiS1_zero (c : Dev nD) (n : ℕ) (h : n ≤ cfg1.N) (hz : n = 0) :
    PhiS1 V c n h = iprop(rest1 (F := F) c ∗ (∃ d, owns (c : Thread nD τ) scM1 fullShare d)) := by
  subst hz; rfl

theorem PhiS1_succ (c : Dev nD) (n : ℕ) (hn : n < cfg1.N) :
    PhiS1 V c (n + 1) hn = iprop(rest1 (F := F) c ∗ owns (c : Thread nD τ) scM1 fullShare (accAt1 V c n hn)) := rfl

theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega))) := by
  cases n with
  | zero => exact absurd rfl hz
  | succ n => rfl

/-- Whatever the position, the invariant gives the rest and the accumulator at some contents. -/
theorem PhiS1_any (c : Dev nD) (n : ℕ) (h : n ≤ cfg1.N) :
    PhiS1 V c n h ⊢ (iprop(rest1 (F := F) c ∗ (∃ d, owns (c : Thread nD τ) scM1 fullShare d)) : sProp 𝕄) := by
  cases n with
  | zero => exact Idealize.SL.BI.Entails.refl _
  | succ n =>
    rw [PhiS1_succ]
    iintro ⟨HR, HS⟩
    isplitl [HR]; · iexact HR
    iexists _; iexact HS

/-! ## The region's proof data -/

/-- The proof data of the region on core `c`: the arrays as the region finds them (`V`); after the body at point `t`
    each input's buffer at its block and the output's at the accumulation; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt1 V c t.val t.isLt := by dsimp only [dat1]

/-! ## What the body finds in the inputs' buffers, and what it must leave in them -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- An input window is never idle: the body leaves its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the point's number modulo 8 says which case it is in;
    the invariant hands the body the accumulator — at anything where it is about to be cleared, else at what the point
    before left — and takes it back at this point's accumulation; the output's buffer is handed back untouched where the
    window is idle and left at the accumulation where it is written out; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, PhiS1_castSucc V c t]
  by_cases h0 : t.val % 8 = 0
  · have h7 : ¬t.val % 8 = 7 := by omega
    have hc1 : cond1_first (grid1.coords t) := (hcond1_first t).mpr h0
    have hc2 : ¬cond1_last (grid1.coords t) := fun h => h7 ((hcond1_last t).mp h)
    rw [Dat.leavesExact_idle (dat1 V c) 4 t (idleAt1_4 t hc2) (noFlush1_4 t hc2)]
    rw [accAt1_reset V c t h0]
    iintro ⟨HΦ, Ho, ⟨%d0, H0⟩, ⟨%d1, H1⟩, ⟨%d2, H2⟩, ⟨%d3, H3⟩, ⟨%d4, H4⟩⟩
    icases (PhiS1_any V c t.val (Nat.le_of_lt t.isLt)) $$ HΦ with ⟨HR, HS⟩
    iapply (run1_first c (grid1.coords t) _ _ _ _ _ _ _ _ _ _ _ _ hc1 hc2
      (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS]
    · isplitl [HR]; · iexact HR
      iexact HS
    isplitl [Ho]; · iexact Ho
    isplitl [H0]; · iexact H0
    isplitl [H1]; · iexact H1
    isplitl [H2]; · iexact H2
    isplitl [H3]; · iexact H3
    iexists _; iexact H4
  · have hc1 : ¬cond1_first (grid1.coords t) := fun h => h0 ((hcond1_first t).mp h)
    have hz : t.val ≠ 0 := fun e => h0 (by rw [e])
    rw [accAt1_step V c t h0, PhiS1_pos V c _ _ hz]
    by_cases h7 : t.val % 8 = 7
    · have hc2 : cond1_last (grid1.coords t) := (hcond1_last t).mpr h7
      rw [show (dat1 V c).leavesExact 4 t = owns (c : Thread nD τ) (ms1_4 t) fullShare ((dat1 V c).after 4 t) from by
        unfold Dat.leavesExact; rw [liveAt1_4 t hc2], after1_4, accAt1_step V c t h0]
      iintro ⟨⟨HR, HS⟩, Ho, ⟨%d0, H0⟩, ⟨%d1, H1⟩, ⟨%d2, H2⟩, ⟨%d3, H3⟩, ⟨%d4, H4⟩⟩
      iapply (run1_last c (grid1.coords t) _ _ _ _ _ _ _ _ _ _ _ _ hc1 hc2
        (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      iexact H4
    · have hc2 : ¬cond1_last (grid1.coords t) := fun h => h7 ((hcond1_last t).mp h)
      rw [Dat.leavesExact_idle (dat1 V c) 4 t (idleAt1_4 t hc2) (noFlush1_4 t hc2)]
      iintro ⟨⟨HR, HS⟩, Ho, ⟨%d0, H0⟩, ⟨%d1, H1⟩, ⟨%d2, H2⟩, ⟨%d3, H3⟩, ⟨%d4, H4⟩⟩
      iapply (run1_mid c (grid1.coords t) _ _ _ _ _ _ _ _ _ _ _ _ hc1 hc2
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region gives the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_split c

/-- After the last point the invariant gives it back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_join c)

end Cert.KernelIdeal.Hand

end
-- ==== Proof.KIRun.lean ====
/-
  The idealized kernel program's @main from launch to return: five stretches of host operations (the row scales of the
  activations and the weight scale of the first layer), the first kernel region (the first quantised product with its
  max(·, 0)), five more stretches (the scales of the second layer, read off the first region's result), the second kernel
  region (the second quantised product, accumulated over eight steps of the contraction axis in a scratch buffer) and the
  closing reshape.  Every unscoped buffer's contents are named at each of the fourteen boundaries; a region changes only
  its output array, which ends at what its write-backs leave.  The statement is generic in the float family, so it serves
  the word-level program's frame as well.
-/
import proofs.«174975_j41592463294489_1_alg».proof.Proof.KIRegion0
import proofs.«174975_j41592463294489_1_alg».proof.Proof.KIRegion1
import proofs.«174975_j41592463294489_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Every buffer's contents at each boundary of @main

From the launch memory: the five host stretches before the first kernel region, the region's arrays at what its
write-backs leave, the five stretches between the regions, the second region's arrays, the closing reshape. -/

/-- Core c's buffers when the first region is entered. -/
abbrev W5 (c : Dev nD) : Valuation τ sig (Elt F) := Gen.V5 m c
/-- The same read at the TensorCore's references: what the first region's proof data take. -/
abbrev Ve0 : (c : Dev nD) → (b : Ref sig .tc) → Buf (Elt F) ((c : Thread nD τ).loc b) := fun c b => W5 m c b
/-- At the first region's exit: its arrays at what the pipeline leaves, every other buffer as entered. -/
def W6 (c : Dev nD) : Valuation τ sig (Elt F) :=
  Pipeline.withArrays spec0 c (W5 m c) fun w => (dat0 (Ve0 m) c).arrAt w cfg0.N
theorem W6_arr (c : Dev nD) (w : Fin cfg0.W) :
    W6 m c (Proc.devRef .tc (Pipeline.arrRef spec0 w)) = (dat0 (Ve0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev Vx0 : (c : Dev nD) → (b : Ref sig .tc) → Buf (Elt F) ((c : Thread nD τ).loc b) := fun c b => W6 m c b
theorem hF0 (c : Dev nD) (w : Fin cfg0.W) : (dat0 (Ve0 m) c).arrAt w cfg0.N = Vx0 m c (Pipeline.arrRef spec0 w) :=
  (W6_arr m c w).symm
theorem hrest0 (c : Dev nD) : ∀ b, b ∉ Finset.univ.image (Pipeline.arrRef spec0) → Vx0 m c b = Ve0 m c b :=
  fun b hb => W6_of_ne m c b fun w e => hb (Finset.mem_image.mpr ⟨w, Finset.mem_univ _, e⟩)

abbrev W7 (c : Dev nD) : Valuation τ sig (Elt F) := StableHlo.after hostOps1 (W6 m c)
abbrev W8 (c : Dev nD) : Valuation τ sig (Elt F) := StableHlo.after hostOps1_1 (W7 m c)
abbrev W9 (c : Dev nD) : Valuation τ sig (Elt F) := StableHlo.after hostOps1_2 (W8 m c)
abbrev W10 (c : Dev nD) : Valuation τ sig (Elt F) := StableHlo.after hostOps1_3 (W9 m c)
/-- Core c's buffers when the second region is entered. -/
abbrev W11 (c : Dev nD) : Valuation τ sig (Elt F) := StableHlo.after hostOps1_4 (W10 m c)
abbrev Ve1 : (c : Dev nD) → (b : Ref sig .tc) → Buf (Elt F) ((c : Thread nD τ).loc b) := fun c b => W11 m c b
/-- At the second region's exit. -/
def W12 (c : Dev nD) : Valuation τ sig (Elt F) :=
  Pipeline.withArrays spec1 c (W11 m c) fun w => (dat1 (Ve1 m) c).arrAt w cfg1.N
theorem W12_arr (c : Dev nD) (w : Fin cfg1.W) :
    W12 m c (Proc.devRef .tc (Pipeline.arrRef spec1 w)) = (dat1 (Ve1 m) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
abbrev Vx1 : (c : Dev nD) → (b : Ref sig .tc) → Buf (Elt F) ((c : Thread nD τ).loc b) := fun c b => W12 m c b
theorem hF1 (c : Dev nD) (w : Fin cfg1.W) : (dat1 (Ve1 m) c).arrAt w cfg1.N = Vx1 m c (Pipeline.arrRef spec1 w) :=
  (W12_arr m c w).symm
theorem hrest1 (c : Dev nD) : ∀ b, b ∉ Finset.univ.image (Pipeline.arrRef spec1) → Vx1 m c b = Ve1 m c b :=
  fun b hb => W12_of_ne m c b fun w e => hb (Finset.mem_image.mpr ⟨w, Finset.mem_univ _, e⟩)
/-- Core c's buffers at the return. -/
abbrev W13 (c : Dev nD) : Valuation τ sig (Elt F) := StableHlo.after hostOps2 (W12 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Ve0 m) c
  | ⟨1, _⟩ => fun c => dat1 (Ve1 m) c
abbrev 𝒱₀ : Variants := Variants.none
/-- No core owes another anything. -/
abbrev L : GSem nD τ sig → Finset Unit := fun _ => ∅
abbrev lv : GSem nD τ sig → Unit → ℕ := fun _ _ => 0
/-- Beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W13 m c) ∗ ∃ r, prngReg c r)

/-! ## The regions as segments -/

set_option backward.isDefEq.respectTransparency.types false in
/-- The first region: entered with every unscoped buffer at W5, left at W6. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands a region whose invariant begins as the class's. -/
theorem toΦA1 (c : Dev nD) :
    (iprop((∃ r, prngReg c r) ∗ Pipeline.prefHeld (pcfgs (F := F) 1).pre c (fun _ => fullShare) (Gen.adm (F := F) 1).1
      ∗ Pipeline.scopedRest (Pipeline.pin (pcfgs (F := F)) Gen.adm 1).spec c) : sProp 𝕄) ⊢ Pipeline.ΦA spec1 c := by
  unfold Pipeline.ΦA
  iintro ⟨Hp, -, Hr⟩
  isplitl [Hr]; · iexact Hr
  iexact Hp

set_option backward.isDefEq.respectTransparency.types false in
/-- The second region: entered with every unscoped buffer at W11, left at W12; its scratch rides in the invariant. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Ve1 m c) fun w => A_eq1 (Ve1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (Ve1 m) c)
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last stretch's segment leaves the dues beside the last thread state. -/
abbrev segs : List (Pipeline.Seg (pcfgs (F := F)) Gen.adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .region (reg0 m),
    .host (hseg hostOps1 hostOps1_sub hostOps1_fresh (W6 m)),
    .host (hseg hostOps1_1 hostOps1_1_sub hostOps1_1_fresh (W7 m)),
    .host (hseg hostOps1_2 hostOps1_2_sub hostOps1_2_fresh (W8 m)),
    .host (hseg hostOps1_3 hostOps1_3_sub hostOps1_3_fresh (W9 m)),
    .host (hseg hostOps1_4 hostOps1_4_sub hostOps1_4_fresh (W10 m)),
    .region (reg1 m),
    .host (hseg hostOps2 hostOps2_sub hostOps2_fresh (W12 m)) ]

/-- @main is the run of its segments. -/
theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents W13. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show (iprop(StableHlo.held (c : Thread nD τ) (Pipeline.ucRefs τ sig) (W13 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

/-! ## The arguments end as launched -/

/-- A region keeps the array of an input window. -/
theorem W6_in (c : Dev nD) (w : Fin cfg0.W) (hw : (cfg0.win w).isOut = false) :
    W6 m c (Proc.devRef .tc (Pipeline.arrRef spec0 w)) = W5 m c (Proc.devRef .tc (Pipeline.arrRef spec0 w)) :=
  (W6_arr m c w).trans (((dat0 (Ve0 m) c).arrAt_in w hw _).trans (A_eq0 (Ve0 m) c w))
theorem W12_in (c : Dev nD) (w : Fin cfg1.W) (hw : (cfg1.win w).isOut = false) :
    W12 m c (Proc.devRef .tc (Pipeline.arrRef spec1 w)) = W11 m c (Proc.devRef .tc (Pipeline.arrRef spec1 w)) :=
  (W12_arr m c w).trans (((dat1 (Ve1 m) c).arrAt_in w hw _).trans (A_eq1 (Ve1 m) c w))

/-- No host stretch writes an argument and no region may change one: the last boundary's contents at an argument are
    the launch memory's. -/
theorem W13_arg (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : W6 m c (Proc.devRef .tc r) = W5 m c (Proc.devRef .tc r))
    (h6 : r ∉ hostOps1_W) (h7 : r ∉ hostOps1_1_W) (h8 : r ∉ hostOps1_2_W) (h9 : r ∉ hostOps1_3_W) (h10 : r ∉ hostOps1_4_W)
    (h11 : W12 m c (Proc.devRef .tc r) = W11 m c (Proc.devRef .tc r)) (h12 : r ∉ hostOps2_W) :
    W13 m c (Proc.devRef .tc r) = m ((c : Thread nD τ).loc r) :=
  (StableHlo.after_of_writes_sub hostOps2 _ hostOps2_writes h12).trans <|
  h11.trans <|
  (StableHlo.after_of_writes_sub hostOps1_4 _ hostOps1_4_writes h10).trans <|
  (StableHlo.after_of_writes_sub hostOps1_3 _ hostOps1_3_writes h9).trans <|
  (StableHlo.after_of_writes_sub hostOps1_2 _ hostOps1_2_writes h8).trans <|
  (StableHlo.after_of_writes_sub hostOps1_1 _ hostOps1_1_writes h7).trans <|
  (StableHlo.after_of_writes_sub hostOps1 _ hostOps1_writes h6).trans <|
  h5.trans <|
  (Gen.V5_of m c r h4).trans <| (Gen.V4_of m c r h3).trans <| (Gen.V3_of m c r h2).trans <|
  (Gen.V2_of m c r h1).trans <| (Gen.V1_of m c r h0).trans rfl

/-- The frame: every weakly fair execution terminates, nothing faulting, and the three argument arrays end unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W13_arg m c main_arg0 (by decide) (by decide) (by decide) (by decide) (by decide) (W6_of_ne m c main_arg0 (by decide)) (by decide) (by decide) (by decide) (by decide) (by decide) (W12_of_ne m c main_arg0 (by decide)) (by decide)),
     (h c _ (mem_uc main_arg1 (by decide))).trans (W13_arg m c main_arg1 (by decide) (by decide) (by decide) (by decide) (by decide) (W6_in m c 2 rfl) (by decide) (by decide) (by decide) (by decide) (by decide) (W12_of_ne m c main_arg1 (by decide)) (by decide)),
     (h c _ (mem_uc main_arg2 (by decide))).trans (W13_arg m c main_arg2 (by decide) (by decide) (by decide) (by decide) (by decide) (W6_of_ne m c main_arg2 (by decide)) (by decide) (by decide) (by decide) (by decide) (by decide) (W12_in m c 2 rfl) (by decide))⟩)
    (run_all m ρ)

/-- The run with the result named: the result array ends at the last boundary's contents, the arguments unchanged. -/
theorem run_value : θ_run defs (onTc (τ := τ) (main (F := F))) ⟨m, fun _ => 0, ρ⟩ (fun r => ∀ c : Dev nD,
      r.2.mem ((c.tc : Thread nD τ).loc main_v27) = W13 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v27 (by decide)),
     (h c _ (mem_uc main_arg0 (by decide))).trans (W13_arg m c main_arg0 (by decide) (by decide) (by decide) (by decide) (by decide) (W6_of_ne m c main_arg0 (by decide)) (by decide) (by decide) (by decide) (by decide) (by decide) (W12_of_ne m c main_arg0 (by decide)) (by decide)),
     (h c _ (mem_uc main_arg1 (by decide))).trans (W13_arg m c main_arg1 (by decide) (by decide) (by decide) (by decide) (by decide) (W6_in m c 2 rfl) (by decide) (by decide) (by decide) (by decide) (by decide) (W12_of_ne m c main_arg1 (by decide)) (by decide)),
     (h c _ (mem_uc main_arg2 (by decide))).trans (W13_arg m c main_arg2 (by decide) (by decide) (by decide) (by decide) (by decide) (W6_of_ne m c main_arg2 (by decide)) (by decide) (by decide) (by decide) (by decide) (by decide) (W12_in m c 2 rfl) (by decide))⟩)
    (run_all m ρ)

end Cert.KernelIdeal.Hand

end
-- ==== Proof.Spec.lean ====
/-
  The arithmetic both programs compute, on the extended reals, entry by entry.

  An activation row a is quantised against its own scale: s = 127 / max(ε, maxₖ |aₖ|), and
  q(a)ₖ = clamp(roundeven(aₖ · s), -128, 127) / s.  A weight matrix w is quantised against one scale for
  the whole matrix: s = 1 / max(ε, (Σ |w|) / 2²⁴) and q(w) = clamp(roundeven(w · s), -1, 1) / s.  A layer is the
  contraction of the quantised activations with the quantised weights over the shared axis; the first layer is
  followed by max(·, 0).  The float literals are kept as the extended reals their words denote.
-/
import Idealize.ShloMosaic.PureOps.Ideal
import Idealize.ShloMosaic.PureOps.Ideal.Laws
import Idealize.ShloMosaic.Lib.ValueIdx

noncomputable section

namespace Cert.Spec

open Idealize.ShloMosaic

/-- The extended real an f32 word denotes. -/
def lit (w : BitVec 32) : EReal := Ideal.ofBits .f32 w

/-- Round to the nearest integer, ties to even; the infinities fixed. -/
def rnd (x : EReal) : EReal := Ideal.liftRound Ideal.roundHalfEven x

/-- The largest entry of a row, from -∞. -/
def rowMax {K : ℕ} (f : Fin K → EReal) : EReal :=
  (Finset.univ : Finset (Fin K)).fold max (lit 0xFF800000#32) f

/-- An activation row's scale, from the largest magnitude in the row: 127 / max(ε, that). -/
def actScale (rowmax : EReal) : EReal :=
  Ideal.div (lit 0x42FE0000#32) (max (lit 0x3727C5AC#32) rowmax)

/-- A weight matrix's scale, from the sum of its magnitudes: 1 / max(ε, sum / 2²⁴). -/
def wtScale (tot : EReal) : EReal :=
  Ideal.div (lit 0x3F800000#32) (max (lit 0x3727C5AC#32) (Ideal.div tot (lit 0x4B800000#32)))

/-- An activation entry quantised at scale s. -/
def qAct (s a : EReal) : EReal :=
  Ideal.div (min (lit 0x42FE0000#32) (max (lit 0xC3000000#32) (rnd (a * s)))) s

/-- A weight entry quantised at scale s. -/
def qWt (s w : EReal) : EReal :=
  Ideal.div (min (lit 0x3F800000#32) (max (lit 0xBF800000#32) (rnd (w * s)))) s

/-- One layer at entry (r, n): the quantised row r of the activations against the quantised row n of the weights. -/
def lin {M K N : ℕ} (sa : Fin M → EReal) (sw : EReal) (a : Fin M → Fin K → EReal) (w : Fin N → Fin K → EReal)
    (r : Fin M) (n : Fin N) : EReal :=
  ∑ l : Fin K, qAct (sa r) (a r l) * qWt sw (w n l)

/-- max(·, 0). -/
def relu (x : EReal) : EReal := max x (lit 0x00000000#32)

/-- |x|. -/
def absE (x : EReal) : EReal := max x (-x)

/-! ## The two layers on the flattened token axis

The activations arrive as [4, 1024, 2048]; token r = b · 1024 + t of the flattened [4096, 2048] view is row (b, t). -/

open Idealize.ShloMosaic.ValueIdx

/-- The input with its two leading axes flattened: row r is (r / 1024, r % 1024). -/
def x2d (x : (⟨3, ![4, 1024, 2048]⟩ : Shape).Idx → EReal) (r : Fin 4096) (l : Fin 2048) : EReal :=
  x (ix3 (⟨r.val / 1024, by omega⟩ : Fin 4) (⟨r.val % 1024, by omega⟩ : Fin 1024) l)

/-- A weight matrix's scale: from 0 + Σ |w| over all its entries. -/
def sW {N K : ℕ} (w : (⟨2, ![N, K]⟩ : Shape).Idx → EReal) : EReal :=
  wtScale (lit 0x00000000#32 + ∑ i : (⟨2, ![N, K]⟩ : Shape).Idx, absE (w i))

/-- Row r's scale in the first layer. -/
def sA1 (x : (⟨3, ![4, 1024, 2048]⟩ : Shape).Idx → EReal) (r : Fin 4096) : EReal :=
  actScale (rowMax fun k : Fin 2048 => absE (x2d x r k))

/-- The hidden activations: the first layer, then max(·, 0). -/
def hid (x : (⟨3, ![4, 1024, 2048]⟩ : Shape).Idx → EReal) (w1 : (⟨2, ![8192, 2048]⟩ : Shape).Idx → EReal)
    (r : Fin 4096) (n : Fin 8192) : EReal :=
  relu (lin (sA1 x) (sW w1) (x2d x) (fun n l => w1 (ix2 n l)) r n)

/-- Row r's scale in the second layer. -/
def sA2 (x : (⟨3, ![4, 1024, 2048]⟩ : Shape).Idx → EReal) (w1 : (⟨2, ![8192, 2048]⟩ : Shape).Idx → EReal) (r : Fin 4096) : EReal :=
  actScale (rowMax fun k : Fin 8192 => absE (hid x w1 r k))

/-- The network's result at token r, feature d. -/
def out (x : (⟨3, ![4, 1024, 2048]⟩ : Shape).Idx → EReal) (w1 : (⟨2, ![8192, 2048]⟩ : Shape).Idx → EReal)
    (w2 : (⟨2, ![2048, 8192]⟩ : Shape).Idx → EReal) (r : Fin 4096) (d : Fin 2048) : EReal :=
  lin (sA2 x w1) (sW w2) (hid x w1) (fun n l => w2 (ix2 n l)) r d

end Cert.Spec

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KIValue0.lean ====
/-
  What the first kernel region leaves in its output array, entry by entry, on the extended reals.

  At one grid point the body's value is one pure term of the four blocks it reads: the block of the activations
  times the row scales, rounded to the nearest integer, clamped to [-128, 127] and divided by the scale again;
  the block of the weights treated the same way with the one matrix scale and the clamp [-1, 1]; the product of
  the first with the transpose of the second into a zero accumulator; and max(·, 0) of that.  Read at entry
  (p, q) of the block this is max(·, 0) of the sum over l of the quantised activation (p, l) times the quantised
  weight (q, l).

  Every output block is then the restriction of one function of the whole arrays to the block's rectangle
  (block (i, j) of the output reads rows 256 i … 256 i + 255 of the activations and of their scales, and rows
  512 j … 512 j + 511 of the weights), and the 16 × 16 blocks tile the output, so the array ends holding that
  function.
-/
import proofs.«174975_j41592463294489_1_alg».proof.Proof.Gen.KernelIdeal.Launch
import proofs.«174975_j41592463294489_1_alg».proof.Proof.Gen.KernelIdeal.Skeleton
import proofs.«174975_j41592463294489_1_alg».proof.Proof.Gen.KernelIdeal.Points
import proofs.«174975_j41592463294489_1_alg».proof.Proof.Spec
import proofs.«174975_j41592463294489_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

noncomputable section

namespace Cert.KernelIdeal.Hand

open Cert.KernelIdeal Cert.KernelIdeal.Gen Idealize.ShloMosaic Idealize.ShloMosaic.ValueIdx

/-- A column [a, 1] broadcast along the second axis to [a, b] reads, at (p, c), the column's entry of row p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rounding to the nearest integer acts entry by entry. -/
theorem roundeven_apply {s : Shape} {φ : FTy} (a : FVec Ideal s φ) (i : s.Idx) :
    roundeven a i = Ideal.liftRound Ideal.roundHalfEven (a i) := rfl

/-- The product's dimension numbers: left columns against right rows, no batch axis. -/
theorem plain0 : Cert.Gcn.IsPlain dot_S256x2048_S2048x512_S256x512_1_0_0_1_n_n := ⟨rfl, rfl, rfl, rfl, rfl, rfl⟩

/-- THE BODY'S VALUE AT ENTRY (p, q) of its block: max(·, 0) of the quantised row p of the activations' block
    against the quantised row q of the weights' block. -/
theorem pay0_apply (x0 : Vec Ideal S256x2048 .f32) (x1 : Vec Ideal S256x1 .f32) (x2 : Vec Ideal S512x2048 .f32)
    (x3 : Vec Ideal S1x1 .f32) (p : Fin 256) (q : Fin 512) :
    k0_pay1 (F := Ideal) x0 x1 x2 x3 (ix2 p q)
      = Cert.Spec.relu (∑ l : Fin 2048, Cert.Spec.qAct (x1 (ix2 p 0)) (x0 (ix2 p l)) * Cert.Spec.qWt (x3 (ix2 0 0)) (x2 (ix2 q l))) := by
  unfold k0_pay1
  dsimp only
  rw [maximumf_apply, Cert.Gcn.matmul_plain_apply _ plain0]
  have e3 : extractAt ![0, 0] x3 inpos_S1x1_p0_0 = x3 (ix2 0 0) :=
    congrArg x3 (funext fun a => by match a with | ⟨0, _⟩ => rfl | ⟨1, _⟩ => rfl)
  rw [e3]
  refine congrArg₂ max (Finset.sum_congr rfl fun l _ => ?_) rfl
  rw [transpose_ix2_apply]
  simp only [truncf_apply, divf_apply, minimumf_apply, maximumf_apply, roundeven_apply, mulf_apply, broadcast_apply,
    shapeCast_self, broadcastTo_col_apply]
  rfl

/-! ## From the blocks to the array -/

open Idealize.ShloMosaic.TcCoe
open Idealize.ShloMosaic.Pipeline (Dat)

/-- The function of the whole arrays that the region leaves in its output: at (r, n), max(·, 0) of the quantised
    row r of the activations (at row r's scale) against the quantised row n of the weights (at the one scale). -/
def hidAll (s : S4096x1.Idx → EReal) (sw : S1x1.Idx → EReal) (a : S4096x2048.Idx → EReal) (w : S8192x2048.Idx → EReal) :
    S4096x8192.Idx → EReal :=
  fun i => Cert.Spec.relu (Cert.Spec.lin (fun r => s (ix2 r 0)) (sw (ix2 0 0)) (fun r l => a (ix2 r l))
    (fun n l => w (ix2 n l)) (i 0 : Fin 4096) (i 1 : Fin 8192))

theorem hidAll_apply (s : S4096x1.Idx → EReal) (sw : S1x1.Idx → EReal) (a : S4096x2048.Idx → EReal)
    (w : S8192x2048.Idx → EReal) (r : Fin 4096) (n : Fin 8192) :
    hidAll s sw a w (ix2 r n) = Cert.Spec.relu (Cert.Spec.lin (fun r => s (ix2 r 0)) (sw (ix2 0 0))
      (fun r l => a (ix2 r l)) (fun n l => w (ix2 n l)) r n) := rfl

/-- The printed index maps over the grid: point t is block (t / 16, t % 16) of the output; the activations' and the
    scales' blocks follow the output's block row, the weights' block follows the output's block column, and the one
    matrix scale stays. -/
theorem idx_facts0 : ∀ t : Fin cfg0.N,
    win0_4.index t (0 : Fin 2) = t.val / 16 ∧ win0_4.index t (1 : Fin 2) = t.val % 16
    ∧ win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = 0 :=
  (by decide +kernel : ∀ t : Fin grid0.N, _)

section Region

variable {c : Dev nD} (V : (b : Ref sig .tc) → Buf (Elt Ideal) ((c : Thread nD τ).loc b))

/-- The region's result as a function of the arrays the region finds. -/
abbrev hidOf : S4096x8192.Idx → EReal :=
  hidAll (V main_v6 : S4096x1.Idx → EReal) (V main_v12 : S1x1.Idx → EReal) (V main_v0 : S4096x2048.Idx → EReal)
    (V main_arg1 : S8192x2048.Idx → EReal)

/-- WHAT POINT t WRITES BACK is block t of the whole-array function. -/
theorem flushed0_eq (dat : Dat τ (Elt Ideal) Unit ℕ (UR sig nD τ) ℕ cfg0 c)
    (hafter : ∀ t : Fin cfg0.N, dat.after 4 t
      = k0_pay1 (((cfg0.win 0).blk t).view.read (Elt Ideal) (V (Pipeline.arrRef spec0 0)))
          (((cfg0.win 1).blk t).view.read (Elt Ideal) (V (Pipeline.arrRef spec0 1)))
          (((cfg0.win 2).blk t).view.read (Elt Ideal) (V (Pipeline.arrRef spec0 2)))
          (((cfg0.win 3).blk t).view.read (Elt Ideal) (V (Pipeline.arrRef spec0 3))))
    (t : Fin cfg0.N) :
    dat.flushed 4 t = ((cfg0.win 4).blk t).view.read (Elt Ideal) (hidOf V) := by
  show (cfg0.win 4).cut (grid0.coords t) (dat.after 4 t) = _
  rw [hafter]
  obtain ⟨e40, e41, e00, e01, e10, e11, e20, e21, e30, e31⟩ := idx_facts0 t
  have hN : t.val < 256 := t.isLt.trans_eq N_0
  funext j
  have hj0 : (j 0).val < 256 := (j 0).isLt
  have hj1 : (j 1).val < 512 := (j 1).isLt
  have hR : win0_4.index t (0 : Fin 2) * 256 + (j 0).val < 4096 := by omega
  have hC : win0_4.index t (1 : Fin 2) * 512 + (j 1).val < 8192 := by omega
  -- the entry's place in its block, and in the array
  have hx : (cfg0.win 4).xinj (grid0.coords t) j = ix2 (⟨(j 0).val, hj0⟩ : Fin 256) (⟨(j 1).val, hj1⟩ : Fin 512) :=
    funext fun a => by match a with | ⟨0, _⟩ => rfl | ⟨1, _⟩ => rfl
  have hE : ((cfg0.win 4).blk t).view.emb j
      = ix2 (⟨win0_4.index t (0 : Fin 2) * 256 + (j 0).val, hR⟩ : Fin 4096) (⟨win0_4.index t (1 : Fin 2) * 512 + (j 1).val, hC⟩ : Fin 8192) := by
    funext a; apply Fin.ext
    match a with
    | ⟨0, _⟩ => show win0_4.index t (0 : Fin 2) * 256 + 1 * (j 0).val = win0_4.index t (0 : Fin 2) * 256 + (j 0).val; omega
    | ⟨1, _⟩ => show win0_4.index t (1 : Fin 2) * 512 + 1 * (j 1).val = win0_4.index t (1 : Fin 2) * 512 + (j 1).val; omega
  show k0_pay1 (F := Ideal) _ _ _ _ ((cfg0.win 4).xinj (grid0.coords t) j) = hidOf V (((cfg0.win 4).blk t).view.emb j)
  rw [hx, hE, pay0_apply]
  unfold hidOf
  rw [hidAll_apply]
  unfold Cert.Spec.lin
  refine congrArg Cert.Spec.relu (Finset.sum_congr rfl fun l _ => ?_)
  -- each input block read where the output's rectangle says
  have h0 : ((cfg0.win 0).blk t).view.emb (ix2 (⟨(j 0).val, hj0⟩ : Fin 256) l)
      = ix2 (⟨win0_4.index t (0 : Fin 2) * 256 + (j 0).val, hR⟩ : Fin 4096) l := by
    funext a; apply Fin.ext
    match a with
    | ⟨0, _⟩ => show win0_0.index t (0 : Fin 2) * 256 + 1 * (j 0).val = win0_4.index t (0 : Fin 2) * 256 + (j 0).val; omega
    | ⟨1, _⟩ => show win0_0.index t (1 : Fin 2) * 2048 + 1 * l.val = l.val; omega
  have h1 : ((cfg0.win 1).blk t).view.emb (ix2 (⟨(j 0).val, hj0⟩ : Fin 256) (0 : Fin 1))
      = ix2 (⟨win0_4.index t (0 : Fin 2) * 256 + (j 0).val, hR⟩ : Fin 4096) (0 : Fin 1) := by
    funext a; apply Fin.ext
    match a with
    | ⟨0, _⟩ => show win0_1.index t (0 : Fin 2) * 256 + 1 * (j 0).val = win0_4.index t (0 : Fin 2) * 256 + (j 0).val; omega
    | ⟨1, _⟩ => show win0_1.index t (1 : Fin 2) * 1 + 1 * 0 = 0; omega
  have h2 : ((cfg0.win 2).blk t).view.emb (ix2 (⟨(j 1).val, hj1⟩ : Fin 512) l)
      = ix2 (⟨win0_4.index t (1 : Fin 2) * 512 + (j 1).val, hC⟩ : Fin 8192) l := by
    funext a; apply Fin.ext
    match a with
    | ⟨0, _⟩ => show win0_2.index t (0 : Fin 2) * 512 + 1 * (j 1).val = win0_4.index t (1 : Fin 2) * 512 + (j 1).val; omega
    | ⟨1, _⟩ => show win0_2.index t (1 : Fin 2) * 2048 + 1 * l.val = l.val; omega
  have h3 : ((cfg0.win 3).blk t).view.emb (ix2 (0 : Fin 1) (0 : Fin 1)) = ix2 (0 : Fin 1) (0 : Fin 1) := by
    funext a; apply Fin.ext
    match a with
    | ⟨0, _⟩ => show win0_3.index t (0 : Fin 2) * 1 + 1 * 0 = 0; omega
    | ⟨1, _⟩ => show win0_3.index t (1 : Fin 2) * 1 + 1 * 0 = 0; omega
  show Cert.Spec.qAct ((V main_v6 : S4096x1.Idx → EReal) (((cfg0.win 1).blk t).view.emb (ix2 (⟨(j 0).val, hj0⟩ : Fin 256) (0 : Fin 1))))
        ((V main_v0 : S4096x2048.Idx → EReal) (((cfg0.win 0).blk t).view.emb (ix2 (⟨(j 0).val, hj0⟩ : Fin 256) l)))
      * Cert.Spec.qWt ((V main_v12 : S1x1.Idx → EReal) (((cfg0.win 3).blk t).view.emb (ix2 (0 : Fin 1) (0 : Fin 1))))
        ((V main_arg1 : S8192x2048.Idx → EReal) (((cfg0.win 2).blk t).view.emb (ix2 (⟨(j 1).val, hj1⟩ : Fin 512) l))) = _
  rw [h0, h1, h2, h3]

/-- An entry of the output lies in point t's block iff each coordinate lies in the block's range on its axis. -/
theorem mem_blk0 (t : Fin cfg0.N) (i : S4096x8192.Idx) :
    i ∈ ((cfg0.win 4).blk t).view.set
      ↔ ∀ a : Fin 2, win0_4.index t a * S256x512.size a ≤ (i a).val ∧ (i a).val < win0_4.index t a * S256x512.size a + S256x512.size a := by
  show i ∈ ((View.whole main_v13).slice (win0_4.rect t)).set ↔ _
  rw [View.set_slice_whole, Rect.mem_set_unit]
  exact Iff.rfl

/-- THE BLOCKS TILE THE OUTPUT: entry (r, n) lies in the block of the point with block row r / 256 and block column
    n / 512, which is point (r / 256) · 16 + n / 512 of the grid. -/
theorem cover0 (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  have ht : (i 0).val / 256 * 16 + (i 1).val / 512 < cfg0.N :=
    lt_of_lt_of_eq (by omega : (i 0).val / 256 * 16 + (i 1).val / 512 < 256) N_0.symm
  refine ⟨⟨_, ht⟩, flush0_4 _, ?_⟩
  rw [mem_blk0]
  obtain ⟨e40, e41, -⟩ := idx_facts0 ⟨_, ht⟩
  have e40' : win0_4.index ⟨_, ht⟩ (0 : Fin 2) = ((i 0).val / 256 * 16 + (i 1).val / 512) / 16 := e40
  have e41' : win0_4.index ⟨_, ht⟩ (1 : Fin 2) = ((i 0).val / 256 * 16 + (i 1).val / 512) % 16 := e41
  intro a
  match a with
  | ⟨0, _⟩ =>
    show win0_4.index ⟨_, ht⟩ (0 : Fin 2) * 256 ≤ (i 0).val ∧ (i 0).val < win0_4.index ⟨_, ht⟩ (0 : Fin 2) * 256 + 256
    rw [e40']; omega
  | ⟨1, _⟩ =>
    show win0_4.index ⟨_, ht⟩ (1 : Fin 2) * 512 ≤ (i 1).val ∧ (i 1).val < win0_4.index ⟨_, ht⟩ (1 : Fin 2) * 512 + 512
    rw [e41']; omega

/-- THE OUTPUT ARRAY AFTER THE REGION, entry by entry: at (r, n) it holds max(·, 0) of the quantised row r of the
    activations, at the scale the region finds for that row, against the quantised row n of the weights, at the one
    scale the region finds for the matrix. -/
theorem region0_value (dat : Dat τ (Elt Ideal) Unit ℕ (UR sig nD τ) ℕ cfg0 c)
    (hA : ∀ w, dat.A w = V (Pipeline.arrRef spec0 w))
    (hafter : ∀ t : Fin cfg0.N, dat.after 4 t
      = k0_pay1 (((cfg0.win 0).blk t).view.read (Elt Ideal) (V (Pipeline.arrRef spec0 0)))
          (((cfg0.win 1).blk t).view.read (Elt Ideal) (V (Pipeline.arrRef spec0 1)))
          (((cfg0.win 2).blk t).view.read (Elt Ideal) (V (Pipeline.arrRef spec0 2)))
          (((cfg0.win 3).blk t).view.read (Elt Ideal) (V (Pipeline.arrRef spec0 3))))
    (r : Fin 4096) (n : Fin 8192) :
    (dat.arrAt 4 cfg0.N : S4096x8192.Idx → EReal) (ix2 r n)
      = Cert.Spec.relu (Cert.Spec.lin (fun r => (V main_v6 : S4096x1.Idx → EReal) (ix2 r 0))
          ((V main_v12 : S1x1.Idx → EReal) (ix2 0 0)) (fun r l => (V main_v0 : S4096x2048.Idx → EReal) (ix2 r l))
          (fun n l => (V main_arg1 : S8192x2048.Idx → EReal) (ix2 n l)) r n) :=
  (congrFun (dat.arrAt_eq_of_cover 4 (hidOf V) (fun t _ => flushed0_eq V dat hafter t) cover0) (ix2 r n)).trans
    (hidAll_apply _ _ _ _ r n)

end Region

end Cert.KernelIdeal.Hand

end
-- ==== Proof.KIValue1.lean ====
/-
  The second kernel region at the extended reals, entry by entry.

  The region walks a grid of 16 × 4 × 8 points (i, j, k).  At each point it holds a 256 × 1024 block of the
  activations (rows 256·i …, contraction coordinates 1024·k …), the 256 row scales of those rows, a 512 × 1024 block of
  the weights (rows 512·j …, the same contraction coordinates) and the weights' single scale.  It quantises both blocks,
  multiplies the first by the transpose of the second and adds the 256 × 512 product into a scratch that it zeroes when
  k = 0; at k = 7 the scratch is written to block (i, j) of the result.  Since addition on the extended reals is
  commutative and associative, the eight partial sums over 1024 contraction coordinates add up to the one sum over all
  8192, whatever infinities occur: the result's entry (r, n) is the quantised row r of the activations against the
  quantised row n of the weights.
-/
import proofs.«174975_j41592463294489_1_alg».proof.Proof.Gen.KernelIdeal.Launch
import proofs.«174975_j41592463294489_1_alg».proof.Proof.Gen.KernelIdeal.Skeleton
import proofs.«174975_j41592463294489_1_alg».proof.Proof.Gen.KernelIdeal.Points
import proofs.«174975_j41592463294489_1_alg».proof.Proof.Spec
import proofs.«174975_j41592463294489_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

noncomputable section

namespace Cert.KernelIdeal.Hand

open Cert.KernelIdeal Cert.KernelIdeal.Gen Idealize.ShloMosaic Idealize.ShloMosaic.ValueIdx
open Idealize.ShloMosaic.TcCoe Idealize.SL.Sem

/-! ## The body's arithmetic at one entry -/

/-- The scratch's reset value is zero at every entry. -/
theorem pay1_apply (p : Fin 256) (q : Fin 512) : k1_pay1 (F := Ideal) (ix2 p q) = 0 := by
  unfold k1_pay1
  rw [shapeCast_self]
  exact Ideal.ofBits_zero_f32

/-- The product's dimension numbers contract the left columns against the right rows, with no batch axis. -/
theorem dot_isPlain : Cert.Gcn.IsPlain (M := 256) (K := 1024) (N := 512) dot_S256x1024_S1024x512_S256x512_1_0_0_1_n_n :=
  ⟨rfl, rfl, rfl, rfl, rfl, rfl⟩

/-- A column of row scales spread over the columns reads, at (p, l), row p's scale. -/
theorem rowScale_apply (x1 : FVec Ideal S256x1 .f32) (p : Fin 256) (l : Fin 1024) :
    broadcastTo S256x1024 x1 broadcasts_S256x1_S256x1024 (ix2 p l) = x1 (ix2 p 0) :=
  broadcastTo_apply x1 broadcasts_S256x1_S256x1024 (ix2 p l) (ix2 p 0) fun a => by
    match a with
    | ⟨0, _⟩ => rfl
    | ⟨1, _⟩ => rfl

/-- The one entry of a 1 × 1 block. -/
theorem scalar_apply (x3 : FVec Ideal S1x1 .f32) : extractAt ![0, 0] x3 inpos_S1x1_p0_0 = x3 (ix2 0 0) := by
  unfold extractAt
  refine congrArg x3 (funext fun a => ?_)
  match a with
  | ⟨0, _⟩ => rfl
  | ⟨1, _⟩ => rfl

/-- Rounding a block to the nearest integers rounds each entry. -/
theorem roundeven_apply {s : Shape} {φ : FTy} (a : FVec Ideal s φ) (i : s.Idx) :
    roundeven a i = Ideal.liftRound Ideal.roundHalfEven (a i) := rfl

/-- One step of the body: the scratch's entry (p, q) gains the quantised row p of the activation block against the
    quantised row q of the weight block, over the block's 1024 contraction coordinates. -/
theorem pay2_apply (x0 : Vec Ideal S256x1024 .f32) (x1 : Vec Ideal S256x1 .f32) (x2 : Vec Ideal S512x1024 .f32)
    (x3 : Vec Ideal S1x1 .f32) (acc : Vec Ideal S256x512 .f32) (p : Fin 256) (q : Fin 512) :
    k1_pay2 (F := Ideal) x0 x1 x2 x3 acc (ix2 p q)
      = acc (ix2 p q) + ∑ l : Fin 1024, Cert.Spec.qAct (x1 (ix2 p 0)) (x0 (ix2 p l)) * Cert.Spec.qWt (x3 (ix2 0 0)) (x2 (ix2 q l)) := by
  unfold k1_pay2
  simp only [shapeCast_self]
  rw [addf_apply, Cert.Gcn.matmul_plain_apply _ dot_isPlain]
  refine congrArg (acc (ix2 p q) + ·) (Finset.sum_congr rfl fun l _ => ?_)
  rw [transpose_apply [1, 0] _ transposes_S512x1024_p1_0_S1024x512 (ix2 l q) (ix2 q l) (fun b => by
    match b with
    | ⟨0, _⟩ => rfl
    | ⟨1, _⟩ => rfl)]
  simp only [truncf_apply, divf_apply, minimumf_apply, maximumf_apply, broadcast_apply, roundeven_apply, mulf_apply]
  rw [rowScale_apply x1 p l, scalar_apply x3]
  unfold Cert.Spec.qAct Cert.Spec.qWt Cert.Spec.rnd Cert.Spec.lit
  rfl

/-! ## Where a point's blocks sit in their arrays

Point t of the 16 × 4 × 8 grid has coordinates i = t / 32, j = t / 8 % 4, k = t % 8. -/

/-- The block index of each window at each point, on each axis. -/
theorem blockIndex : ∀ t : Fin cfg1.N,
    win1_0.index t (0 : Fin 2) = t.val / 32 ∧ win1_0.index t (1 : Fin 2) = t.val % 8
    ∧ win1_1.index t (0 : Fin 2) = t.val / 32 ∧ win1_1.index t (1 : Fin 2) = 0
    ∧ win1_2.index t (0 : Fin 2) = t.val / 8 % 4 ∧ win1_2.index t (1 : Fin 2) = t.val % 8
    ∧ win1_3.index t (0 : Fin 2) = 0 ∧ win1_3.index t (1 : Fin 2) = 0
    ∧ win1_4.index t (0 : Fin 2) = t.val / 32 ∧ win1_4.index t (1 : Fin 2) = t.val / 8 % 4 :=
  (by decide +kernel : ∀ t : Fin grid1.N, _)

section Region

variable {c : Dev nD} (V : (b : Ref sig .tc) → Buf (Elt Ideal) ((c : Thread nD τ).loc b))

/-- The 256 × 1024 block of the activations the region holds at point t. -/
abbrev actBlk (t : Fin cfg1.N) : Vec Ideal S256x1024 .f32 :=
  ((cfg1.win 0).blk t).view.read (Elt Ideal) (V (Pipeline.arrRef spec1 0))
/-- The 256 row scales it holds at point t. -/
abbrev rowScaleBlk (t : Fin cfg1.N) : Vec Ideal S256x1 .f32 :=
  ((cfg1.win 1).blk t).view.read (Elt Ideal) (V (Pipeline.arrRef spec1 1))
/-- The 512 × 1024 block of the weights it holds at point t. -/
abbrev wtBlk (t : Fin cfg1.N) : Vec Ideal S512x1024 .f32 :=
  ((cfg1.win 2).blk t).view.read (Elt Ideal) (V (Pipeline.arrRef spec1 2))
/-- The weights' scale, the same 1 × 1 array at every point. -/
abbrev wtScaleBlk (t : Fin cfg1.N) : Vec Ideal S1x1 .f32 :=
  ((cfg1.win 3).blk t).view.read (Elt Ideal) (V (Pipeline.arrRef spec1 3))

/-- Entry (p, l) of the activation block at point t is entry (256·i + p, 1024·k + l) of the activations. -/
theorem actBlk_apply (t : Fin cfg1.N) (p : Fin 256) (l : Fin 1024) (R : Fin 4096) (L : Fin 8192)
    (hR : R.val = t.val / 32 * 256 + p.val) (hL : L.val = t.val % 8 * 1024 + l.val) :
    actBlk V t (ix2 p l) = V main_v13 (ix2 R L) := by
  obtain ⟨e0, e1, -⟩ := blockIndex t
  show ((cfg1.win 0).blk t).view.read (Elt Ideal) (V (Pipeline.arrRef spec1 0)) (ix2 p l) = _
  rw [View.read_apply]
  show V main_v13 _ = V main_v13 _
  refine congrArg (V main_v13) (funext fun a => Fin.ext ?_)
  match a with
  | ⟨0, _⟩ => show win1_0.index t (0 : Fin 2) * 256 + 1 * p.val = R.val; rw [e0, hR]; omega
  | ⟨1, _⟩ => show win1_0.index t (1 : Fin 2) * 1024 + 1 * l.val = L.val; rw [e1, hL]; omega

/-- Entry (p, 0) of the row-scale block at point t is row 256·i + p's scale. -/
theorem rowScaleBlk_apply (t : Fin cfg1.N) (p : Fin 256) (R : Fin 4096) (hR : R.val = t.val / 32 * 256 + p.val) :
    rowScaleBlk V t (ix2 p 0) = V main_v19 (ix2 R 0) := by
  obtain ⟨-, -, e0, e1, -⟩ := blockIndex t
  show ((cfg1.win 1).blk t).view.read (Elt Ideal) (V (Pipeline.arrRef spec1 1)) (ix2 p 0) = _
  rw [View.read_apply]
  show V main_v19 _ = V main_v19 _
  refine congrArg (V main_v19) (funext fun a => Fin.ext ?_)
  match a with
  | ⟨0, _⟩ => show win1_1.index t (0 : Fin 2) * 256 + 1 * p.val = R.val; rw [e0, hR]; omega
  | ⟨1, _⟩ => show win1_1.index t (1 : Fin 2) * 1 + 1 * 0 = 0; rw [e1]

/-- Entry (q, l) of the weight block at point t is entry (512·j + q, 1024·k + l) of the weights. -/
theorem wtBlk_apply (t : Fin cfg1.N) (q : Fin 512) (l : Fin 1024) (C : Fin 2048) (L : Fin 8192)
    (hC : C.val = t.val / 8 % 4 * 512 + q.val) (hL : L.val = t.val % 8 * 1024 + l.val) :
    wtBlk V t (ix2 q l) = V main_arg2 (ix2 C L) := by
  obtain ⟨-, -, -, -, e0, e1, -⟩ := blockIndex t
  show ((cfg1.win 2).blk t).view.read (Elt Ideal) (V (Pipeline.arrRef spec1 2)) (ix2 q l) = _
  rw [View.read_apply]
  show V main_arg2 _ = V main_arg2 _
  refine congrArg (V main_arg2) (funext fun a => Fin.ext ?_)
  match a with
  | ⟨0, _⟩ => show win1_2.index t (0 : Fin 2) * 512 + 1 * q.val = C.val; rw [e0, hC]; omega
  | ⟨1, _⟩ => show win1_2.index t (1 : Fin 2) * 1024 + 1 * l.val = L.val; rw [e1, hL]; omega

/-- The weights' scale is read whole at every point. -/
theorem wtScaleBlk_apply (t : Fin cfg1.N) : wtScaleBlk V t (ix2 0 0) = V main_v25 (ix2 0 0) := by
  obtain ⟨-, -, -, -, -, -, e0, e1, -⟩ := blockIndex t
  show ((cfg1.win 3).blk t).view.read (Elt Ideal) (V (Pipeline.arrRef spec1 3)) (ix2 0 0) = _
  rw [View.read_apply]
  show V main_v25 _ = V main_v25 _
  refine congrArg (V main_v25) (funext fun a => Fin.ext ?_)
  match a with
  | ⟨0, _⟩ => show win1_3.index t (0 : Fin 2) * 1 + 1 * 0 = 0; rw [e0]
  | ⟨1, _⟩ => show win1_3.index t (1 : Fin 2) * 1 + 1 * 0 = 0; rw [e1]

/-! ## The contraction, coordinate by coordinate -/

/-- The product of the quantised entries of row r of the activations and of row n of the weights at contraction
    coordinate m; zero past the contraction's extent, where it is never read. -/
def addend (r : Fin 4096) (n : Fin 2048) (m : ℕ) : EReal :=
  if h : m < 8192 then
    Cert.Spec.qAct (V main_v19 (ix2 r 0)) (V main_v13 (ix2 r ⟨m, h⟩)) * Cert.Spec.qWt (V main_v25 (ix2 0 0)) (V main_arg2 (ix2 n ⟨m, h⟩))
  else 0

/-- The layer's entry (r, n) is the sum of the addends over all 8192 contraction coordinates. -/
theorem lin_eq_sum (r : Fin 4096) (n : Fin 2048) :
    Cert.Spec.lin (fun r => V main_v19 (ix2 r 0)) (V main_v25 (ix2 0 0)) (fun r l => V main_v13 (ix2 r l))
      (fun n l => V main_arg2 (ix2 n l)) r n = ∑ m ∈ Finset.range 8192, addend V r n m := by
  unfold Cert.Spec.lin
  rw [← Fin.sum_univ_eq_sum_range]
  refine Finset.sum_congr rfl fun l _ => ?_
  unfold addend
  rw [dif_pos l.isLt]

/-- What one point adds to the scratch's entry (p, q): the addends of its 1024 contraction coordinates, for the row and
    the column of the result that the entry belongs to. -/
theorem point_sum (t : Fin cfg1.N) (p : Fin 256) (q : Fin 512) (R : Fin 4096) (C : Fin 2048) (K : ℕ)
    (hR : R.val = t.val / 32 * 256 + p.val) (hC : C.val = t.val / 8 % 4 * 512 + q.val) (hK : t.val % 8 = K) :
    ∑ l : Fin 1024, Cert.Spec.qAct (rowScaleBlk V t (ix2 p 0)) (actBlk V t (ix2 p l))
        * Cert.Spec.qWt (wtScaleBlk V t (ix2 0 0)) (wtBlk V t (ix2 q l))
      = ∑ l ∈ Finset.range 1024, addend V R C (K * 1024 + l) := by
  rw [← Fin.sum_univ_eq_sum_range]
  refine Finset.sum_congr rfl fun l _ => ?_
  have hl : K * 1024 + l.val < 8192 := by have := l.isLt; omega
  unfold addend
  rw [dif_pos hl, rowScaleBlk_apply V t p R hR, wtScaleBlk_apply V t,
    actBlk_apply V t p l R ⟨K * 1024 + l.val, hl⟩ hR (by rw [hK]),
    wtBlk_apply V t q l C ⟨K * 1024 + l.val, hl⟩ hC (by rw [hK])]

end Region

/-! ## The scratch over a run of eight points, and the result array -/

section Run

open Idealize.ShloMosaic.Pipeline (Dat)

variable {Ix : Type} [DecidableEq Ix] {Name : Type} [DecidableEq Name] {U : Type} [Idealize.SL.RA.URA U] {Lvl : Type}
variable {c : Dev nD} (V : (b : Ref sig .tc) → Buf (Elt Ideal) ((c : Thread nD τ).loc b))

/-- The partial sums of the contraction. Over the run of points b, b + 1, …, b + 7 that share a row block i and a column block j (b a
    multiple of 8), the scratch's entry (p, q) after point b + k is the sum of the addends of the first (k + 1) · 1024
    contraction coordinates, for row 256·i + p and column 512·j + q of the result: the first point zeroes the scratch
    and adds its 1024, each later one adds its own 1024 to what the point before left. -/
theorem scratch_partial (acc : (n : ℕ) → n < cfg1.N → Vec Ideal S256x512 .f32)
    (hreset : ∀ t : Fin cfg1.N, t.val % 8 = 0 →
      acc t.val t.isLt = k1_pay2 (actBlk V t) (rowScaleBlk V t) (wtBlk V t) (wtScaleBlk V t) (k1_pay1 (F := Ideal)))
    (hstep : ∀ t : Fin cfg1.N, t.val % 8 ≠ 0 →
      acc t.val t.isLt = k1_pay2 (actBlk V t) (rowScaleBlk V t) (wtBlk V t) (wtScaleBlk V t)
        (acc (t.val - 1) (Nat.lt_of_le_of_lt (Nat.sub_le _ _) t.isLt)))
    (b : ℕ) (hb : b % 8 = 0) (p : Fin 256) (q : Fin 512) (R : Fin 4096) (C : Fin 2048)
    (hR : R.val = b / 32 * 256 + p.val) (hC : C.val = b / 8 % 4 * 512 + q.val) :
    ∀ (k : ℕ) (_ : k < 8) (h : b + k < cfg1.N),
      acc (b + k) h (ix2 p q) = ∑ m ∈ Finset.range ((k + 1) * 1024), addend V R C m
  | 0, _, h => by
    have e : acc (b + 0) h = _ := hreset ⟨b + 0, h⟩ (by show (b + 0) % 8 = 0; omega)
    rw [e, pay2_apply, pay1_apply, zero_add,
      point_sum V ⟨b + 0, h⟩ p q R C 0 (by show R.val = (b + 0) / 32 * 256 + p.val; omega)
        (by show C.val = (b + 0) / 8 % 4 * 512 + q.val; omega) (by show (b + 0) % 8 = 0; omega)]
    simp only [Nat.zero_mul, Nat.zero_add, Nat.one_mul]
  | k + 1, hk, h => by
    have e : acc (b + (k + 1)) h = _ := hstep ⟨b + (k + 1), h⟩ (by show (b + (k + 1)) % 8 ≠ 0; omega)
    have same : ∀ (u : ℕ) (hu : u < cfg1.N) (u' : ℕ) (hu' : u' < cfg1.N), u = u' → acc u hu = acc u' hu' := by
      intro u hu u' hu' e; subst e; rfl
    have hprev : b + k < cfg1.N := by omega
    rw [e, pay2_apply,
      point_sum V ⟨b + (k + 1), h⟩ p q R C (k + 1) (by show R.val = (b + (k + 1)) / 32 * 256 + p.val; omega)
        (by show C.val = (b + (k + 1)) / 8 % 4 * 512 + q.val; omega) (by show (b + (k + 1)) % 8 = k + 1; omega),
      same _ _ (b + k) hprev (by show b + (k + 1) - 1 = b + k; omega),
      scratch_partial acc hreset hstep b hb p q R C hR hC k (by omega) hprev,
      show (k + 1 + 1) * 1024 = (k + 1) * 1024 + 1024 by omega, Finset.sum_range_add]

/-- The layer's result, as contents of the result array. -/
abbrev result : S4096x2048.Idx → Ideal .f32 := fun i =>
  Cert.Spec.lin (fun r => V main_v19 (ix2 r 0)) (V main_v25 (ix2 0 0)) (fun r l => V main_v13 (ix2 r l))
    (fun n l => V main_arg2 (ix2 n l)) (i 0) (i 1)

/-- A point with k = 7 writes back its block of the layer's result: the scratch then holds the whole sum over the 8192
    contraction coordinates. -/
theorem flushed_eq (dat : Dat τ (Elt Ideal) Ix Name U Lvl cfg1 c)
    (acc : (n : ℕ) → n < cfg1.N → Vec Ideal S256x512 .f32)
    (hafter : ∀ t : Fin cfg1.N, dat.after 4 t = acc t.val t.isLt)
    (hreset : ∀ t : Fin cfg1.N, t.val % 8 = 0 →
      acc t.val t.isLt = k1_pay2 (actBlk V t) (rowScaleBlk V t) (wtBlk V t) (wtScaleBlk V t) (k1_pay1 (F := Ideal)))
    (hstep : ∀ t : Fin cfg1.N, t.val % 8 ≠ 0 →
      acc t.val t.isLt = k1_pay2 (actBlk V t) (rowScaleBlk V t) (wtBlk V t) (wtScaleBlk V t)
        (acc (t.val - 1) (Nat.lt_of_le_of_lt (Nat.sub_le _ _) t.isLt)))
    (t : Fin cfg1.N) (hf : (cfg1.win 4).flush t = true) :
    dat.flushed 4 t = ((cfg1.win 4).blk t).view.read (Elt Ideal) (result V) := by
  have h7 : t.val % 8 = 7 := (flush1_4 t).mp hf
  have hN : cfg1.N = 512 := N_1
  have ht : t.val < cfg1.N := t.isLt
  obtain ⟨-, -, -, -, -, -, -, -, e0, e1⟩ := blockIndex t
  show (cfg1.win 4).cut (grid1.coords t) (dat.after 4 t) = _
  rw [hafter t]
  funext y
  obtain ⟨p, q, rfl⟩ : ∃ (p : Fin 256) (q : Fin 512), y = ix2 p q := ⟨y 0, y 1, eq_ix2 y⟩
  rw [View.read_apply]
  have hp : p.val < 256 := p.isLt
  have hq : q.val < 512 := q.isLt
  obtain ⟨R, hR⟩ : ∃ R : Fin 4096, R.val = t.val / 32 * 256 + p.val := ⟨⟨_, by omega⟩, rfl⟩
  obtain ⟨C, hC⟩ : ∃ C : Fin 2048, C.val = t.val / 8 % 4 * 512 + q.val := ⟨⟨_, by omega⟩, rfl⟩
  have hemb : ((cfg1.win 4).blk t).view.emb (ix2 p q) = ix2 R C := funext fun a => Fin.ext (by
    match a with
    | ⟨0, _⟩ => show win1_4.index t (0 : Fin 2) * 256 + 1 * p.val = R.val; rw [e0, hR]; omega
    | ⟨1, _⟩ => show win1_4.index t (1 : Fin 2) * 512 + 1 * q.val = C.val; rw [e1, hC]; omega)
  show acc t.val t.isLt (ix2 p q) = result V (((cfg1.win 4).blk t).view.emb (ix2 p q))
  rw [hemb]
  show _ = Cert.Spec.lin _ _ _ _ R C
  rw [lin_eq_sum V R C]
  have same : ∀ (u : ℕ) (hu : u < cfg1.N), u = t.val → acc u hu = acc t.val t.isLt := by
    intro u hu e; subst e; rfl
  rw [← same (t.val - 7 + 7) (by omega) (by omega)]
  exact scratch_partial V acc hreset hstep (t.val - 7) (by omega) p q R C (by rw [hR]; omega) (by rw [hC]; omega) 7
    (by omega) (by omega)

/-- The points with k = 7 cover the result array: entry (r, n) lies in the block of the point with i = r / 256,
    j = n / 512, k = 7. -/
theorem covered (i : S4096x2048.Idx) :
    ∃ t : Fin cfg1.N, (cfg1.win 4).flush t = true ∧ i ∈ ((cfg1.win 4).blk t).view.set := by
  have hN : cfg1.N = 512 := N_1
  have h0 : (i 0).val < 4096 := idx2_lt0 i
  have h1 : (i 1).val < 2048 := idx2_lt1 i
  obtain ⟨t, ht⟩ : ∃ t : Fin cfg1.N, t.val = ((i 0).val / 256 * 4 + (i 1).val / 512) * 8 + 7 := ⟨⟨_, by omega⟩, rfl⟩
  obtain ⟨-, -, -, -, -, -, -, -, e0, e1⟩ := blockIndex t
  refine ⟨t, (flush1_4 t).mpr (by omega), ?_⟩
  show i ∈ ((View.whole main_v26).slice (win1_4.rect t)).set
  rw [View.set_slice_whole, Rect.mem_set_unit]
  intro a
  match a with
  | ⟨0, _⟩ =>
    show win1_4.index t (0 : Fin 2) * 256 ≤ (i 0).val ∧ (i 0).val < win1_4.index t (0 : Fin 2) * 256 + 256
    rw [e0]; omega
  | ⟨1, _⟩ =>
    show win1_4.index t (1 : Fin 2) * 512 ≤ (i 1).val ∧ (i 1).val < win1_4.index t (1 : Fin 2) * 512 + 512
    rw [e1]; omega

/-- The second region's value. Given that the scratch after each point is the body's step of what the point before left
    (zero at the first point of each run of eight) and that the output's staging buffer is that scratch, the result array
    ends holding, at (r, n), the quantised row r of the activations against the quantised row n of the weights. -/
theorem region1_value (dat : Dat τ (Elt Ideal) Ix Name U Lvl cfg1 c)
    (acc : (n : ℕ) → n < cfg1.N → Vec Ideal S256x512 .f32)
    (hA : ∀ w, dat.A w = V (Pipeline.arrRef spec1 w))
    (hafter : ∀ t : Fin cfg1.N, dat.after 4 t = acc t.val t.isLt)
    (hreset : ∀ t : Fin cfg1.N, t.val % 8 = 0 →
      acc t.val t.isLt = k1_pay2 (actBlk V t) (rowScaleBlk V t) (wtBlk V t) (wtScaleBlk V t) (k1_pay1 (F := Ideal)))
    (hstep : ∀ t : Fin cfg1.N, t.val % 8 ≠ 0 →
      acc t.val t.isLt = k1_pay2 (actBlk V t) (rowScaleBlk V t) (wtBlk V t) (wtScaleBlk V t)
        (acc (t.val - 1) (Nat.lt_of_le_of_lt (Nat.sub_le _ _) t.isLt)))
    (r : Fin 4096) (n : Fin 2048) :
    dat.arrAt 4 cfg1.N (ix2 r n)
      = Cert.Spec.lin (fun r => V main_v19 (ix2 r 0)) (V main_v25 (ix2 0 0)) (fun r l => V main_v13 (ix2 r l))
          (fun n l => V main_arg2 (ix2 n l)) r n :=
  congrFun (dat.arrAt_eq_of_cover 4 (result V) (flushed_eq V dat acc hafter hreset hstep) covered) (ix2 r n)

end Run

end Cert.KernelIdeal.Hand

end
-- ==== Proof.KIHost.lean ====
import proofs.«174975_j41592463294489_1_alg».proof.Proof.Gen.KernelIdeal.Launch
import proofs.«174975_j41592463294489_1_alg».proof.Proof.Gen.KernelIdeal.Regions
import proofs.«174975_j41592463294489_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Hand

open Cert.KernelIdeal Cert.KernelIdeal.Gen Idealize.ShloMosaic Idealize.ShloMosaic.TcCoe
open Idealize.ShloMosaic.ValueIdx Idealize.ShloMosaic.StableHlo

/-! # The host operations of the idealized kernel program, read at an entry

Between its two kernel regions the program prepares, from the activations and the two weight matrices,
the flattened activations, one scale per activation row (127 over the row's largest magnitude, floored at ε)
and one scale per weight matrix (the reciprocal of the mean-like quantity Σ|w| / 2²⁴, floored at ε); after the
second region it splits the token axis again.  Each stretch of host operations is first composed into one term
per buffer it writes, for an arbitrary valuation of the buffers before it; the terms are then read at an entry,
where they are the specification's scales. -/

/-! ## Layout operations and reductions at an entry -/

/-- Flattening the two leading axes: entry (r, l) of the flat array is entry (r / 1024, r % 1024, l). -/
theorem flatten_apply (x : S4x1024x2048.Idx → EReal) (r : Fin 4096) (l : Fin 2048) :
    shapeCast S4096x2048 x shapeCasts_S4x1024x2048_S4096x2048 (ix2 r l)
      = x (ix3 (⟨r.val / 1024, by omega⟩ : Fin 4) (⟨r.val % 1024, by omega⟩ : Fin 1024) l) := by
  refine shapeCast_apply x _ _ _ ?_
  rw [Shape.rowMajor_val_three, Shape.rowMajor_val_two]
  show (r.val / 1024 * 1024 + r.val % 1024) * 2048 + l.val = r.val * 2048 + l.val
  omega

/-- Splitting the leading axis again: entry (b, t, d) is entry (b · 1024 + t, d) of the flat array. -/
theorem unflatten_apply (y : S4096x2048.Idx → EReal) (b : Fin 4) (t : Fin 1024) (d : Fin 2048) :
    shapeCast S4x1024x2048 y shapeCasts_S4096x2048_S4x1024x2048 (ix3 b t d)
      = y (ix2 (⟨b.val * 1024 + t.val, by omega⟩ : Fin 4096) d) := by
  refine shapeCast_apply y _ _ _ ?_
  rw [Shape.rowMajor_val_three, Shape.rowMajor_val_two]
  show (b.val * 1024 + t.val) * 2048 + d.val = (b.val * 1024 + t.val) * 2048 + d.val
  rfl

/-- A column of row values read at (r, 0) is the row value at r. -/
theorem col_apply (y : S4096.Idx → EReal) (r : Fin 4096) :
    broadcastInDim S4096x1 ![0] bcast_S4096_S4096x1_0 y (ix2 r (0 : Fin 1)) = y (ix1 r) := by
  refine broadcastInDim_apply _ bcast_S4096_S4096x1_0 y _ (ix1 r) (fun a => match a with
    | ⟨0, _⟩ => by show r.val = if (4096 : Nat) = 1 then 0 else r.val; rw [if_neg (by decide)])

/-- A scalar spread over a column is that scalar at every entry. -/
theorem splat_apply (y : S_.Idx → EReal) (i : S4096x1.Idx) :
    broadcastInDim S4096x1 ![] bcast_S_S4096x1 y i = y ix0 :=
  broadcastInDim_apply _ bcast_S_S4096x1 y i ix0 (fun a => a.elim0)

/-- A scalar viewed as a 1 × 1 array is that scalar. -/
theorem one_apply (y : S_.Idx → EReal) (i : S1x1.Idx) :
    shapeCast S1x1 y shapeCasts_S_S1x1 i = y ix0 := by
  refine shapeCast_apply y _ _ _ ?_
  have := (S1x1.rowMajor i).isLt
  have h0 := (S_.rowMajor ix0).isLt
  have e1 : S1x1.numel = 1 := by decide
  have e0 : S_.numel = 1 := by decide
  omega

/-- A scalar constant is the extended real its word denotes. -/
theorem const_apply (w : BitVec 32) (i : S_.Idx) : constant (F := Ideal) S_ .f32 w i = Cert.Spec.lit w := rfl

/-- The largest magnitude of row r of a 2048-column matrix: the max-reduction over the columns, from -∞. -/
theorem rowmax2048_apply (x : S4096x2048.Idx → EReal) (r : Fin 4096) :
    Host.reduce (FloatOps.maximumf (F := Ideal) (φ := .f32)) (Host.absf (F := Ideal) (φ := .f32) x)
        (constant (F := Ideal) S_ .f32 0xFF800000#32) reducesTo_S4096x2048_S4096_d1 h_S_ (ix1 r)
      = Cert.Spec.rowMax fun k : Fin 2048 => Cert.Spec.absE (x (ix2 r k)) := by
  have h : S4096x2048.Reduces [1] S4096 := by decide
  rw [Host.reduce_eq_fold_single (FloatOps.maximumf (F := Ideal) (φ := .f32)) _ _ reducesTo_S4096x2048_S4096_d1 h h_S_ (ix1 r)]
  unfold Cert.Spec.rowMax
  refine congrArg (fun f : Fin 2048 → EReal => (Finset.univ : Finset (Fin 2048)).fold max (Cert.Spec.lit 0xFF800000#32) f) ?_
  funext k
  show max (x (h.lift (ix1 r) k)) (-(x (h.lift (ix1 r) k))) = max (x (ix2 r k)) (-(x (ix2 r k)))
  have e : h.lift (ix1 r) k = ix2 r k := by
    funext c
    match c with
    | ⟨0, _⟩ => rfl
    | ⟨1, _⟩ => rfl
  rw [e]
  rfl

/-- The same for an 8192-column matrix. -/
theorem rowmax8192_apply (x : S4096x8192.Idx → EReal) (r : Fin 4096) :
    Host.reduce (FloatOps.maximumf (F := Ideal) (φ := .f32)) (Host.absf (F := Ideal) (φ := .f32) x)
        (constant (F := Ideal) S_ .f32 0xFF800000#32) reducesTo_S4096x8192_S4096_d1 h_S_ (ix1 r)
      = Cert.Spec.rowMax fun k : Fin 8192 => Cert.Spec.absE (x (ix2 r k)) := by
  have h : S4096x8192.Reduces [1] S4096 := by decide
  rw [Host.reduce_eq_fold_single (FloatOps.maximumf (F := Ideal) (φ := .f32)) _ _ reducesTo_S4096x8192_S4096_d1 h h_S_ (ix1 r)]
  unfold Cert.Spec.rowMax
  refine congrArg (fun f : Fin 8192 → EReal => (Finset.univ : Finset (Fin 8192)).fold max (Cert.Spec.lit 0xFF800000#32) f) ?_
  funext k
  show max (x (h.lift (ix1 r) k)) (-(x (h.lift (ix1 r) k))) = max (x (ix2 r k)) (-(x (ix2 r k)))
  have e : h.lift (ix1 r) k = ix2 r k := by
    funext c
    match c with
    | ⟨0, _⟩ => rfl
    | ⟨1, _⟩ => rfl
  rw [e]
  rfl

/-- The sum of the first weight matrix's magnitudes: the all-axes sum, from 0. -/
theorem total1_apply (x : S8192x2048.Idx → EReal) (j : S_.Idx) :
    Host.reduceAdd (F := Ideal) (φ := .f32) (Host.absf (F := Ideal) (φ := .f32) x) (constant (F := Ideal) S_ .f32 0x00000000#32)
        reducesTo_S8192x2048_S_d0_1 h_S_ j
      = Cert.Spec.lit 0x00000000#32 + ∑ i : S8192x2048.Idx, Cert.Spec.absE (x i) := by
  simp only [Host.reduceAdd, Ideal.hostReduceAdd_def]
  exact Ideal.hostReduceAdd_total reducesTo_S8192x2048_S_d0_1 (fun b => b.elim0) _ _ j

/-- The same for the second weight matrix. -/
theorem total2_apply (x : S2048x8192.Idx → EReal) (j : S_.Idx) :
    Host.reduceAdd (F := Ideal) (φ := .f32) (Host.absf (F := Ideal) (φ := .f32) x) (constant (F := Ideal) S_ .f32 0x00000000#32)
        reducesTo_S2048x8192_S_d0_1 h_S_ j
      = Cert.Spec.lit 0x00000000#32 + ∑ i : S2048x8192.Idx, Cert.Spec.absE (x i) := by
  simp only [Host.reduceAdd, Ideal.hostReduceAdd_def]
  exact Ideal.hostReduceAdd_total reducesTo_S2048x8192_S_d0_1 (fun b => b.elim0) _ _ j

/-- An entrywise quotient at an entry. -/
theorem hdiv_apply {s : Shape} (a b : s.Idx → EReal) (i : s.Idx) :
    Host.divf (F := Ideal) (φ := .f32) a b i = Ideal.div (a i) (b i) := rfl

/-- An entrywise maximum at an entry. -/
theorem vmax_apply {s : Shape} (a b : s.Idx → EReal) (i : s.Idx) :
    maximumf (F := Ideal) (φ := .f32) a b i = max (a i) (b i) := rfl

/-- The row scale, from the composed operations read at one entry: 127 over the larger of ε and the row's largest magnitude. -/
theorem actScale_read (num eps : S_.Idx → EReal) (m : EReal) (hn : num ix0 = Cert.Spec.lit 0x42FE0000#32)
    (he : eps ix0 = Cert.Spec.lit 0x3727C5AC#32) :
    Ideal.div (num ix0) (max (eps ix0) m) = Cert.Spec.actScale m := by
  rw [hn, he]; rfl

/-- The matrix scale likewise: 1 over the larger of ε and the total over 2²⁴. -/
theorem wtScale_read (one eps den : S_.Idx → EReal) (tot : EReal) (h1 : one ix0 = Cert.Spec.lit 0x3F800000#32)
    (he : eps ix0 = Cert.Spec.lit 0x3727C5AC#32) (hd : den ix0 = Cert.Spec.lit 0x4B800000#32) :
    Ideal.div (one ix0) (max (eps ix0) (Ideal.div tot (den ix0))) = Cert.Spec.wtScale tot := by
  rw [h1, he, hd]; rfl

/-! ## Each stretch composed, from an arbitrary valuation -/

section Stretches

variable (W : Valuation τ sig (Elt Ideal))

/-- The first stretch flattens the activations, -/
theorem s0_v0 :
    (StableHlo.after (hostOps0 (F := Ideal)) W (Proc.devRef .tc main_v0) : S4096x2048.Idx → EReal)
      = shapeCast S4096x2048 (W (Proc.devRef .tc main_arg0) : S4x1024x2048.Idx → EReal) shapeCasts_S4x1024x2048_S4096x2048 := by
  show StableHlo.after (hostOps0 (F := Ideal)) W (Proc.devRef .tc main_v0) = _
  after_results
  rfl

/-- takes every row's largest magnitude, as a column, -/
theorem s0_v3 :
    (StableHlo.after (hostOps0 (F := Ideal)) W (Proc.devRef .tc main_v3) : S4096x1.Idx → EReal)
      = broadcastInDim S4096x1 ![0] bcast_S4096_S4096x1_0
          (Host.reduce FloatOps.maximumf
            (Host.absf (F := Ideal) (φ := .f32) (StableHlo.after (hostOps0 (F := Ideal)) W (Proc.devRef .tc main_v0) : S4096x2048.Idx → EReal))
            (constant (F := Ideal) S_ .f32 0xFF800000#32) reducesTo_S4096x2048_S4096_d1 h_S_) := by
  rw [s0_v0]
  show StableHlo.after (hostOps0 (F := Ideal)) W (Proc.devRef .tc main_v3) = _
  after_results
  rfl

/-- and sets down ε. -/
theorem s0_cst0 :
    (StableHlo.after (hostOps0 (F := Ideal)) W (Proc.devRef .tc main_cst_0) : S_.Idx → EReal)
      = constant (F := Ideal) S_ .f32 0x3727C5AC#32 := by
  show StableHlo.after (hostOps0 (F := Ideal)) W (Proc.devRef .tc main_cst_0) = _
  after_results

/-- The second floors the column at ε. -/
theorem s01_v4 :
    (StableHlo.after (hostOps0_1 (F := Ideal)) W (Proc.devRef .tc main_v4) : S4096x1.Idx → EReal)
      = maximumf (F := Ideal) (φ := .f32)
          (broadcastInDim S4096x1 ![] bcast_S_S4096x1 (W (Proc.devRef .tc main_cst_0) : S_.Idx → EReal))
          (W (Proc.devRef .tc main_v3) : S4096x1.Idx → EReal) := by
  show StableHlo.after (hostOps0_1 (F := Ideal)) W (Proc.devRef .tc main_v4) = _
  after_results
  rfl

/-- The third divides 127 by it, -/
theorem s02_v6 :
    (StableHlo.after (hostOps0_2 (F := Ideal)) W (Proc.devRef .tc main_v6) : S4096x1.Idx → EReal)
      = Host.divf (F := Ideal) (φ := .f32)
          (broadcastInDim S4096x1 ![] bcast_S_S4096x1 (constant (F := Ideal) S_ .f32 0x42FE0000#32))
          (W (Proc.devRef .tc main_v4) : S4096x1.Idx → EReal) := by
  show StableHlo.after (hostOps0_2 (F := Ideal)) W (Proc.devRef .tc main_v6) = _
  after_results

/-- sums the first weight matrix's magnitudes and divides the sum by 2²⁴, -/
theorem s02_v9 :
    (StableHlo.after (hostOps0_2 (F := Ideal)) W (Proc.devRef .tc main_v9) : S_.Idx → EReal)
      = Host.divf (F := Ideal) (φ := .f32)
          (Host.reduceAdd (F := Ideal) (φ := .f32) (Host.absf (F := Ideal) (φ := .f32) (W (Proc.devRef .tc main_arg1) : S8192x2048.Idx → EReal))
            (constant (F := Ideal) S_ .f32 0x00000000#32) reducesTo_S8192x2048_S_d0_1 h_S_)
          (constant (F := Ideal) S_ .f32 0x4B800000#32) := by
  show StableHlo.after (hostOps0_2 (F := Ideal)) W (Proc.devRef .tc main_v9) = _
  after_results

/-- and sets down ε again. -/
theorem s02_cst4 :
    (StableHlo.after (hostOps0_2 (F := Ideal)) W (Proc.devRef .tc main_cst_4) : S_.Idx → EReal)
      = constant (F := Ideal) S_ .f32 0x3727C5AC#32 := by
  show StableHlo.after (hostOps0_2 (F := Ideal)) W (Proc.devRef .tc main_cst_4) = _
  after_results

/-- The fourth floors the quotient at ε. -/
theorem s03_v10 :
    (StableHlo.after (hostOps0_3 (F := Ideal)) W (Proc.devRef .tc main_v10) : S_.Idx → EReal)
      = maximumf (F := Ideal) (φ := .f32) (W (Proc.devRef .tc main_cst_4) : S_.Idx → EReal) (W (Proc.devRef .tc main_v9) : S_.Idx → EReal) := by
  show StableHlo.after (hostOps0_3 (F := Ideal)) W (Proc.devRef .tc main_v10) = _
  after_results
  rfl

/-- The fifth takes its reciprocal, as a 1 × 1 array. -/
theorem s04_v12 :
    (StableHlo.after (hostOps0_4 (F := Ideal)) W (Proc.devRef .tc main_v12) : S1x1.Idx → EReal)
      = shapeCast S1x1 (Host.divf (F := Ideal) (φ := .f32) (constant (F := Ideal) S_ .f32 0x3F800000#32) (W (Proc.devRef .tc main_v10) : S_.Idx → EReal))
          shapeCasts_S_S1x1 := by
  show StableHlo.after (hostOps0_4 (F := Ideal)) W (Proc.devRef .tc main_v12) = _
  after_results
  rfl

/-! The five stretches between the regions do the same to the hidden activations and the second weight matrix. -/

theorem s1_v16 :
    (StableHlo.after (hostOps1 (F := Ideal)) W (Proc.devRef .tc main_v16) : S4096x1.Idx → EReal)
      = broadcastInDim S4096x1 ![0] bcast_S4096_S4096x1_0
          (Host.reduce FloatOps.maximumf
            (Host.absf (F := Ideal) (φ := .f32) (W (Proc.devRef .tc main_v13) : S4096x8192.Idx → EReal))
            (constant (F := Ideal) S_ .f32 0xFF800000#32) reducesTo_S4096x8192_S4096_d1 h_S_) := by
  show StableHlo.after (hostOps1 (F := Ideal)) W (Proc.devRef .tc main_v16) = _
  after_results

theorem s1_cst7 :
    (StableHlo.after (hostOps1 (F := Ideal)) W (Proc.devRef .tc main_cst_7) : S_.Idx → EReal)
      = constant (F := Ideal) S_ .f32 0x3727C5AC#32 := by
  show StableHlo.after (hostOps1 (F := Ideal)) W (Proc.devRef .tc main_cst_7) = _
  after_results

theorem s11_v17 :
    (StableHlo.after (hostOps1_1 (F := Ideal)) W (Proc.devRef .tc main_v17) : S4096x1.Idx → EReal)
      = maximumf (F := Ideal) (φ := .f32)
          (broadcastInDim S4096x1 ![] bcast_S_S4096x1 (W (Proc.devRef .tc main_cst_7) : S_.Idx → EReal))
          (W (Proc.devRef .tc main_v16) : S4096x1.Idx → EReal) := by
  show StableHlo.after (hostOps1_1 (F := Ideal)) W (Proc.devRef .tc main_v17) = _
  after_results
  rfl

theorem s12_v19 :
    (StableHlo.after (hostOps1_2 (F := Ideal)) W (Proc.devRef .tc main_v19) : S4096x1.Idx → EReal)
      = Host.divf (F := Ideal) (φ := .f32)
          (broadcastInDim S4096x1 ![] bcast_S_S4096x1 (constant (F := Ideal) S_ .f32 0x42FE0000#32))
          (W (Proc.devRef .tc main_v17) : S4096x1.Idx → EReal) := by
  show StableHlo.after (hostOps1_2 (F := Ideal)) W (Proc.devRef .tc main_v19) = _
  after_results

theorem s12_v22 :
    (StableHlo.after (hostOps1_2 (F := Ideal)) W (Proc.devRef .tc main_v22) : S_.Idx → EReal)
      = Host.divf (F := Ideal) (φ := .f32)
          (Host.reduceAdd (F := Ideal) (φ := .f32) (Host.absf (F := Ideal) (φ := .f32) (W (Proc.devRef .tc main_arg2) : S2048x8192.Idx → EReal))
            (constant (F := Ideal) S_ .f32 0x00000000#32) reducesTo_S2048x8192_S_d0_1 h_S_)
          (constant (F := Ideal) S_ .f32 0x4B800000#32) := by
  show StableHlo.after (hostOps1_2 (F := Ideal)) W (Proc.devRef .tc main_v22) = _
  after_results

theorem s12_cst11 :
    (StableHlo.after (hostOps1_2 (F := Ideal)) W (Proc.devRef .tc main_cst_11) : S_.Idx → EReal)
      = constant (F := Ideal) S_ .f32 0x3727C5AC#32 := by
  show StableHlo.after (hostOps1_2 (F := Ideal)) W (Proc.devRef .tc main_cst_11) = _
  after_results

theorem s13_v23 :
    (StableHlo.after (hostOps1_3 (F := Ideal)) W (Proc.devRef .tc main_v23) : S_.Idx → EReal)
      = maximumf (F := Ideal) (φ := .f32) (W (Proc.devRef .tc main_cst_11) : S_.Idx → EReal) (W (Proc.devRef .tc main_v22) : S_.Idx → EReal) := by
  show StableHlo.after (hostOps1_3 (F := Ideal)) W (Proc.devRef .tc main_v23) = _
  after_results
  rfl

theorem s14_v25 :
    (StableHlo.after (hostOps1_4 (F := Ideal)) W (Proc.devRef .tc main_v25) : S1x1.Idx → EReal)
      = shapeCast S1x1 (Host.divf (F := Ideal) (φ := .f32) (constant (F := Ideal) S_ .f32 0x3F800000#32) (W (Proc.devRef .tc main_v23) : S_.Idx → EReal))
          shapeCasts_S_S1x1 := by
  show StableHlo.after (hostOps1_4 (F := Ideal)) W (Proc.devRef .tc main_v25) = _
  after_results
  rfl

/-- The last stretch splits the token axis of the second region's result. -/
theorem s2_v27 :
    (StableHlo.after (hostOps2 (F := Ideal)) W (Proc.devRef .tc main_v27) : S4x1024x2048.Idx → EReal)
      = shapeCast S4x1024x2048 (W (Proc.devRef .tc main_v26) : S4096x2048.Idx → EReal) shapeCasts_S4096x2048_S4x1024x2048 := by
  show StableHlo.after (hostOps2 (F := Ideal)) W (Proc.devRef .tc main_v27) = _
  after_results
  rfl

/-! A stretch leaves every buffer it does not write as it found it. -/

theorem keep0 (r : Ref sig .tc) (h : r ∉ hostOps0_W) :
    StableHlo.after (hostOps0 (F := Ideal)) W (Proc.devRef .tc r) = W (Proc.devRef .tc r) :=
  StableHlo.after_of_writes_sub hostOps0 W hostOps0_writes h
theorem keep01 (r : Ref sig .tc) (h : r ∉ hostOps0_1_W) :
    StableHlo.after (hostOps0_1 (F := Ideal)) W (Proc.devRef .tc r) = W (Proc.devRef .tc r) :=
  StableHlo.after_of_writes_sub hostOps0_1 W hostOps0_1_writes h
theorem keep02 (r : Ref sig .tc) (h : r ∉ hostOps0_2_W) :
    StableHlo.after (hostOps0_2 (F := Ideal)) W (Proc.devRef .tc r) = W (Proc.devRef .tc r) :=
  StableHlo.after_of_writes_sub hostOps0_2 W hostOps0_2_writes h
theorem keep03 (r : Ref sig .tc) (h : r ∉ hostOps0_3_W) :
    StableHlo.after (hostOps0_3 (F := Ideal)) W (Proc.devRef .tc r) = W (Proc.devRef .tc r) :=
  StableHlo.after_of_writes_sub hostOps0_3 W hostOps0_3_writes h
theorem keep04 (r : Ref sig .tc) (h : r ∉ hostOps0_4_W) :
    StableHlo.after (hostOps0_4 (F := Ideal)) W (Proc.devRef .tc r) = W (Proc.devRef .tc r) :=
  StableHlo.after_of_writes_sub hostOps0_4 W hostOps0_4_writes h
theorem keep1 (r : Ref sig .tc) (h : r ∉ hostOps1_W) :
    StableHlo.after (hostOps1 (F := Ideal)) W (Proc.devRef .tc r) = W (Proc.devRef .tc r) :=
  StableHlo.after_of_writes_sub hostOps1 W hostOps1_writes h
theorem keep11 (r : Ref sig .tc) (h : r ∉ hostOps1_1_W) :
    StableHlo.after (hostOps1_1 (F := Ideal)) W (Proc.devRef .tc r) = W (Proc.devRef .tc r) :=
  StableHlo.after_of_writes_sub hostOps1_1 W hostOps1_1_writes h
theorem keep12 (r : Ref sig .tc) (h : r ∉ hostOps1_2_W) :
    StableHlo.after (hostOps1_2 (F := Ideal)) W (Proc.devRef .tc r) = W (Proc.devRef .tc r) :=
  StableHlo.after_of_writes_sub hostOps1_2 W hostOps1_2_writes h
theorem keep13 (r : Ref sig .tc) (h : r ∉ hostOps1_3_W) :
    StableHlo.after (hostOps1_3 (F := Ideal)) W (Proc.devRef .tc r) = W (Proc.devRef .tc r) :=
  StableHlo.after_of_writes_sub hostOps1_3 W hostOps1_3_writes h
theorem keep14 (r : Ref sig .tc) (h : r ∉ hostOps1_4_W) :
    StableHlo.after (hostOps1_4 (F := Ideal)) W (Proc.devRef .tc r) = W (Proc.devRef .tc r) :=
  StableHlo.after_of_writes_sub hostOps1_4 W hostOps1_4_writes h

end Stretches

/-! ## Before the first region -/

/-- The buffers once the five stretches before the first region have run from W. -/
abbrev pre5 (W : Valuation τ sig (Elt Ideal)) : Valuation τ sig (Elt Ideal) :=
  StableHlo.after hostOps0_4 (StableHlo.after hostOps0_3 (StableHlo.after hostOps0_2 (StableHlo.after hostOps0_1 (StableHlo.after hostOps0 W))))

section Pre

variable (W : Valuation τ sig (Elt Ideal))

/-- The flat activations are what the first stretch left. -/
theorem pre5_v0_eq : pre5 W (Proc.devRef .tc main_v0) = StableHlo.after (hostOps0 (F := Ideal)) W (Proc.devRef .tc main_v0) :=
  (keep04 _ main_v0 (by decide)).trans <| (keep03 _ main_v0 (by decide)).trans <| (keep02 _ main_v0 (by decide)).trans
    (keep01 _ main_v0 (by decide))

/-- The row scales are what the third stretch left. -/
theorem pre5_v6_eq : pre5 W (Proc.devRef .tc main_v6)
    = StableHlo.after (hostOps0_2 (F := Ideal)) (StableHlo.after hostOps0_1 (StableHlo.after hostOps0 W)) (Proc.devRef .tc main_v6) :=
  (keep04 _ main_v6 (by decide)).trans (keep03 _ main_v6 (by decide))

/-- No stretch writes the first weight matrix. -/
theorem pre5_arg1 : pre5 W (Proc.devRef .tc main_arg1) = W (Proc.devRef .tc main_arg1) :=
  (keep04 _ main_arg1 (by decide)).trans <| (keep03 _ main_arg1 (by decide)).trans <| (keep02 _ main_arg1 (by decide)).trans <|
    (keep01 _ main_arg1 (by decide)).trans (keep0 _ main_arg1 (by decide))

/-- Entry (r, l) of the flat activations is entry (r / 1024, r % 1024, l) of the activations. -/
theorem pre5_v0 (r : Fin 4096) (l : Fin 2048) :
    (pre5 W (Proc.devRef .tc main_v0) : S4096x2048.Idx → EReal) (ix2 r l)
      = (W (Proc.devRef .tc main_arg0) : S4x1024x2048.Idx → EReal)
          (ix3 (⟨r.val / 1024, by omega⟩ : Fin 4) (⟨r.val % 1024, by omega⟩ : Fin 1024) l) := by
  have e : (pre5 W (Proc.devRef .tc main_v0) : S4096x2048.Idx → EReal) = _ := (pre5_v0_eq W).trans (s0_v0 W)
  exact (congrFun e (ix2 r l)).trans (flatten_apply _ r l)

/-- Row r's scale is 127 over the larger of ε and the largest magnitude in row r of the flat activations. -/
theorem pre5_v6 (r : Fin 4096) :
    (pre5 W (Proc.devRef .tc main_v6) : S4096x1.Idx → EReal) (ix2 r (0 : Fin 1))
      = Cert.Spec.actScale (Cert.Spec.rowMax fun k : Fin 2048 =>
          Cert.Spec.absE ((pre5 W (Proc.devRef .tc main_v0) : S4096x2048.Idx → EReal) (ix2 r k))) := by
  have e : (pre5 W (Proc.devRef .tc main_v6) : S4096x1.Idx → EReal)
      = Host.divf (F := Ideal) (φ := .f32)
          (broadcastInDim S4096x1 ![] bcast_S_S4096x1 (constant (F := Ideal) S_ .f32 0x42FE0000#32))
          (maximumf (F := Ideal) (φ := .f32)
            (broadcastInDim S4096x1 ![] bcast_S_S4096x1 (constant (F := Ideal) S_ .f32 0x3727C5AC#32))
            (broadcastInDim S4096x1 ![0] bcast_S4096_S4096x1_0
              (Host.reduce FloatOps.maximumf
                (Host.absf (F := Ideal) (φ := .f32) (pre5 W (Proc.devRef .tc main_v0) : S4096x2048.Idx → EReal))
                (constant (F := Ideal) S_ .f32 0xFF800000#32) reducesTo_S4096x2048_S4096_d1 h_S_))) := by
    rw [pre5_v6_eq, pre5_v0_eq, s02_v6, s01_v4, s0_cst0, s0_v3]
  refine (congrFun e (ix2 r (0 : Fin 1))).trans ?_
  rw [hdiv_apply, vmax_apply, splat_apply, splat_apply, col_apply, rowmax2048_apply]
  exact actScale_read _ _ _ (const_apply _ _) (const_apply _ _)

/-- The first weight matrix's scale is 1 over the larger of ε and (0 + Σ |w|) / 2²⁴. -/
theorem pre5_v12 :
    (pre5 W (Proc.devRef .tc main_v12) : S1x1.Idx → EReal) (ix2 (0 : Fin 1) (0 : Fin 1))
      = Cert.Spec.sW (N := 8192) (K := 2048) (W (Proc.devRef .tc main_arg1)) := by
  have e : (pre5 W (Proc.devRef .tc main_v12) : S1x1.Idx → EReal)
      = shapeCast S1x1 (Host.divf (F := Ideal) (φ := .f32) (constant (F := Ideal) S_ .f32 0x3F800000#32)
          (maximumf (F := Ideal) (φ := .f32) (constant (F := Ideal) S_ .f32 0x3727C5AC#32)
            (Host.divf (F := Ideal) (φ := .f32)
              (Host.reduceAdd (F := Ideal) (φ := .f32) (Host.absf (F := Ideal) (φ := .f32) (W (Proc.devRef .tc main_arg1) : S8192x2048.Idx → EReal))
                (constant (F := Ideal) S_ .f32 0x00000000#32) reducesTo_S8192x2048_S_d0_1 h_S_)
              (constant (F := Ideal) S_ .f32 0x4B800000#32)))) shapeCasts_S_S1x1 := by
    show StableHlo.after (hostOps0_4 (F := Ideal)) _ (Proc.devRef .tc main_v12) = _
    rw [s04_v12, s03_v10, s02_cst4, s02_v9, keep01 _ main_arg1 (by decide), keep0 _ main_arg1 (by decide)]
  refine (congrFun e (ix2 (0 : Fin 1) (0 : Fin 1))).trans ?_
  rw [one_apply, hdiv_apply, vmax_apply, hdiv_apply, total1_apply]
  exact wtScale_read _ _ _ _ (const_apply _ _) (const_apply _ _) (const_apply _ _)

end Pre

/-! ## Between the regions -/

/-- The buffers once the five stretches between the regions have run from W. -/
abbrev mid5 (W : Valuation τ sig (Elt Ideal)) : Valuation τ sig (Elt Ideal) :=
  StableHlo.after hostOps1_4 (StableHlo.after hostOps1_3 (StableHlo.after hostOps1_2 (StableHlo.after hostOps1_1 (StableHlo.after hostOps1 W))))

section Mid

variable (W : Valuation τ sig (Elt Ideal))

/-- The row scales are what the third of these stretches left. -/
theorem mid5_v19_eq : mid5 W (Proc.devRef .tc main_v19)
    = StableHlo.after (hostOps1_2 (F := Ideal)) (StableHlo.after hostOps1_1 (StableHlo.after hostOps1 W)) (Proc.devRef .tc main_v19) :=
  (keep14 _ main_v19 (by decide)).trans (keep13 _ main_v19 (by decide))

/-- No stretch writes the hidden activations, -/
theorem mid5_v13 : mid5 W (Proc.devRef .tc main_v13) = W (Proc.devRef .tc main_v13) :=
  (keep14 _ main_v13 (by decide)).trans <| (keep13 _ main_v13 (by decide)).trans <| (keep12 _ main_v13 (by decide)).trans <|
    (keep11 _ main_v13 (by decide)).trans (keep1 _ main_v13 (by decide))

/-- nor the second weight matrix. -/
theorem mid5_arg2 : mid5 W (Proc.devRef .tc main_arg2) = W (Proc.devRef .tc main_arg2) :=
  (keep14 _ main_arg2 (by decide)).trans <| (keep13 _ main_arg2 (by decide)).trans <| (keep12 _ main_arg2 (by decide)).trans <|
    (keep11 _ main_arg2 (by decide)).trans (keep1 _ main_arg2 (by decide))

/-- Row r's scale for the second layer is 127 over the larger of ε and the largest magnitude in row r of the hidden activations. -/
theorem mid5_v19 (r : Fin 4096) :
    (mid5 W (Proc.devRef .tc main_v19) : S4096x1.Idx → EReal) (ix2 r (0 : Fin 1))
      = Cert.Spec.actScale (Cert.Spec.rowMax fun k : Fin 8192 =>
          Cert.Spec.absE ((W (Proc.devRef .tc main_v13) : S4096x8192.Idx → EReal) (ix2 r k))) := by
  have e : (mid5 W (Proc.devRef .tc main_v19) : S4096x1.Idx → EReal)
      = Host.divf (F := Ideal) (φ := .f32)
          (broadcastInDim S4096x1 ![] bcast_S_S4096x1 (constant (F := Ideal) S_ .f32 0x42FE0000#32))
          (maximumf (F := Ideal) (φ := .f32)
            (broadcastInDim S4096x1 ![] bcast_S_S4096x1 (constant (F := Ideal) S_ .f32 0x3727C5AC#32))
            (broadcastInDim S4096x1 ![0] bcast_S4096_S4096x1_0
              (Host.reduce FloatOps.maximumf
                (Host.absf (F := Ideal) (φ := .f32) (W (Proc.devRef .tc main_v13) : S4096x8192.Idx → EReal))
                (constant (F := Ideal) S_ .f32 0xFF800000#32) reducesTo_S4096x8192_S4096_d1 h_S_))) := by
    rw [mid5_v19_eq, s12_v19, s11_v17, s1_cst7, s1_v16]
  refine (congrFun e (ix2 r (0 : Fin 1))).trans ?_
  rw [hdiv_apply, vmax_apply, splat_apply, splat_apply, col_apply, rowmax8192_apply]
  exact actScale_read _ _ _ (const_apply _ _) (const_apply _ _)

/-- The second weight matrix's scale is 1 over the larger of ε and (0 + Σ |w|) / 2²⁴. -/
theorem mid5_v25 :
    (mid5 W (Proc.devRef .tc main_v25) : S1x1.Idx → EReal) (ix2 (0 : Fin 1) (0 : Fin 1))
      = Cert.Spec.sW (N := 2048) (K := 8192) (W (Proc.devRef .tc main_arg2)) := by
  have e : (mid5 W (Proc.devRef .tc main_v25) : S1x1.Idx → EReal)
      = shapeCast S1x1 (Host.divf (F := Ideal) (φ := .f32) (constant (F := Ideal) S_ .f32 0x3F800000#32)
          (maximumf (F := Ideal) (φ := .f32) (constant (F := Ideal) S_ .f32 0x3727C5AC#32)
            (Host.divf (F := Ideal) (φ := .f32)
              (Host.reduceAdd (F := Ideal) (φ := .f32) (Host.absf (F := Ideal) (φ := .f32) (W (Proc.devRef .tc main_arg2) : S2048x8192.Idx → EReal))
                (constant (F := Ideal) S_ .f32 0x00000000#32) reducesTo_S2048x8192_S_d0_1 h_S_)
              (constant (F := Ideal) S_ .f32 0x4B800000#32)))) shapeCasts_S_S1x1 := by
    show StableHlo.after (hostOps1_4 (F := Ideal)) _ (Proc.devRef .tc main_v25) = _
    rw [s14_v25, s13_v23, s12_cst11, s12_v22, keep11 _ main_arg2 (by decide), keep1 _ main_arg2 (by decide)]
  refine (congrFun e (ix2 (0 : Fin 1) (0 : Fin 1))).trans ?_
  rw [one_apply, hdiv_apply, vmax_apply, hdiv_apply, total2_apply]
  exact wtScale_read _ _ _ _ (const_apply _ _) (const_apply _ _) (const_apply _ _)

end Mid

/-! ## After the second region -/

/-- Entry (b, t, d) of the program's result is entry (b · 1024 + t, d) of what the second region left. -/
theorem post_v27 (W : Valuation τ sig (Elt Ideal)) (b : Fin 4) (t : Fin 1024) (d : Fin 2048) :
    (StableHlo.after (hostOps2 (F := Ideal)) W (Proc.devRef .tc main_v27) : S4x1024x2048.Idx → EReal) (ix3 b t d)
      = (W (Proc.devRef .tc main_v26) : S4096x2048.Idx → EReal) (ix2 (⟨b.val * 1024 + t.val, by omega⟩ : Fin 4096) d) :=
  (congrFun (s2_v27 W) (ix3 b t d)).trans (unflatten_apply _ b t d)

end Cert.KernelIdeal.Hand
-- ==== Proof.KIOutMath.lean ====
/-
  The idealized kernel program's result, assembled from its parts, on the extended reals.

  The program computes the flattened activations and the first layer's scales, runs the first layer with
  max(·, 0) as one region, computes the second layer's scales from the hidden activations, runs the second layer
  as another region and splits the token axis of the result.  Given what each region leaves — every entry a
  quantised contraction at the scales the preceding host operations prepared — the result at (b, t, d) is the
  specification's network at token b · 1024 + t, feature d: the prepared scales are the specification's scales,
  the flattened activations are the specification's flattened view, and the hidden activations are the
  specification's hidden layer.
-/
import proofs.«174975_j41592463294489_1_alg».proof.Proof.KIHost
import proofs.«174975_j41592463294489_1_alg».proof.Proof.Spec

noncomputable section

namespace Cert.KernelIdeal.Hand

open Cert.KernelIdeal Cert.KernelIdeal.Gen Idealize.ShloMosaic Idealize.ShloMosaic.TcCoe
open Idealize.ShloMosaic.ValueIdx Idealize.ShloMosaic.StableHlo Cert.Spec

/-- A layer depends on its scales and operands only through the entries it reads. -/
theorem lin_congr {M K N : ℕ} {sa sa' : Fin M → EReal} {sw sw' : EReal} {a a' : Fin M → Fin K → EReal}
    {w w' : Fin N → Fin K → EReal} (h1 : ∀ r, sa r = sa' r) (h2 : sw = sw') (h3 : ∀ r l, a r l = a' r l)
    (h4 : ∀ n l, w n l = w' n l) (r : Fin M) (n : Fin N) : lin sa sw a w r n = lin sa' sw' a' w' r n := by
  unfold lin
  rw [h1 r, h2]
  exact Finset.sum_congr rfl fun l _ => by rw [h3 r l, h4 n l]

/-! ## Before the first region: the specification's first-layer quantities -/

section First

variable (W0 : Valuation τ sig (Elt Ideal))

/-- The flattened activations are the specification's flattened view. -/
theorem pre_x2d (r : Fin 4096) (l : Fin 2048) :
    (pre5 W0 (Proc.devRef .tc main_v0) : S4096x2048.Idx → EReal) (ix2 r l) = x2d (W0 (Proc.devRef .tc main_arg0)) r l :=
  pre5_v0 W0 r l

/-- The prepared row scales are the specification's first-layer scales. -/
theorem pre_sA1 (r : Fin 4096) :
    (pre5 W0 (Proc.devRef .tc main_v6) : S4096x1.Idx → EReal) (ix2 r (0 : Fin 1)) = sA1 (W0 (Proc.devRef .tc main_arg0)) r := by
  rw [pre5_v6]
  unfold sA1
  exact congrArg (fun f : Fin 2048 → EReal => actScale (rowMax fun k => absE (f k))) (funext fun k => pre_x2d W0 r k)

/-- The first weight matrix reaches the first region unchanged. -/
theorem pre_w1 (n : Fin 8192) (l : Fin 2048) :
    (pre5 W0 (Proc.devRef .tc main_arg1) : S8192x2048.Idx → EReal) (ix2 n l)
      = (W0 (Proc.devRef .tc main_arg1) : S8192x2048.Idx → EReal) (ix2 n l) :=
  congrFun (pre5_arg1 W0) (ix2 n l)

end First

/-! ## The whole program -/

/-- The program's result at (b, t, d), from what the two regions leave. -/
theorem out_of_parts (W0 W6 W12 : Valuation τ sig (Elt Ideal))
    (h6 : ∀ (r : Fin 4096) (n : Fin 8192), (W6 (Proc.devRef .tc main_v13) : S4096x8192.Idx → EReal) (ix2 r n)
      = relu (lin (fun r => (pre5 W0 (Proc.devRef .tc main_v6) : S4096x1.Idx → EReal) (ix2 r (0 : Fin 1)))
          ((pre5 W0 (Proc.devRef .tc main_v12) : S1x1.Idx → EReal) (ix2 (0 : Fin 1) (0 : Fin 1)))
          (fun r l => (pre5 W0 (Proc.devRef .tc main_v0) : S4096x2048.Idx → EReal) (ix2 r l))
          (fun n l => (pre5 W0 (Proc.devRef .tc main_arg1) : S8192x2048.Idx → EReal) (ix2 n l)) r n))
    (h6w : W6 (Proc.devRef .tc main_arg2) = W0 (Proc.devRef .tc main_arg2))
    (h12 : ∀ (r : Fin 4096) (d : Fin 2048), (W12 (Proc.devRef .tc main_v26) : S4096x2048.Idx → EReal) (ix2 r d)
      = lin (fun r => (mid5 W6 (Proc.devRef .tc main_v19) : S4096x1.Idx → EReal) (ix2 r (0 : Fin 1)))
          ((mid5 W6 (Proc.devRef .tc main_v25) : S1x1.Idx → EReal) (ix2 (0 : Fin 1) (0 : Fin 1)))
          (fun r l => (mid5 W6 (Proc.devRef .tc main_v13) : S4096x8192.Idx → EReal) (ix2 r l))
          (fun n l => (mid5 W6 (Proc.devRef .tc main_arg2) : S2048x8192.Idx → EReal) (ix2 n l)) r d)
    (b : Fin 4) (t : Fin 1024) (d : Fin 2048) :
    (StableHlo.after (hostOps2 (F := Ideal)) W12 (Proc.devRef .tc main_v27) : S4x1024x2048.Idx → EReal) (ix3 b t d)
      = Cert.Spec.out (W0 (Proc.devRef .tc main_arg0)) (W0 (Proc.devRef .tc main_arg1)) (W0 (Proc.devRef .tc main_arg2))
          ⟨b.val * 1024 + t.val, by omega⟩ d := by
  -- the first region leaves the specification's hidden layer
  have hH : ∀ (r : Fin 4096) (n : Fin 8192), (W6 (Proc.devRef .tc main_v13) : S4096x8192.Idx → EReal) (ix2 r n)
      = hid (W0 (Proc.devRef .tc main_arg0)) (W0 (Proc.devRef .tc main_arg1)) r n := fun r n => by
    rw [h6 r n]
    unfold hid
    exact congrArg relu (lin_congr (fun r => pre_sA1 W0 r) (pre5_v12 W0) (fun r l => pre_x2d W0 r l) (fun n l => pre_w1 W0 n l) r n)
  -- the second layer's row scales are the specification's
  have hA : ∀ r : Fin 4096, (mid5 W6 (Proc.devRef .tc main_v19) : S4096x1.Idx → EReal) (ix2 r (0 : Fin 1))
      = sA2 (W0 (Proc.devRef .tc main_arg0)) (W0 (Proc.devRef .tc main_arg1)) r := fun r => by
    rw [mid5_v19]
    unfold sA2
    exact congrArg (fun f : Fin 8192 → EReal => actScale (rowMax fun k => absE (f k))) (funext fun k => hH r k)
  -- the second weight matrix's scale is the specification's
  have hB : (mid5 W6 (Proc.devRef .tc main_v25) : S1x1.Idx → EReal) (ix2 (0 : Fin 1) (0 : Fin 1))
      = sW (N := 2048) (K := 8192) (W0 (Proc.devRef .tc main_arg2)) := by
    rw [mid5_v25, h6w]
  have hC : ∀ (r : Fin 4096) (l : Fin 8192), (mid5 W6 (Proc.devRef .tc main_v13) : S4096x8192.Idx → EReal) (ix2 r l)
      = hid (W0 (Proc.devRef .tc main_arg0)) (W0 (Proc.devRef .tc main_arg1)) r l := fun r l =>
    (congrFun (mid5_v13 W6) (ix2 r l)).trans (hH r l)
  have hD : ∀ (n : Fin 2048) (l : Fin 8192), (mid5 W6 (Proc.devRef .tc main_arg2) : S2048x8192.Idx → EReal) (ix2 n l)
      = (W0 (Proc.devRef .tc main_arg2) : S2048x8192.Idx → EReal) (ix2 n l) := fun n l =>
    congrFun ((mid5_arg2 W6).trans h6w) (ix2 n l)
  rw [post_v27, h12]
  unfold Cert.Spec.out
  exact lin_congr hA hB hC hD _ d

end Cert.KernelIdeal.Hand
end
-- ==== Proof.KIOut.lean ====
/-
  The idealized kernel program's result, entry by entry, on the extended reals: the closing reshape of what the second
  region leaves; the second region's array is the second layer over what the first region left and the scales the host
  computed from it; the first region's array is the first layer with its max(·, 0) over the flattened input and its
  scales.  Composed, the result at (b, t, d) is the specification's network at token b · 1024 + t, feature d.
-/
import proofs.«174975_j41592463294489_1_alg».proof.Proof.KIRun
import proofs.«174975_j41592463294489_1_alg».proof.Proof.KIValue0
import proofs.«174975_j41592463294489_1_alg».proof.Proof.KIValue1
import proofs.«174975_j41592463294489_1_alg».proof.Proof.KIHost
import proofs.«174975_j41592463294489_1_alg».proof.Proof.KIOutMath
import proofs.«174975_j41592463294489_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec

variable (m : (ℓ : Loc nD τ sig) → Buf (Elt Ideal) ℓ)

/-- The three inputs as the launch memory holds them on core c. -/
abbrev xin (c : Dev nD) : S4x1024x2048.Idx → EReal := m ((c.tc : Thread nD τ).loc main_arg0)
abbrev w1in (c : Dev nD) : S8192x2048.Idx → EReal := m ((c.tc : Thread nD τ).loc main_arg1)
abbrev w2in (c : Dev nD) : S2048x8192.Idx → EReal := m ((c.tc : Thread nD τ).loc main_arg2)

/-- The kernel program's result on core c at (b, t, d) is the network at token b · 1024 + t, feature d. -/
theorem kernel_out (c : Dev nD) (b : Fin 4) (t : Fin 1024) (d : Fin 2048) :
    (W13 m c (Proc.devRef .tc main_v27) : S4x1024x2048.Idx → EReal) (ix3 b t d)
      = Cert.Spec.out (xin m c) (w1in m c) (w2in m c) ⟨b.val * 1024 + t.val, by omega⟩ d := by
  refine out_of_parts (Gen.V0 m c) (W6 m c) (W12 m c) ?h6 ?h6w ?h12 b t d
  case h6 =>
    intro r n
    exact (congrFun (W6_arr m c 4) (ix2 r n)).trans
      (region0_value (c := c) (Ve0 m c) (dat0 (Ve0 m) c) (A_eq0 (Ve0 m) c) (after0_4 (Ve0 m) c) r n)
  case h6w => exact W6_of_ne m c main_arg2 (by decide)
  case h12 =>
    intro r n
    exact (congrFun (W12_arr m c 4) (ix2 r n)).trans
      (region1_value (c := c) (Ve1 m c) (dat1 (Ve1 m) c) (accAt1 (Ve1 m) c) (A_eq1 (Ve1 m) c) (after1_4 (Ve1 m) c)
        (accAt1_reset (Ve1 m) c) (accAt1_step (Ve1 m) c) r n)

end Cert.KernelIdeal.Hand

end
-- ==== Proof.RefAfter.lean ====
import proofs.«174975_j41592463294489_1_alg».proof.Proof.RefRunBase
import proofs.«174975_j41592463294489_1_alg».proof.Proof.RefRead
import Idealize.ShloMosaic.Lib.StableHlo.Run

noncomputable section

namespace Cert.ReferenceIdeal.RefAfter

open Cert.ReferenceIdeal Cert.ReferenceIdeal.Gen Cert.ReferenceIdeal.ValueP Cert.ReferenceIdeal.ReadP
open Idealize.ShloMosaic Idealize.ShloMosaic.TcCoe Idealize.ShloMosaic.StableHlo

variable {F : FTy → Type} [FloatOps F]

/-! # The reference program's operations, run in six stretches

The reference quantises the activations row by row and the first weight matrix as a whole, contracts them and
takes max(·, 0); it then does the same to the hidden activations and the second weight matrix. Its operation list
is cut at those seams. Each stretch is run from an arbitrary valuation of the buffers: the one buffer later
stretches read is the corresponding stage of the reference (`val_main_vN`), and the buffers a stretch does not
write keep their contents. Chained, the last contraction's buffer holds the reference's result as a function of the
three arguments, and the arguments are unchanged.

In the stretches below an operation of an inlined function is written with its function stated at its operands'
tensor types, like every other operation. -/

/-- The activations, quantised row by row: each row against 127 over the larger of ε and its largest magnitude. -/
abbrev c1 : List (HloOp τ sig (Elt F)) :=
  [ unary main_arg0 main_v0 (Host.absf : (⟨S4x1024x2048, .f32⟩ : BufTy).Contents (Elt F) → (⟨S4x1024x2048, .f32⟩ : BufTy).Contents (Elt F)),
    nullary main_cst (constant S_ .f32 0xFF800000#32),
    binary main_v0 main_cst main_v1 ((fun x v => Host.reduce FloatOps.maximumf x v reducesTo_S4x1024x2048_S4x1024_d2 h_S_) : (⟨S4x1024x2048, .f32⟩ : BufTy).Contents (Elt F) → (⟨S_, .f32⟩ : BufTy).Contents (Elt F) → (⟨S4x1024, .f32⟩ : BufTy).Contents (Elt F)),
    unary main_v1 main_v2 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 ((broadcastInDim S4x1024x1 ![] bcast_S_S4x1024x1) : (⟨S_, .f32⟩ : BufTy).Contents (Elt F) → (⟨S4x1024x1, .f32⟩ : BufTy).Contents (Elt F)),
    binary main_call0_v1 main_v2 main_v3 (maximumf : (⟨S4x1024x1, .f32⟩ : BufTy).Contents (Elt F) → (⟨S4x1024x1, .f32⟩ : BufTy).Contents (Elt F) → (⟨S4x1024x1, .f32⟩ : BufTy).Contents (Elt F)),
    nullary main_cst_1 (constant S_ .f32 0x42FE0000#32),
    unary main_cst_1 main_v4 (broadcastInDim S4x1024x1 ![] bcast_S_S4x1024x1 : (⟨S_, .f32⟩ : BufTy).Contents (Elt F) → (⟨S4x1024x1, .f32⟩ : BufTy).Contents (Elt F)),
    binary main_v4 main_v3 main_v5 (Host.divf : (⟨S4x1024x1, .f32⟩ : BufTy).Contents (Elt F) → (⟨S4x1024x1, .f32⟩ : BufTy).Contents (Elt F) → (⟨S4x1024x1, .f32⟩ : BufTy).Contents (Elt F)),
    unary main_v5 main_v6 (broadcastInDim S4x1024x2048 ![0, 1, 2] bcast_S4x1024x1_S4x1024x2048_0_1_2 : (⟨S4x1024x1, .f32⟩ : BufTy).Contents (Elt F) → (⟨S4x1024x2048, .f32⟩ : BufTy).Contents (Elt F)),
    binary main_arg0 main_v6 main_v7 (mulf : (⟨S4x1024x2048, .f32⟩ : BufTy).Contents (Elt F) → (⟨S4x1024x2048, .f32⟩ : BufTy).Contents (Elt F) → (⟨S4x1024x2048, .f32⟩ : BufTy).Contents (Elt F)),
    unary main_v7 main_v8 (Host.roundeven : (⟨S4x1024x2048, .f32⟩ : BufTy).Contents (Elt F) → (⟨S4x1024x2048, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 ((broadcastInDim S4x1024x2048 ![] bcast_S_S4x1024x2048) : (⟨S_, .f32⟩ : BufTy).Contents (Elt F) → (⟨S4x1024x2048, .f32⟩ : BufTy).Contents (Elt F)),
    binary main_call2_v1 main_v8 main_call2_v2 (maximumf : (⟨S4x1024x2048, .f32⟩ : BufTy).Contents (Elt F) → (⟨S4x1024x2048, .f32⟩ : BufTy).Contents (Elt F) → (⟨S4x1024x2048, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 ((broadcastInDim S4x1024x2048 ![] bcast_S_S4x1024x2048) : (⟨S_, .f32⟩ : BufTy).Contents (Elt F) → (⟨S4x1024x2048, .f32⟩ : BufTy).Contents (Elt F)),
    binary main_call2_v4 main_call2_v2 main_v9 (minimumf : (⟨S4x1024x2048, .f32⟩ : BufTy).Contents (Elt F) → (⟨S4x1024x2048, .f32⟩ : BufTy).Contents (Elt F) → (⟨S4x1024x2048, .f32⟩ : BufTy).Contents (Elt F)),
    unary main_v5 main_v10 (broadcastInDim S4x1024x2048 ![0, 1, 2] bcast_S4x1024x1_S4x1024x2048_0_1_2 : (⟨S4x1024x1, .f32⟩ : BufTy).Contents (Elt F) → (⟨S4x1024x2048, .f32⟩ : BufTy).Contents (Elt F)),
    binary main_v9 main_v10 main_v11 (Host.divf : (⟨S4x1024x2048, .f32⟩ : BufTy).Contents (Elt F) → (⟨S4x1024x2048, .f32⟩ : BufTy).Contents (Elt F) → (⟨S4x1024x2048, .f32⟩ : BufTy).Contents (Elt F)),
    binary main_v11 main_arg0 main_v12 (subf : (⟨S4x1024x2048, .f32⟩ : BufTy).Contents (Elt F) → (⟨S4x1024x2048, .f32⟩ : BufTy).Contents (Elt F) → (⟨S4x1024x2048, .f32⟩ : BufTy).Contents (Elt F)),
    binary main_arg0 main_v12 main_v13 (addf : (⟨S4x1024x2048, .f32⟩ : BufTy).Contents (Elt F) → (⟨S4x1024x2048, .f32⟩ : BufTy).Contents (Elt F) → (⟨S4x1024x2048, .f32⟩ : BufTy).Contents (Elt F)) ]

/-- The first weight matrix, quantised against one scale: 1 over the larger of ε and Σ|w| / 2²⁴. -/
abbrev c2 : List (HloOp τ sig (Elt F)) :=
  [ unary main_arg1 main_v14 (Host.absf : (⟨S8192x2048, .f32⟩ : BufTy).Contents (Elt F) → (⟨S8192x2048, .f32⟩ : BufTy).Contents (Elt F)),
    nullary main_cst_4 (constant S_ .f32 0x00000000#32),
    binary main_v14 main_cst_4 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)),
    nullary main_cst_5 (constant S_ .f32 0x4B800000#32),
    binary main_v15 main_cst_5 main_v16 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v16 main_v17 (maximumf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_cst_7 main_v17 main_v18 (Host.divf : (⟨S_, .f32⟩ : BufTy).Contents (Elt F) → (⟨S_, .f32⟩ : BufTy).Contents (Elt F) → (⟨S_, .f32⟩ : BufTy).Contents (Elt F)),
    unary main_v18 main_v19 (broadcastInDim S8192x2048 ![] bcast_S_S8192x2048 : (⟨S_, .f32⟩ : BufTy).Contents (Elt F) → (⟨S8192x2048, .f32⟩ : BufTy).Contents (Elt F)),
    binary main_arg1 main_v19 main_v20 (mulf : (⟨S8192x2048, .f32⟩ : BufTy).Contents (Elt F) → (⟨S8192x2048, .f32⟩ : BufTy).Contents (Elt F) → (⟨S8192x2048, .f32⟩ : BufTy).Contents (Elt F)),
    unary main_v20 main_v21 (Host.roundeven : (⟨S8192x2048, .f32⟩ : BufTy).Contents (Elt F) → (⟨S8192x2048, .f32⟩ : BufTy).Contents (Elt F)),
    nullary main_cst_8 (constant S_ .f32 0xBF800000#32),
    nullary main_cst_9 (constant S_ .f32 0x3F800000#32),
    unary main_cst_8 main_call5_v0 (id : (⟨S_, .f32⟩ : BufTy).Contents (Elt F) → (⟨S_, .f32⟩ : BufTy).Contents (Elt F)),
    unary main_call5_v0 main_call5_v1 ((broadcastInDim S8192x2048 ![] bcast_S_S8192x2048) : (⟨S_, .f32⟩ : BufTy).Contents (Elt F) → (⟨S8192x2048, .f32⟩ : BufTy).Contents (Elt F)),
    binary main_call5_v1 main_v21 main_call5_v2 (maximumf : (⟨S8192x2048, .f32⟩ : BufTy).Contents (Elt F) → (⟨S8192x2048, .f32⟩ : BufTy).Contents (Elt F) → (⟨S8192x2048, .f32⟩ : BufTy).Contents (Elt F)),
    unary main_cst_9 main_call5_v3 (id : (⟨S_, .f32⟩ : BufTy).Contents (Elt F) → (⟨S_, .f32⟩ : BufTy).Contents (Elt F)),
    unary main_call5_v3 main_call5_v4 ((broadcastInDim S8192x2048 ![] bcast_S_S8192x2048) : (⟨S_, .f32⟩ : BufTy).Contents (Elt F) → (⟨S8192x2048, .f32⟩ : BufTy).Contents (Elt F)),
    binary main_call5_v4 main_call5_v2 main_v22 (minimumf : (⟨S8192x2048, .f32⟩ : BufTy).Contents (Elt F) → (⟨S8192x2048, .f32⟩ : BufTy).Contents (Elt F) → (⟨S8192x2048, .f32⟩ : BufTy).Contents (Elt F)),
    unary main_v18 main_v23 (broadcastInDim S8192x2048 ![] bcast_S_S8192x2048 : (⟨S_, .f32⟩ : BufTy).Contents (Elt F) → (⟨S8192x2048, .f32⟩ : BufTy).Contents (Elt F)),
    binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)),
    binary main_v24 main_arg1 main_v25 (subf : (⟨S8192x2048, .f32⟩ : BufTy).Contents (Elt F) → (⟨S8192x2048, .f32⟩ : BufTy).Contents (Elt F) → (⟨S8192x2048, .f32⟩ : BufTy).Contents (Elt F)),
    binary main_arg1 main_v25 main_v26 (addf : (⟨S8192x2048, .f32⟩ : BufTy).Contents (Elt F) → (⟨S8192x2048, .f32⟩ : BufTy).Contents (Elt F) → (⟨S8192x2048, .f32⟩ : BufTy).Contents (Elt F)) ]

/-- The first contraction, then max(·, 0). -/
abbrev c3 : List (HloOp τ sig (Elt F)) :=
  [ binary main_v13 main_v26 main_v27 ((fun l r => Host.dotGeneral dot_S4x1024x2048_S8192x2048_S4x1024x8192_2_1_01_0_n_n none l r) : (⟨S4x1024x2048, .f32⟩ : BufTy).Contents (Elt F) → (⟨S8192x2048, .f32⟩ : BufTy).Contents (Elt F) → (⟨S4x1024x8192, .f32⟩ : BufTy).Contents (Elt F)),
    nullary main_call6_cst (constant S_ .f32 0x00000000#32),
    unary main_call6_cst main_call6_v0 ((broadcastInDim S4x1024x8192 ![] bcast_S_S4x1024x8192) : (⟨S_, .f32⟩ : BufTy).Contents (Elt F) → (⟨S4x1024x8192, .f32⟩ : BufTy).Contents (Elt F)),
    binary main_v27 main_call6_v0 main_v28 (maximumf : (⟨S4x1024x8192, .f32⟩ : BufTy).Contents (Elt F) → (⟨S4x1024x8192, .f32⟩ : BufTy).Contents (Elt F) → (⟨S4x1024x8192, .f32⟩ : BufTy).Contents (Elt F)) ]

/-- The hidden activations, quantised row by row. -/
abbrev c4 : List (HloOp τ sig (Elt F)) :=
  [ unary main_v28 main_v29 (Host.absf : (⟨S4x1024x8192, .f32⟩ : BufTy).Contents (Elt F) → (⟨S4x1024x8192, .f32⟩ : BufTy).Contents (Elt F)),
    nullary main_cst_10 (constant S_ .f32 0xFF800000#32),
    binary main_v29 main_cst_10 main_v30 ((fun x v => Host.reduce FloatOps.maximumf x v reducesTo_S4x1024x8192_S4x1024_d2 h_S_) : (⟨S4x1024x8192, .f32⟩ : BufTy).Contents (Elt F) → (⟨S_, .f32⟩ : BufTy).Contents (Elt F) → (⟨S4x1024, .f32⟩ : BufTy).Contents (Elt F)),
    unary main_v30 main_v31 (broadcastInDim S4x1024x1 ![0, 1] bcast_S4x1024_S4x1024x1_0_1 : (⟨S4x1024, .f32⟩ : BufTy).Contents (Elt F) → (⟨S4x1024x1, .f32⟩ : BufTy).Contents (Elt F)),
    nullary main_cst_11 (constant S_ .f32 0x3727C5AC#32),
    unary main_cst_11 main_call7_v0 (id : (⟨S_, .f32⟩ : BufTy).Contents (Elt F) → (⟨S_, .f32⟩ : BufTy).Contents (Elt F)),
    unary main_call7_v0 main_call7_v1 ((broadcastInDim S4x1024x1 ![] bcast_S_S4x1024x1) : (⟨S_, .f32⟩ : BufTy).Contents (Elt F) → (⟨S4x1024x1, .f32⟩ : BufTy).Contents (Elt F)),
    binary main_call7_v1 main_v31 main_v32 (maximumf : (⟨S4x1024x1, .f32⟩ : BufTy).Contents (Elt F) → (⟨S4x1024x1, .f32⟩ : BufTy).Contents (Elt F) → (⟨S4x1024x1, .f32⟩ : BufTy).Contents (Elt F)),
    nullary main_cst_12 (constant S_ .f32 0x42FE0000#32),
    unary main_cst_12 main_v33 (broadcastInDim S4x1024x1 ![] bcast_S_S4x1024x1 : (⟨S_, .f32⟩ : BufTy).Contents (Elt F) → (⟨S4x1024x1, .f32⟩ : BufTy).Contents (Elt F)),
    binary main_v33 main_v32 main_v34 (Host.divf : (⟨S4x1024x1, .f32⟩ : BufTy).Contents (Elt F) → (⟨S4x1024x1, .f32⟩ : BufTy).Contents (Elt F) → (⟨S4x1024x1, .f32⟩ : BufTy).Contents (Elt F)),
    unary main_v34 main_v35 (broadcastInDim S4x1024x8192 ![0, 1, 2] bcast_S4x1024x1_S4x1024x8192_0_1_2 : (⟨S4x1024x1, .f32⟩ : BufTy).Contents (Elt F) → (⟨S4x1024x8192, .f32⟩ : BufTy).Contents (Elt F)),
    binary main_v28 main_v35 main_v36 (mulf : (⟨S4x1024x8192, .f32⟩ : BufTy).Contents (Elt F) → (⟨S4x1024x8192, .f32⟩ : BufTy).Contents (Elt F) → (⟨S4x1024x8192, .f32⟩ : BufTy).Contents (Elt F)),
    unary main_v36 main_v37 (Host.roundeven : (⟨S4x1024x8192, .f32⟩ : BufTy).Contents (Elt F) → (⟨S4x1024x8192, .f32⟩ : BufTy).Contents (Elt F)),
    nullary main_cst_13 (constant S_ .f32 0xC3000000#32),
    nullary main_cst_14 (constant S_ .f32 0x42FE0000#32),
    unary main_cst_13 main_call9_v0 (id : (⟨S_, .f32⟩ : BufTy).Contents (Elt F) → (⟨S_, .f32⟩ : BufTy).Contents (Elt F)),
    unary main_call9_v0 main_call9_v1 ((broadcastInDim S4x1024x8192 ![] bcast_S_S4x1024x8192) : (⟨S_, .f32⟩ : BufTy).Contents (Elt F) → (⟨S4x1024x8192, .f32⟩ : BufTy).Contents (Elt F)),
    binary main_call9_v1 main_v37 main_call9_v2 (maximumf : (⟨S4x1024x8192, .f32⟩ : BufTy).Contents (Elt F) → (⟨S4x1024x8192, .f32⟩ : BufTy).Contents (Elt F) → (⟨S4x1024x8192, .f32⟩ : BufTy).Contents (Elt F)),
    unary main_cst_14 main_call9_v3 (id : (⟨S_, .f32⟩ : BufTy).Contents (Elt F) → (⟨S_, .f32⟩ : BufTy).Contents (Elt F)),
    unary main_call9_v3 main_call9_v4 ((broadcastInDim S4x1024x8192 ![] bcast_S_S4x1024x8192) : (⟨S_, .f32⟩ : BufTy).Contents (Elt F) → (⟨S4x1024x8192, .f32⟩ : BufTy).Contents (Elt F)),
    binary main_call9_v4 main_call9_v2 main_v38 (minimumf : (⟨S4x1024x8192, .f32⟩ : BufTy).Contents (Elt F) → (⟨S4x1024x8192, .f32⟩ : BufTy).Contents (Elt F) → (⟨S4x1024x8192, .f32⟩ : BufTy).Contents (Elt F)),
    unary main_v34 main_v39 (broadcastInDim S4x1024x8192 ![0, 1, 2] bcast_S4x1024x1_S4x1024x8192_0_1_2 : (⟨S4x1024x1, .f32⟩ : BufTy).Contents (Elt F) → (⟨S4x1024x8192, .f32⟩ : BufTy).Contents (Elt F)),
    binary main_v38 main_v39 main_v40 (Host.divf : (⟨S4x1024x8192, .f32⟩ : BufTy).Contents (Elt F) → (⟨S4x1024x8192, .f32⟩ : BufTy).Contents (Elt F) → (⟨S4x1024x8192, .f32⟩ : BufTy).Contents (Elt F)),
    binary main_v40 main_v28 main_v41 (subf : (⟨S4x1024x8192, .f32⟩ : BufTy).Contents (Elt F) → (⟨S4x1024x8192, .f32⟩ : BufTy).Contents (Elt F) → (⟨S4x1024x8192, .f32⟩ : BufTy).Contents (Elt F)),
    binary main_v28 main_v41 main_v42 (addf : (⟨S4x1024x8192, .f32⟩ : BufTy).Contents (Elt F) → (⟨S4x1024x8192, .f32⟩ : BufTy).Contents (Elt F) → (⟨S4x1024x8192, .f32⟩ : BufTy).Contents (Elt F)) ]

/-- The second weight matrix, quantised against one scale. -/
abbrev c5 : List (HloOp τ sig (Elt F)) :=
  [ unary main_arg2 main_v43 (Host.absf : (⟨S2048x8192, .f32⟩ : BufTy).Contents (Elt F) → (⟨S2048x8192, .f32⟩ : BufTy).Contents (Elt F)),
    nullary main_cst_15 (constant S_ .f32 0x00000000#32),
    binary main_v43 main_cst_15 main_v44 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)),
    nullary main_cst_16 (constant S_ .f32 0x4B800000#32),
    binary main_v44 main_cst_16 main_v45 (Host.divf : (⟨S_, .f32⟩ : BufTy).Contents (Elt F) → (⟨S_, .f32⟩ : BufTy).Contents (Elt F) → (⟨S_, .f32⟩ : BufTy).Contents (Elt F)),
    nullary main_cst_17 (constant S_ .f32 0x3727C5AC#32),
    unary main_cst_17 main_call10_v0 (id : (⟨S_, .f32⟩ : BufTy).Contents (Elt F) → (⟨S_, .f32⟩ : BufTy).Contents (Elt F)),
    binary main_call10_v0 main_v45 main_v46 (maximumf : (⟨S_, .f32⟩ : BufTy).Contents (Elt F) → (⟨S_, .f32⟩ : BufTy).Contents (Elt F) → (⟨S_, .f32⟩ : BufTy).Contents (Elt F)),
    nullary main_cst_18 (constant S_ .f32 0x3F800000#32),
    binary main_cst_18 main_v46 main_v47 (Host.divf : (⟨S_, .f32⟩ : BufTy).Contents (Elt F) → (⟨S_, .f32⟩ : BufTy).Contents (Elt F) → (⟨S_, .f32⟩ : BufTy).Contents (Elt F)),
    unary main_v47 main_v48 (broadcastInDim S2048x8192 ![] bcast_S_S2048x8192 : (⟨S_, .f32⟩ : BufTy).Contents (Elt F) → (⟨S2048x8192, .f32⟩ : BufTy).Contents (Elt F)),
    binary main_arg2 main_v48 main_v49 (mulf : (⟨S2048x8192, .f32⟩ : BufTy).Contents (Elt F) → (⟨S2048x8192, .f32⟩ : BufTy).Contents (Elt F) → (⟨S2048x8192, .f32⟩ : BufTy).Contents (Elt F)),
    unary main_v49 main_v50 (Host.roundeven : (⟨S2048x8192, .f32⟩ : BufTy).Contents (Elt F) → (⟨S2048x8192, .f32⟩ : BufTy).Contents (Elt F)),
    nullary main_cst_19 (constant S_ .f32 0xBF800000#32),
    nullary main_cst_20 (constant S_ .f32 0x3F800000#32),
    unary main_cst_19 main_call12_v0 (id : (⟨S_, .f32⟩ : BufTy).Contents (Elt F) → (⟨S_, .f32⟩ : BufTy).Contents (Elt F)),
    unary main_call12_v0 main_call12_v1 ((broadcastInDim S2048x8192 ![] bcast_S_S2048x8192) : (⟨S_, .f32⟩ : BufTy).Contents (Elt F) → (⟨S2048x8192, .f32⟩ : BufTy).Contents (Elt F)),
    binary main_call12_v1 main_v50 main_call12_v2 (maximumf : (⟨S2048x8192, .f32⟩ : BufTy).Contents (Elt F) → (⟨S2048x8192, .f32⟩ : BufTy).Contents (Elt F) → (⟨S2048x8192, .f32⟩ : BufTy).Contents (Elt F)),
    unary main_cst_20 main_call12_v3 (id : (⟨S_, .f32⟩ : BufTy).Contents (Elt F) → (⟨S_, .f32⟩ : BufTy).Contents (Elt F)),
    unary main_call12_v3 main_call12_v4 ((broadcastInDim S2048x8192 ![] bcast_S_S2048x8192) : (⟨S_, .f32⟩ : BufTy).Contents (Elt F) → (⟨S2048x8192, .f32⟩ : BufTy).Contents (Elt F)),
    binary main_call12_v4 main_call12_v2 main_v51 (minimumf : (⟨S2048x8192, .f32⟩ : BufTy).Contents (Elt F) → (⟨S2048x8192, .f32⟩ : BufTy).Contents (Elt F) → (⟨S2048x8192, .f32⟩ : BufTy).Contents (Elt F)),
    unary main_v47 main_v52 (broadcastInDim S2048x8192 ![] bcast_S_S2048x8192 : (⟨S_, .f32⟩ : BufTy).Contents (Elt F) → (⟨S2048x8192, .f32⟩ : BufTy).Contents (Elt F)),
    binary main_v51 main_v52 main_v53 (Host.divf : (⟨S2048x8192, .f32⟩ : BufTy).Contents (Elt F) → (⟨S2048x8192, .f32⟩ : BufTy).Contents (Elt F) → (⟨S2048x8192, .f32⟩ : BufTy).Contents (Elt F)),
    binary main_v53 main_arg2 main_v54 (subf : (⟨S2048x8192, .f32⟩ : BufTy).Contents (Elt F) → (⟨S2048x8192, .f32⟩ : BufTy).Contents (Elt F) → (⟨S2048x8192, .f32⟩ : BufTy).Contents (Elt F)),
    binary main_arg2 main_v54 main_v55 (addf : (⟨S2048x8192, .f32⟩ : BufTy).Contents (Elt F) → (⟨S2048x8192, .f32⟩ : BufTy).Contents (Elt F) → (⟨S2048x8192, .f32⟩ : BufTy).Contents (Elt F)) ]

/-- The second contraction. -/
abbrev c6 : List (HloOp τ sig (Elt F)) :=
  [ binary main_v42 main_v55 main_v56 ((fun l r => Host.dotGeneral dot_S4x1024x8192_S2048x8192_S4x1024x2048_2_1_01_0_n_n none l r) : (⟨S4x1024x8192, .f32⟩ : BufTy).Contents (Elt F) → (⟨S2048x8192, .f32⟩ : BufTy).Contents (Elt F) → (⟨S4x1024x2048, .f32⟩ : BufTy).Contents (Elt F)) ]

/-- Running two lines of operations in a row. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, after_cons, after_cons, ih]

/-- The program's operations are the six stretches in a row. -/
theorem ops_split : (ops : List (HloOp τ sig (Elt F))) = c1 ++ (c2 ++ (c3 ++ (c4 ++ (c5 ++ c6)))) := rfl

/-- So running the program is running the stretches one after the other. -/
theorem after_ops (V : Valuation τ sig (Elt F)) :
    StableHlo.after (ops (F := F)) V
      = StableHlo.after c6 (StableHlo.after c5 (StableHlo.after c4 (StableHlo.after c3 (StableHlo.after c2 (StableHlo.after c1 V))))) := by
  rw [ops_split, after_app, after_app, after_app, after_app, after_app]

section Stretches

variable (W : Valuation τ sig (Elt F))

/-! ## What each stretch leaves in the buffer the later ones read -/

/-- The quantised activations, from the activations. -/
theorem c1_v13 :
    StableHlo.after (c1 (F := F)) W (Proc.devRef .tc main_v13) = val_main_v13 (F := F) (W (Proc.devRef .tc main_arg0)) := by
  after_results_simp
  rfl

/-- The quantised first weight matrix, from the matrix. -/
theorem c2_v26 :
    StableHlo.after (c2 (F := F)) W (Proc.devRef .tc main_v26) = val_main_v26 (F := F) (W (Proc.devRef .tc main_arg1)) := by
  after_results_simp
  rfl

/-- The hidden activations, from the two quantised operands. -/
theorem c3_v28 (x0 : (⟨S4x1024x2048, .f32⟩ : BufTy).Contents (Elt F)) (x1 : (⟨S8192x2048, .f32⟩ : BufTy).Contents (Elt F))
    (h13 : W (Proc.devRef .tc main_v13) = val_main_v13 (F := F) x0) (h26 : W (Proc.devRef .tc main_v26) = val_main_v26 (F := F) x1) :
    StableHlo.after (c3 (F := F)) W (Proc.devRef .tc main_v28) = val_main_v28 (F := F) x0 x1 := by
  after_results_simp
  rw [h13, h26]
  rfl

/-- The quantised hidden activations, from the hidden activations. -/
theorem c4_v42 (x0 : (⟨S4x1024x2048, .f32⟩ : BufTy).Contents (Elt F)) (x1 : (⟨S8192x2048, .f32⟩ : BufTy).Contents (Elt F))
    (h28 : W (Proc.devRef .tc main_v28) = val_main_v28 (F := F) x0 x1) :
    StableHlo.after (c4 (F := F)) W (Proc.devRef .tc main_v42) = val_main_v42 (F := F) x0 x1 := by
  after_results_simp
  rw [h28]
  rfl

/-- The quantised second weight matrix, from the matrix. -/
theorem c5_v55 :
    StableHlo.after (c5 (F := F)) W (Proc.devRef .tc main_v55) = val_main_v55 (F := F) (W (Proc.devRef .tc main_arg2)) := by
  after_results_simp
  rfl

/-- The result, from the two quantised operands of the second contraction. -/
theorem c6_v56 (x0 : (⟨S4x1024x2048, .f32⟩ : BufTy).Contents (Elt F)) (x1 : (⟨S8192x2048, .f32⟩ : BufTy).Contents (Elt F))
    (x2 : (⟨S2048x8192, .f32⟩ : BufTy).Contents (Elt F))
    (h42 : W (Proc.devRef .tc main_v42) = val_main_v42 (F := F) x0 x1) (h55 : W (Proc.devRef .tc main_v55) = val_main_v55 (F := F) x2) :
    StableHlo.after (c6 (F := F)) W (Proc.devRef .tc main_v56) = val_main_v56 (F := F) x0 x1 x2 := by
  after_results_simp
  rw [h42, h55]
  rfl

/-! ## What each stretch does not write -/

theorem k1_arg0 : StableHlo.after (c1 (F := F)) W (Proc.devRef .tc main_arg0) = W (Proc.devRef .tc main_arg0) := by
  after_results_simp
theorem k1_arg1 : StableHlo.after (c1 (F := F)) W (Proc.devRef .tc main_arg1) = W (Proc.devRef .tc main_arg1) := by
  after_results_simp
theorem k1_arg2 : StableHlo.after (c1 (F := F)) W (Proc.devRef .tc main_arg2) = W (Proc.devRef .tc main_arg2) := by
  after_results_simp
theorem k2_arg0 : StableHlo.after (c2 (F := F)) W (Proc.devRef .tc main_arg0) = W (Proc.devRef .tc main_arg0) := by
  after_results_simp
theorem k2_arg1 : StableHlo.after (c2 (F := F)) W (Proc.devRef .tc main_arg1) = W (Proc.devRef .tc main_arg1) := by
  after_results_simp
theorem k2_arg2 : StableHlo.after (c2 (F := F)) W (Proc.devRef .tc main_arg2) = W (Proc.devRef .tc main_arg2) := by
  after_results_simp
theorem k2_v13 : StableHlo.after (c2 (F := F)) W (Proc.devRef .tc main_v13) = W (Proc.devRef .tc main_v13) := by
  after_results_simp
theorem k3_arg0 : StableHlo.after (c3 (F := F)) W (Proc.devRef .tc main_arg0) = W (Proc.devRef .tc main_arg0) := by
  after_results_simp
theorem k3_arg1 : StableHlo.after (c3 (F := F)) W (Proc.devRef .tc main_arg1) = W (Proc.devRef .tc main_arg1) := by
  after_results_simp
theorem k3_arg2 : StableHlo.after (c3 (F := F)) W (Proc.devRef .tc main_arg2) = W (Proc.devRef .tc main_arg2) := by
  after_results_simp
theorem k4_arg0 : StableHlo.after (c4 (F := F)) W (Proc.devRef .tc main_arg0) = W (Proc.devRef .tc main_arg0) := by
  after_results_simp
theorem k4_arg1 : StableHlo.after (c4 (F := F)) W (Proc.devRef .tc main_arg1) = W (Proc.devRef .tc main_arg1) := by
  after_results_simp
theorem k4_arg2 : StableHlo.after (c4 (F := F)) W (Proc.devRef .tc main_arg2) = W (Proc.devRef .tc main_arg2) := by
  after_results_simp
theorem k5_arg0 : StableHlo.after (c5 (F := F)) W (Proc.devRef .tc main_arg0) = W (Proc.devRef .tc main_arg0) := by
  after_results_simp
theorem k5_arg1 : StableHlo.after (c5 (F := F)) W (Proc.devRef .tc main_arg1) = W (Proc.devRef .tc main_arg1) := by
  after_results_simp
theorem k5_arg2 : StableHlo.after (c5 (F := F)) W (Proc.devRef .tc main_arg2) = W (Proc.devRef .tc main_arg2) := by
  after_results_simp
theorem k5_v42 : StableHlo.after (c5 (F := F)) W (Proc.devRef .tc main_v42) = W (Proc.devRef .tc main_v42) := by
  after_results_simp
theorem k6_arg0 : StableHlo.after (c6 (F := F)) W (Proc.devRef .tc main_arg0) = W (Proc.devRef .tc main_arg0) := by
  after_results_simp
theorem k6_arg1 : StableHlo.after (c6 (F := F)) W (Proc.devRef .tc main_arg1) = W (Proc.devRef .tc main_arg1) := by
  after_results_simp
theorem k6_arg2 : StableHlo.after (c6 (F := F)) W (Proc.devRef .tc main_arg2) = W (Proc.devRef .tc main_arg2) := by
  after_results_simp

end Stretches

/-! ## The whole program -/

/-- The result buffer holds the reference's result, as a function of the three arguments. -/
theorem after_out (V : Valuation τ sig (Elt F)) :
    StableHlo.after (ops (F := F)) V (Proc.devRef .tc main_v56)
      = val_main_v56 (F := F) (V (Proc.devRef .tc main_arg0)) (V (Proc.devRef .tc main_arg1)) (V (Proc.devRef .tc main_arg2)) := by
  rw [after_ops]
  have h13 : StableHlo.after (c2 (F := F)) (StableHlo.after c1 V) (Proc.devRef .tc main_v13) = val_main_v13 (F := F) (V (Proc.devRef .tc main_arg0)) :=
    (k2_v13 _).trans (c1_v13 V)
  have h26 : StableHlo.after (c2 (F := F)) (StableHlo.after c1 V) (Proc.devRef .tc main_v26) = val_main_v26 (F := F) (V (Proc.devRef .tc main_arg1)) := by
    rw [c2_v26, k1_arg1]
  have h28 := c3_v28 (StableHlo.after (c2 (F := F)) (StableHlo.after c1 V)) _ _ h13 h26
  have h42 := c4_v42 (StableHlo.after (c3 (F := F)) (StableHlo.after c2 (StableHlo.after c1 V))) _ _ h28
  have h42' : StableHlo.after (c5 (F := F)) (StableHlo.after c4 (StableHlo.after c3 (StableHlo.after c2 (StableHlo.after c1 V)))) (Proc.devRef .tc main_v42)
      = val_main_v42 (F := F) (V (Proc.devRef .tc main_arg0)) (V (Proc.devRef .tc main_arg1)) := (k5_v42 _).trans h42
  have h55 : StableHlo.after (c5 (F := F)) (StableHlo.after c4 (StableHlo.after c3 (StableHlo.after c2 (StableHlo.after c1 V)))) (Proc.devRef .tc main_v55)
      = val_main_v55 (F := F) (V (Proc.devRef .tc main_arg2)) := by
    rw [c5_v55, k4_arg2, k3_arg2, k2_arg2, k1_arg2]
  exact c6_v56 _ _ _ _ h42' h55

/-- No operation writes the activations, -/
theorem after_arg0 (V : Valuation τ sig (Elt F)) :
    StableHlo.after (ops (F := F)) V (Proc.devRef .tc main_arg0) = V (Proc.devRef .tc main_arg0) := by
  rw [after_ops, k6_arg0, k5_arg0, k4_arg0, k3_arg0, k2_arg0, k1_arg0]

/-- nor the first weight matrix, -/
theorem after_arg1 (V : Valuation τ sig (Elt F)) :
    StableHlo.after (ops (F := F)) V (Proc.devRef .tc main_arg1) = V (Proc.devRef .tc main_arg1) := by
  rw [after_ops, k6_arg1, k5_arg1, k4_arg1, k3_arg1, k2_arg1, k1_arg1]

/-- nor the second. -/
theorem after_arg2 (V : Valuation τ sig (Elt F)) :
    StableHlo.after (ops (F := F)) V (Proc.devRef .tc main_arg2) = V (Proc.devRef .tc main_arg2) := by
  rw [after_ops, k6_arg2, k5_arg2, k4_arg2, k3_arg2, k2_arg2, k1_arg2]

end Cert.ReferenceIdeal.RefAfter
-- ==== Proof.RefRun.lean ====
/-
  The reference program's run.  Its @main is a straight line of 107 host operations; every weakly fair execution runs them
  in order, so the result array ends at the operations' composition applied to the launch contents — read back chunk by
  chunk as the last stage of the operation-by-operation reading — and no operation writes an argument.
-/
import proofs.«174975_j41592463294489_1_alg».proof.Proof.RefRunBase
import proofs.«174975_j41592463294489_1_alg».proof.Proof.RefRead
import proofs.«174975_j41592463294489_1_alg».proof.Proof.RefAfter
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

/-- On every device, from any memory with zero counters: every weakly fair execution of the reference's @main terminates
    with the result array at the last stage of the operation-by-operation reading and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
        = Cert.ReferenceIdeal.ReadP.val_main_v56 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v56).trans (Cert.ReferenceIdeal.RefAfter.after_out _),
      (h c main_arg0).trans (Cert.ReferenceIdeal.RefAfter.after_arg0 _),
      (h c main_arg1).trans (Cert.ReferenceIdeal.RefAfter.after_arg1 _),
      (h c main_arg2).trans (Cert.ReferenceIdeal.RefAfter.after_arg2 _)⟩)
    (run_seq scopedRefs_eq scopedSems_eq defs main (fun _ => ops) main_eq (fun _ => ops_sub) m ρ)

end Cert.ReferenceIdeal.ValueP

end
-- ==== Proof.SpecLemmas.lean ====
/-
  Facts about the specification's arithmetic on the extended reals: which values stay real numbers, and the
  straight-through identity a + (q - a) = q for a real a.
-/
import proofs.«174975_j41592463294489_1_alg».proof.Proof.Spec

noncomputable section

namespace Cert.Spec

open Idealize.ShloMosaic Idealize.ShloMosaic.ValueIdx

/-- A real number among the extended reals: neither infinity. -/
def IsReal (x : EReal) : Prop := x ≠ ⊤ ∧ x ≠ ⊥

/-! ## The float literals as reals -/

/-- The word 0x42FE0000 is 127. -/
theorem lit_127 : lit 0x42FE0000#32 = ((127 : ℝ) : EReal) := by
  simp [lit, Ideal.ofBits, Ideal.ieee, -EReal.coe_mul]; norm_num

/-- The word 0xC3000000 is -128. -/
theorem lit_neg128 : lit 0xC3000000#32 = ((-128 : ℝ) : EReal) := by
  simp [lit, Ideal.ofBits, Ideal.ieee, -EReal.coe_mul, -EReal.coe_neg]; norm_num

/-- The word 0x3F800000 is 1. -/
theorem lit_one : lit 0x3F800000#32 = ((1 : ℝ) : EReal) := by
  simp [lit, Ideal.ofBits, Ideal.ieee, -EReal.coe_mul]; norm_num

/-- The word 0xBF800000 is -1. -/
theorem lit_neg_one : lit 0xBF800000#32 = ((-1 : ℝ) : EReal) := by
  simp [lit, Ideal.ofBits, Ideal.ieee, -EReal.coe_mul, -EReal.coe_neg]; norm_num

/-- The word 0x3727C5AC is ε = 10995116 · 2⁻⁴⁰, about 10⁻⁵. -/
theorem lit_eps : lit 0x3727C5AC#32 = ((10995116 / 2 ^ 40 : ℝ) : EReal) := by
  simp [lit, Ideal.ofBits, Ideal.ieee, -EReal.coe_mul]; norm_num

/-- The word 0x4B800000 is 2²⁴. -/
theorem lit_two24 : lit 0x4B800000#32 = ((16777216 : ℝ) : EReal) := by
  simp [lit, Ideal.ofBits, Ideal.ieee, -EReal.coe_mul]; norm_num

/-- The word 0xFF800000 is -∞. -/
theorem lit_neg_inf : lit 0xFF800000#32 = ⊥ := by
  simp [lit, Ideal.ofBits, Ideal.ieee]

/-! ## Reals among the extended reals -/

theorem isReal_coe (r : ℝ) : IsReal (r : EReal) := ⟨EReal.coe_ne_top r, EReal.coe_ne_bot r⟩

theorem IsReal.exists_coe {x : EReal} (hx : IsReal x) : ∃ r : ℝ, x = (r : EReal) := by
  obtain ⟨h1, h2⟩ := hx
  lift x to ℝ using ⟨h1, h2⟩
  exact ⟨x, rfl⟩

theorem isReal_zero : IsReal (0 : EReal) := ⟨EReal.zero_ne_top, EReal.zero_ne_bot⟩

/-- The larger of two reals is one of them. -/
theorem max_real (x y : EReal) (hx : IsReal x) (hy : IsReal y) : IsReal (max x y) := by
  rcases max_choice x y with h | h
  · rw [h]; exact hx
  · rw [h]; exact hy

theorem neg_real (x : EReal) (hx : IsReal x) : IsReal (-x) := by
  obtain ⟨r, rfl⟩ := hx.exists_coe
  rw [← EReal.coe_neg]; exact isReal_coe _

theorem add_real (x y : EReal) (hx : IsReal x) (hy : IsReal y) : IsReal (x + y) := by
  obtain ⟨r, rfl⟩ := hx.exists_coe
  obtain ⟨t, rfl⟩ := hy.exists_coe
  rw [← EReal.coe_add]; exact isReal_coe _

/-- For a real a, a + (q - a) = q at every extended real q (at q = ±∞ both sides are q). -/
theorem ste (a q : EReal) (ha : IsReal a) : a + (q - a) = q := by
  obtain ⟨r, rfl⟩ := ha.exists_coe
  induction q using EReal.rec with
  | bot => rw [EReal.bot_sub, EReal.add_bot]
  | top => rw [EReal.top_sub_coe, EReal.coe_add_top]
  | coe t => rw [← EReal.coe_sub, ← EReal.coe_add]; congr 1; ring

theorem lit_zero : lit 0x00000000#32 = 0 := Ideal.ofBits_zero_f32

theorem absE_real (x : EReal) (hx : IsReal x) : IsReal (absE x) :=
  max_real _ _ hx (neg_real _ hx)

/-- A row of reals has a maximum below +∞ (it may be -∞ only for an empty row). -/
theorem rowMax_ne_top {K : ℕ} (f : Fin K → EReal) (hf : ∀ k, f k ≠ ⊤) : rowMax f ≠ ⊤ := by
  apply ne_of_lt
  unfold rowMax
  rw [Finset.fold_max_lt]
  refine ⟨?_, fun k _ => lt_top_iff_ne_top.mpr (hf k)⟩
  rw [lit_neg_inf]; exact bot_lt_top

/-- max(ε, m) is a positive real whenever m < +∞. -/
theorem max_eps_pos (m : EReal) (hm : m ≠ ⊤) :
    ∃ d : ℝ, 0 < d ∧ max (lit 0x3727C5AC#32) m = (d : EReal) := by
  have he : (0 : ℝ) < 10995116 / 2 ^ 40 := by positivity
  rw [lit_eps]
  rcases max_choice ((10995116 / 2 ^ 40 : ℝ) : EReal) m with h | h
  · exact ⟨_, he, h⟩
  · have hle : ((10995116 / 2 ^ 40 : ℝ) : EReal) ≤ m := h ▸ le_max_left _ _
    have hb : m ≠ ⊥ := fun hb => by
      rw [hb] at hle; exact absurd (le_bot_iff.mp hle) (EReal.coe_ne_bot _)
    lift m to ℝ using ⟨hm, hb⟩
    exact ⟨m, lt_of_lt_of_le he (EReal.coe_le_coe_iff.mp hle), h⟩

/-- A nonzero real over a positive real is a nonzero real. -/
theorem div_pos_real (n d : ℝ) (hn : n ≠ 0) (hd : 0 < d) :
    IsReal (Ideal.div (n : EReal) (d : EReal)) ∧ Ideal.div (n : EReal) (d : EReal) ≠ 0 := by
  rw [Ideal.div_coe hd.ne', ← EReal.coe_mul]
  refine ⟨isReal_coe _, ?_⟩
  rw [Ne, EReal.coe_eq_zero]
  exact mul_ne_zero hn (one_div_ne_zero hd.ne')

/-- An extended real over a nonzero real is real when the numerator is. -/
theorem div_real (c s : EReal) (hc : IsReal c) (hs : IsReal s) (hs0 : s ≠ 0) : IsReal (Ideal.div c s) := by
  obtain ⟨r, rfl⟩ := hc.exists_coe
  obtain ⟨t, rfl⟩ := hs.exists_coe
  have ht : t ≠ 0 := fun h => hs0 (by rw [h]; rfl)
  rw [Ideal.div_coe ht, ← EReal.coe_mul]; exact isReal_coe _

/-- 127 / max(ε, m) is a nonzero real whenever m < +∞: the denominator is a real ≥ ε > 0. -/
theorem actScale_real (m : EReal) (hm : m ≠ ⊤) : IsReal (actScale m) ∧ actScale m ≠ 0 := by
  obtain ⟨d, hd, hmax⟩ := max_eps_pos m hm
  unfold actScale
  rw [hmax, lit_127]
  exact div_pos_real 127 d (by norm_num) hd

/-- 1 / max(ε, tot / 2²⁴) is a nonzero real for a real tot. -/
theorem wtScale_real (tot : EReal) (h : IsReal tot) : IsReal (wtScale tot) ∧ wtScale tot ≠ 0 := by
  have hq : IsReal (Ideal.div tot (lit 0x4B800000#32)) := by
    rw [lit_two24]
    exact div_real _ _ h (isReal_coe _) (by rw [Ne, EReal.coe_eq_zero]; norm_num)
  obtain ⟨d, hd, hmax⟩ := max_eps_pos _ hq.1
  unfold wtScale
  rw [hmax, lit_one]
  exact div_pos_real 1 d one_ne_zero hd

/-- A finite sum of reals is real. -/
theorem sum_real {ι : Type} [Fintype ι] (f : ι → EReal) (hf : ∀ i, IsReal (f i)) : IsReal (∑ i, f i) := by
  classical
  induction (Finset.univ : Finset ι) using Finset.induction_on with
  | empty => rw [Finset.sum_empty]; exact isReal_zero
  | insert a s ha ih => rw [Finset.sum_insert ha]; exact add_real _ _ (hf a) ih

theorem mul_real (x y : EReal) (hx : IsReal x) (hy : IsReal y) : IsReal (x * y) := by
  obtain ⟨r, rfl⟩ := hx.exists_coe
  obtain ⟨t, rfl⟩ := hy.exists_coe
  rw [← EReal.coe_mul]; exact isReal_coe _

/-- A value clamped between two reals lo ≤ hi is real, whatever it was. -/
theorem clamp_real (lo hi : ℝ) (h : lo ≤ hi) (y : EReal) :
    IsReal (min (hi : EReal) (max (lo : EReal) y)) := by
  constructor
  · exact ne_of_lt (lt_of_le_of_lt (min_le_left _ _) (EReal.coe_lt_top hi))
  · exact ne_of_gt (lt_of_lt_of_le (EReal.bot_lt_coe lo)
      (le_min (EReal.coe_le_coe_iff.mpr h) (le_max_left _ _)))

/-- A clamped value divided by a nonzero real scale is real, whatever was clamped. -/
theorem qAct_real (s a : EReal) (hs : IsReal s) (hs0 : s ≠ 0) : IsReal (qAct s a) := by
  unfold qAct
  rw [lit_127, lit_neg128]
  exact div_real _ _ (clamp_real (-128) 127 (by norm_num) _) hs hs0

theorem qWt_real (s w : EReal) (hs : IsReal s) (hs0 : s ≠ 0) : IsReal (qWt s w) := by
  unfold qWt
  rw [lit_one, lit_neg_one]
  exact div_real _ _ (clamp_real (-1) 1 (by norm_num) _) hs hs0

theorem relu_real (x : EReal) (hx : IsReal x) : IsReal (relu x) := by
  unfold relu
  rw [lit_zero]
  exact max_real _ _ hx isReal_zero

theorem sW_real {N K : ℕ} (w : (⟨2, ![N, K]⟩ : Shape).Idx → EReal) (hw : ∀ i, IsReal (w i)) :
    IsReal (sW w) ∧ sW w ≠ 0 := by
  unfold sW
  apply wtScale_real
  rw [lit_zero]
  exact add_real _ _ isReal_zero (sum_real _ fun i => absE_real _ (hw i))

theorem sA1_real (x : (⟨3, ![4, 1024, 2048]⟩ : Shape).Idx → EReal) (hx : ∀ i, IsReal (x i)) (r : Fin 4096) :
    IsReal (sA1 x r) ∧ sA1 x r ≠ 0 := by
  unfold sA1
  exact actScale_real _ (rowMax_ne_top _ fun k => (absE_real _ (hx _)).1)

/-- Every hidden activation is a real number when the inputs are. -/
theorem hid_real (x : (⟨3, ![4, 1024, 2048]⟩ : Shape).Idx → EReal) (w1 : (⟨2, ![8192, 2048]⟩ : Shape).Idx → EReal)
    (hx : ∀ i, IsReal (x i)) (hw1 : ∀ i, IsReal (w1 i)) (r : Fin 4096) (n : Fin 8192) : IsReal (hid x w1 r n) := by
  unfold hid lin
  have hA := sA1_real x hx r
  have hW := sW_real w1 hw1
  exact relu_real _ (sum_real _ fun l =>
    mul_real _ _ (qAct_real _ _ hA.1 hA.2) (qWt_real _ _ hW.1 hW.2))

theorem sA2_real (x : (⟨3, ![4, 1024, 2048]⟩ : Shape).Idx → EReal) (w1 : (⟨2, ![8192, 2048]⟩ : Shape).Idx → EReal)
    (hx : ∀ i, IsReal (x i)) (hw1 : ∀ i, IsReal (w1 i)) (r : Fin 4096) : IsReal (sA2 x w1 r) ∧ sA2 x w1 r ≠ 0 := by
  unfold sA2
  exact actScale_real _ (rowMax_ne_top _ fun k => (absE_real _ (hid_real x w1 hx hw1 r k)).1)

end Cert.Spec

end
-- ==== Proof.RefValue.lean ====
/-
  The reference's first layer, entry by entry, on the extended reals.

  Row (b, t) of the activations is scaled by 127 / max(ε, maxₖ |x(b,t,k)|); the weight matrix by
  1 / max(ε, (Σ |w|) / 2²⁴).  Each quantised operand enters the contraction in the straight-through form
  a + (q(a) - a), which is q(a) whenever a is a real number.  The hidden activation at (b, t, n) is therefore
  max(Σₖ q(x)(b,t,k) · q(w)(n,k), 0): the specification's hidden layer at token b · 1024 + t.
-/
import proofs.«174975_j41592463294489_1_alg».proof.Proof.RefRead
import proofs.«174975_j41592463294489_1_alg».proof.Proof.Spec
import proofs.«174975_j41592463294489_1_alg».proof.Proof.SpecLemmas
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Cert.Spec

/-! ## Rows of the flattened view -/

/-- Token (b, t) of the flattened view: b · 1024 + t. -/
abbrev row (b : Fin 4) (t : Fin 1024) : Fin 4096 := ⟨b.val * 1024 + t.val, by omega⟩

/-- Row b · 1024 + t of the flattened activations is row (b, t): the quotient by 1024 is b and the remainder t. -/
theorem x2d_row (x : (⟨3, ![4, 1024, 2048]⟩ : Shape).Idx → EReal) (b : Fin 4) (t : Fin 1024) (k : Fin 2048) :
    x2d x (row b t) k = x (ix3 b t k) := by
  have hb : (⟨(b.val * 1024 + t.val) / 1024, by omega⟩ : Fin 4) = b := Fin.ext (by show (b.val * 1024 + t.val) / 1024 = b.val; omega)
  have ht : (⟨(b.val * 1024 + t.val) % 1024, by omega⟩ : Fin 1024) = t := Fin.ext (by show (b.val * 1024 + t.val) % 1024 = t.val; omega)
  show x (ix3 (⟨(b.val * 1024 + t.val) / 1024, _⟩ : Fin 4) (⟨(b.val * 1024 + t.val) % 1024, _⟩ : Fin 1024) k) = _
  rw [hb, ht]

/-! ## A maximum over the last axis -/

/-- The reduced index (b, t) with coordinate k put back on the last axis is (b, t, k). -/
theorem lift_row {K : Nat} (h : (⟨3, ![4, 1024, K]⟩ : Shape).Reduces [2] (⟨2, ![4, 1024]⟩ : Shape)) (b : Fin 4) (t : Fin 1024)
    (k : Fin ((⟨3, ![4, 1024, K]⟩ : Shape).size 2)) : h.lift (ix2 b t) k = ix3 b t (⟨k.val, k.isLt⟩ : Fin K) := by
  funext c; apply Fin.ext
  match c with
  | ⟨0, _⟩ => rfl
  | ⟨1, _⟩ => rfl
  | ⟨2, _⟩ => rfl

/-- A maximum-reduce over the last axis, at (b, t), is the fold of max over that row from the initial value. -/
theorem reduce_max_row {K : Nat} (y : (⟨3, ![4, 1024, K]⟩ : Shape).Idx → Ideal .f32) (init : (⟨0, ![]⟩ : Shape).Idx → Ideal .f32)
    (h' : (⟨3, ![4, 1024, K]⟩ : Shape).ReducesTo [2] (⟨2, ![4, 1024]⟩ : Shape))
    (h : (⟨3, ![4, 1024, K]⟩ : Shape).Reduces [2] (⟨2, ![4, 1024]⟩ : Shape)) (hu : 0 < (⟨0, ![]⟩ : Shape).numel)
    (b : Fin 4) (t : Fin 1024) :
    Host.reduce FloatOps.maximumf y init h' hu (ix2 b t)
      = (Finset.univ : Finset (Fin K)).fold max (init (Shape.Idx.first hu)) (fun k => y (ix3 b t k)) := by
  rw [Host.reduce_eq_fold_single FloatOps.maximumf y _ h' h hu]
  have hf : (y ∘ h.lift (ix2 b t)) = fun k : Fin K => y (ix3 b t k) := funext fun k => congrArg y (lift_row h b t k)
  exact congrArg (fun f => Finset.fold max (init (Shape.Idx.first hu)) f (Finset.univ : Finset (Fin K))) hf

/-! ## The activations' scale -/

/-- The largest magnitude of row (b, t). -/
theorem rowmax1 (x : (⟨S4x1024x2048, .f32⟩ : BufTy).Contents (Elt Ideal)) (b : Fin 4) (t : Fin 1024) :
    val_main_v1 (F := Ideal) x (ix2 b t) = rowMax fun k : Fin 2048 => absE (x (ix3 b t k)) := by
  unfold val_main_v1
  rw [reduce_max_row (val_main_v0 (F := Ideal) x) (val_main_cst (F := Ideal)) _ (by decide) _ b t]
  rfl

/-- Row (b, t)'s scale: 127 / max(ε, its largest magnitude). -/
theorem scale1 (x : (⟨S4x1024x2048, .f32⟩ : BufTy).Contents (Elt Ideal)) (b : Fin 4) (t : Fin 1024) (z : Fin 1) :
    val_main_v5 (F := Ideal) x (ix3 b t z) = actScale (rowMax fun k : Fin 2048 => absE (x (ix3 b t k))) := by
  have e2 : idx_main_v2 (ix3 b t z) = ix2 b t := funext fun a => by
    match a with
    | ⟨0, _⟩ => rfl
    | ⟨1, _⟩ => rfl
  rw [val_main_v5_apply, val_main_v4_apply, val_main_cst_1_apply, val_main_v3_apply, val_main_call0_v1_apply,
    val_main_call0_v0_apply, val_main_cst_0_apply, val_main_v2_apply, e2, rowmax1]
  rfl

/-- The specification's scale of token b · 1024 + t, on row (b, t). -/
theorem sA1_row (x : (⟨S4x1024x2048, .f32⟩ : BufTy).Contents (Elt Ideal)) (b : Fin 4) (t : Fin 1024) :
    sA1 x (row b t) = actScale (rowMax fun k : Fin 2048 => absE (x (ix3 b t k))) := by
  unfold sA1
  simp only [x2d_row]

/-! ## The weights' scale -/

/-- The first weight matrix's scale: 1 / max(ε, (0 + Σ |w|) / 2²⁴), at the scalar's one index. -/
theorem wscale1 (w1 : (⟨S8192x2048, .f32⟩ : BufTy).Contents (Elt Ideal)) (j : S_.Idx) :
    val_main_v18 (F := Ideal) w1 j = sW w1 := by
  rw [val_main_v18_apply, val_main_cst_7_apply, val_main_v17_apply, val_main_call3_v0_apply, val_main_cst_6_apply,
    val_main_v16_apply, val_main_cst_5_apply, val_main_v15_apply, val_main_cst_4_apply]
  rfl

/-! ## The quantised operands -/

/-- The quantised activation at (b, t, k). -/
theorem qx1 (x : (⟨S4x1024x2048, .f32⟩ : BufTy).Contents (Elt Ideal)) (b : Fin 4) (t : Fin 1024) (k : Fin 2048) :
    val_main_v11 (F := Ideal) x (ix3 b t k) = qAct (sA1 x (row b t)) (x2d x (row b t) k) := by
  have e6 : idx_main_v6 (ix3 b t k) = ix3 b t (⟨0, Nat.one_pos⟩ : Fin 1) := funext fun a => by
    match a with
    | ⟨0, _⟩ => rfl
    | ⟨1, _⟩ => rfl
    | ⟨2, _⟩ => rfl
  have e10 : idx_main_v10 (ix3 b t k) = ix3 b t (⟨0, Nat.one_pos⟩ : Fin 1) := funext fun a => by
    match a with
    | ⟨0, _⟩ => rfl
    | ⟨1, _⟩ => rfl
    | ⟨2, _⟩ => rfl
  rw [val_main_v11_apply, val_main_v9_apply, val_main_call2_v4_apply, val_main_call2_v3_apply, val_main_cst_3_apply,
    val_main_call2_v2_apply, val_main_call2_v1_apply, val_main_call2_v0_apply, val_main_cst_2_apply,
    val_main_v8_apply, val_main_v7_apply, val_main_v6_apply, val_main_v10_apply, e6, e10, scale1, sA1_row, x2d_row]
  rfl

/-- In the straight-through form the activation operand is its quantised value: every input entry is real. -/
theorem ste_x1 (x : (⟨S4x1024x2048, .f32⟩ : BufTy).Contents (Elt Ideal)) (hx : ∀ i, IsReal (x i))
    (b : Fin 4) (t : Fin 1024) (k : Fin 2048) :
    val_main_v13 (F := Ideal) x (ix3 b t k) = qAct (sA1 x (row b t)) (x2d x (row b t) k) := by
  rw [val_main_v13_apply, val_main_v12_apply, qx1]
  exact ste _ _ (hx _)

/-- The quantised weight at any entry. -/
theorem qw1 (w1 : (⟨S8192x2048, .f32⟩ : BufTy).Contents (Elt Ideal)) (i : S8192x2048.Idx) :
    val_main_v24 (F := Ideal) w1 i = qWt (sW w1) (w1 i) := by
  rw [val_main_v24_apply, val_main_v22_apply, val_main_call5_v4_apply, val_main_call5_v3_apply, val_main_cst_9_apply,
    val_main_call5_v2_apply, val_main_call5_v1_apply, val_main_call5_v0_apply, val_main_cst_8_apply,
    val_main_v21_apply, val_main_v20_apply, val_main_v19_apply, val_main_v23_apply, wscale1]
  rfl

/-- In the straight-through form the weight operand is its quantised value. -/
theorem ste_w1 (w1 : (⟨S8192x2048, .f32⟩ : BufTy).Contents (Elt Ideal)) (hw1 : ∀ i, IsReal (w1 i)) (i : S8192x2048.Idx) :
    val_main_v26 (F := Ideal) w1 i = qWt (sW w1) (w1 i) := by
  rw [val_main_v26_apply, val_main_v25_apply, qw1]
  exact ste _ _ (hw1 _)

/-! ## The first layer -/

/-- The contraction at (b, t, n) is the specification's layer at token b · 1024 + t, feature n. -/
theorem lin1 (x : (⟨S4x1024x2048, .f32⟩ : BufTy).Contents (Elt Ideal)) (w1 : (⟨S8192x2048, .f32⟩ : BufTy).Contents (Elt Ideal))
    (hx : ∀ i, IsReal (x i)) (hw1 : ∀ i, IsReal (w1 i)) (b : Fin 4) (t : Fin 1024) (n : Fin 8192) :
    val_main_v27 (F := Ideal) x w1 (ix3 b t n)
      = lin (sA1 x) (sW w1) (x2d x) (fun n l => w1 (ix2 n l)) (row b t) n := by
  rw [val_main_v27_apply]
  unfold lin
  refine Finset.sum_congr rfl fun k _ => ?_
  have el : lidx_main_v27 (ix3 b t n) k = ix3 b t k := funext fun a => by
    match a with
    | ⟨0, _⟩ => rfl
    | ⟨1, _⟩ => rfl
    | ⟨2, _⟩ => rfl
  have er : ridx_main_v27 (ix3 b t n) k = ix2 n k := funext fun a => by
    match a with
    | ⟨0, _⟩ => rfl
    | ⟨1, _⟩ => rfl
  rw [el, er, ste_x1 x hx, ste_w1 w1 hw1]

/-- The hidden activation at (b, t, n): the first layer, then max(·, 0). -/
theorem ref_hidden (x : (⟨S4x1024x2048, .f32⟩ : BufTy).Contents (Elt Ideal)) (w1 : (⟨S8192x2048, .f32⟩ : BufTy).Contents (Elt Ideal))
    (hx : ∀ i, IsReal (x i)) (hw1 : ∀ i, IsReal (w1 i)) (b : Fin 4) (t : Fin 1024) (n : Fin 8192) :
    val_main_v28 (F := Ideal) x w1 (ix3 b t n) = Cert.Spec.hid x w1 ⟨b.val * 1024 + t.val, by omega⟩ n := by
  rw [val_main_v28_apply, val_main_call6_v0_apply, val_main_call6_cst_apply, lin1 x w1 hx hw1]
  rfl

end Cert.ReferenceIdeal.RefValue
end
-- ==== Proof.RefValue2.lean ====
/-
  The second layer of the reference, read at an entry on the extended reals, over the first layer as a hypothesis:
  the row scale from the largest |h| of the row, the one scale of the weight matrix, both operands quantised and
  carried through a + (q - a) = q, and the contraction over the hidden axis.
-/
import proofs.«174975_j41592463294489_1_alg».proof.Proof.RefRead
import proofs.«174975_j41592463294489_1_alg».proof.Proof.Spec
import proofs.«174975_j41592463294489_1_alg».proof.Proof.SpecLemmas
import Idealize.ShloMosaic.PureOps.Reduce

noncomputable section

namespace Cert.ReferenceIdeal.RefValue2

open Cert.ReferenceIdeal Cert.ReferenceIdeal.Gen Cert.ReferenceIdeal.ReadP Idealize.ShloMosaic
  Idealize.ShloMosaic.ValueIdx Cert.Spec

/-- The one-axis reduction of the hidden axis, as the fact the fold over that axis is stated from. -/
theorem reduces_hidden : S4x1024x8192.Reduces [2] S4x1024 := by decide

/-- Row (b, t) with the hidden coordinate k put back is (b, t, k). -/
theorem lift_hidden (b : Fin 4) (t : Fin 1024) (k : Fin (S4x1024x8192.size 2)) :
    reduces_hidden.lift (ix2 b t) k = ix3 b t (⟨k.val, k.isLt⟩ : Fin 8192) := by
  funext c; apply Fin.ext
  fin_cases c <;> rfl

/-- The maximum-reduce over the hidden axis from -∞, at row (b, t), is the row's largest entry. -/
theorem rowmax_read (y : S4x1024x8192.Idx → EReal) (b : Fin 4) (t : Fin 1024) :
    Host.reduce (FloatOps.maximumf (F := Ideal) (φ := .f32)) y (val_main_cst_10 (F := Ideal))
        reducesTo_S4x1024x8192_S4x1024_d2 h_S_ (ix2 b t)
      = rowMax fun k : Fin 8192 => y (ix3 b t k) := by
  rw [Host.reduce_eq_fold_single (FloatOps.maximumf (F := Ideal) (φ := .f32)) y _
    reducesTo_S4x1024x8192_S4x1024_d2 reduces_hidden h_S_]
  have hf : (y ∘ reduces_hidden.lift (ix2 b t)) = fun k : Fin 8192 => y (ix3 b t k) :=
    funext fun k => congrArg y (lift_hidden b t k)
  rw [hf]
  rfl

/-- The layer-2 row maximum of |h| at row (b, t). -/
theorem v30_read (x : (⟨S4x1024x2048, .f32⟩ : BufTy).Contents (Elt Ideal))
    (w1 : (⟨S8192x2048, .f32⟩ : BufTy).Contents (Elt Ideal))
    (r : Fin 4096) (b : Fin 4) (t : Fin 1024)
    (hh : ∀ n : Fin 8192, val_main_v28 (F := Ideal) x w1 (ix3 b t n) = Cert.Spec.hid x w1 r n) :
    val_main_v30 (F := Ideal) x w1 (ix2 b t) = rowMax fun k : Fin 8192 => absE (Cert.Spec.hid x w1 r k) := by
  refine (rowmax_read (val_main_v29 (F := Ideal) x w1) b t).trans ?_
  congr 1
  funext k
  rw [val_main_v29_apply, hh k]
  rfl

/-- The layer-2 scale of row (b, t). -/
theorem v34_read (x : (⟨S4x1024x2048, .f32⟩ : BufTy).Contents (Elt Ideal))
    (w1 : (⟨S8192x2048, .f32⟩ : BufTy).Contents (Elt Ideal))
    (r : Fin 4096) (b : Fin 4) (t : Fin 1024)
    (hh : ∀ n : Fin 8192, val_main_v28 (F := Ideal) x w1 (ix3 b t n) = Cert.Spec.hid x w1 r n) :
    val_main_v34 (F := Ideal) x w1 (ix3 b t (0 : Fin 1)) = sA2 x w1 r := by
  have e31 : idx_main_v31 (ix3 b t (0 : Fin 1)) = ix2 b t :=
    funext fun a => by match a with | ⟨0, _⟩ => rfl | ⟨1, _⟩ => rfl
  rw [val_main_v34_apply, val_main_v33_apply, val_main_v32_apply, val_main_call7_v1_apply, val_main_v31_apply, e31,
    v30_read x w1 r b t hh]
  rfl

/-- The scale of the second weight matrix. -/
theorem v47_read (w2 : (⟨S2048x8192, .f32⟩ : BufTy).Contents (Elt Ideal)) :
    val_main_v47 (F := Ideal) w2 ix0 = sW (N := 2048) (K := 8192) w2 := by
  rw [val_main_v47_apply, val_main_v46_apply, val_main_v45_apply, val_main_v44_apply]
  rfl

/-- The hidden activations quantised at their row's scale. -/
theorem v40_read (x : (⟨S4x1024x2048, .f32⟩ : BufTy).Contents (Elt Ideal))
    (w1 : (⟨S8192x2048, .f32⟩ : BufTy).Contents (Elt Ideal))
    (r : Fin 4096) (b : Fin 4) (t : Fin 1024)
    (hh : ∀ n : Fin 8192, val_main_v28 (F := Ideal) x w1 (ix3 b t n) = Cert.Spec.hid x w1 r n) (n : Fin 8192) :
    val_main_v40 (F := Ideal) x w1 (ix3 b t n) = qAct (sA2 x w1 r) (Cert.Spec.hid x w1 r n) := by
  have e35 : idx_main_v35 (ix3 b t n) = ix3 b t (0 : Fin 1) :=
    funext fun a => by match a with | ⟨0, _⟩ => rfl | ⟨1, _⟩ => rfl | ⟨2, _⟩ => rfl
  have e39 : idx_main_v39 (ix3 b t n) = ix3 b t (0 : Fin 1) :=
    funext fun a => by match a with | ⟨0, _⟩ => rfl | ⟨1, _⟩ => rfl | ⟨2, _⟩ => rfl
  rw [val_main_v40_apply, val_main_v39_apply, e39, v34_read x w1 r b t hh, val_main_v38_apply,
    val_main_call9_v4_apply, val_main_call9_v2_apply, val_main_call9_v1_apply, val_main_v37_apply,
    val_main_v36_apply, val_main_v35_apply, e35, v34_read x w1 r b t hh, hh n]
  rfl

/-- The straight-through form of the quantised activations is the quantised value: the hidden entry is real. -/
theorem v42_read (x : (⟨S4x1024x2048, .f32⟩ : BufTy).Contents (Elt Ideal))
    (w1 : (⟨S8192x2048, .f32⟩ : BufTy).Contents (Elt Ideal))
    (hx : ∀ i, IsReal (x i)) (hw1 : ∀ i, IsReal (w1 i))
    (r : Fin 4096) (b : Fin 4) (t : Fin 1024)
    (hh : ∀ n : Fin 8192, val_main_v28 (F := Ideal) x w1 (ix3 b t n) = Cert.Spec.hid x w1 r n) (n : Fin 8192) :
    val_main_v42 (F := Ideal) x w1 (ix3 b t n) = qAct (sA2 x w1 r) (Cert.Spec.hid x w1 r n) := by
  rw [val_main_v42_apply, val_main_v41_apply, v40_read x w1 r b t hh n, hh n]
  exact ste _ _ (hid_real x w1 hx hw1 r n)

/-- The weights quantised at the matrix's scale. -/
theorem v53_read (w2 : (⟨S2048x8192, .f32⟩ : BufTy).Contents (Elt Ideal)) (d : Fin 2048) (n : Fin 8192) :
    val_main_v53 (F := Ideal) w2 (ix2 d n) = qWt (sW (N := 2048) (K := 8192) w2) (w2 (ix2 d n)) := by
  have e52 : idx_main_v52 (ix2 d n) = ix0 := rfl
  have e48 : idx_main_v48 (ix2 d n) = ix0 := rfl
  rw [val_main_v53_apply, val_main_v52_apply, e52, v47_read, val_main_v51_apply, val_main_call12_v4_apply,
    val_main_call12_v2_apply, val_main_call12_v1_apply, val_main_v50_apply, val_main_v49_apply, val_main_v48_apply,
    e48, v47_read]
  rfl

/-- The straight-through form of the quantised weights is the quantised value: the weight is real. -/
theorem v55_read (w2 : (⟨S2048x8192, .f32⟩ : BufTy).Contents (Elt Ideal)) (hw2 : ∀ i, IsReal (w2 i))
    (d : Fin 2048) (n : Fin 8192) :
    val_main_v55 (F := Ideal) w2 (ix2 d n) = qWt (sW (N := 2048) (K := 8192) w2) (w2 (ix2 d n)) := by
  rw [val_main_v55_apply, val_main_v54_apply, v53_read]
  exact ste _ _ (hw2 _)

/-- The reference's result at (b, t, d) is the specification's second layer at token b · 1024 + t, feature d,
    given that its hidden activations are the specification's. -/
theorem ref_out_of_hidden (x : (⟨S4x1024x2048, .f32⟩ : BufTy).Contents (Elt Ideal))
    (w1 : (⟨S8192x2048, .f32⟩ : BufTy).Contents (Elt Ideal)) (w2 : (⟨S2048x8192, .f32⟩ : BufTy).Contents (Elt Ideal))
    (hx : ∀ i, IsReal (x i)) (hw1 : ∀ i, IsReal (w1 i)) (hw2 : ∀ i, IsReal (w2 i))
    (hh : ∀ (b : Fin 4) (t : Fin 1024) (n : Fin 8192),
      val_main_v28 (F := Ideal) x w1 (ix3 b t n) = Cert.Spec.hid x w1 ⟨b.val * 1024 + t.val, by omega⟩ n)
    (b : Fin 4) (t : Fin 1024) (d : Fin 2048) :
    val_main_v56 (F := Ideal) x w1 w2 (ix3 b t d) = Cert.Spec.out x w1 w2 ⟨b.val * 1024 + t.val, by omega⟩ d := by
  rw [val_main_v56_apply]
  unfold Cert.Spec.out Cert.Spec.lin
  refine Finset.sum_congr rfl fun k _ => ?_
  have el : lidx_main_v56 (ix3 b t d) k = ix3 b t k :=
    funext fun a => by match a with | ⟨0, _⟩ => rfl | ⟨1, _⟩ => rfl | ⟨2, _⟩ => rfl
  have er : ridx_main_v56 (ix3 b t d) k = ix2 d k :=
    funext fun a => by match a with | ⟨0, _⟩ => rfl | ⟨1, _⟩ => rfl
  rw [el, er, v42_read x w1 hx hw1 ⟨b.val * 1024 + t.val, by omega⟩ b t (hh b t) k, v55_read w2 hw2 d k]

end Cert.ReferenceIdeal.RefValue2

end
-- ==== Proof.PreReal.lean ====
/-
  From the precondition to the finiteness of the inputs.  The precondition is the conjunction of three
  tests "every entry has absolute value below +∞", one per input array, and it is claimed to be true.
  On the extended reals, max a (-a) < ⊤ holds exactly when a is neither ⊤ nor ⊥, so every entry of every
  input is a real number.
-/
import proofs.«174975_j41592463294489_1_alg».proof.Proof.SpecLemmas
import proofs.«174975_j41592463294489_1_alg».proof.Pre_finite_inputs
import proofs.«174975_j41592463294489_1_alg».proof.Proof.Gen.Pre_finite_inputs
import Idealize.ShloMosaic.PureOps.Ideal
import Idealize.ShloMosaic.Lib.ReduceAll
import Idealize.ShloMosaic.Lib.ValueIdx

noncomputable section

namespace Cert.Spec

open Idealize.ShloMosaic Idealize.ShloMosaic.ValueIdx

/-- The bit pattern of +∞ denotes ⊤. -/
theorem inf_bits_eq_top : Ideal.ofBits .f32 0x7F800000#32 = (⊤ : EReal) := by
  simp [Ideal.ofBits, Ideal.ieee]

/-- An extended real whose absolute value max a (-a) is strictly below ⊤ is a real number:
    at a = ⊤ the maximum is ⊤, and at a = ⊥ it is -⊥ = ⊤. -/
theorem isReal_of_abs_lt_top (a : EReal) (h : max a (-a) < ⊤) : IsReal a := by
  rw [max_lt_iff] at h
  refine ⟨ne_of_lt h.1, ?_⟩
  intro hb
  rw [hb] at h
  exact absurd h.2 (by simp)

/-- The ordered "less than" test answering 1 says the strict inequality holds. -/
theorem lt_of_cmp_olt (a b : EReal) (h : Ideal.cmp .olt a b = 1#1) : a < b := by
  unfold Ideal.cmp at h
  by_cases hab : a < b
  · exact hab
  · simp [hab] at h

/-- One entry: the test |a| < +∞ answering 1 makes a a real number. -/
theorem isReal_of_test (a : Ideal .f32)
    (h : FloatOps.cmpf .olt (FloatOps.hostAbsf a) (FloatOps.ofBits (F := Ideal) .f32 0x7F800000#32) = 1#1) :
    IsReal a := by
  have h' : Ideal.cmp .olt (max (a : EReal) (-(a : EReal))) (Ideal.ofBits .f32 0x7F800000#32) = 1#1 := h
  rw [inf_bits_eq_top] at h'
  exact isReal_of_abs_lt_top a (lt_of_cmp_olt _ _ h')

instance subsingleton_scalar_idx : Subsingleton Cert.Pre_finite_inputs.S_.Idx :=
  ⟨fun a b => funext fun d => d.elim0⟩

/-- One array: if "all entries have absolute value below +∞" reduces to 1, every entry is a real number. -/
theorem all_real {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v)
            (broadcastInDim s ![] hb (constant Cert.Pre_finite_inputs.S_ .f32 0x7F800000#32)))
          (constantI Cert.Pre_finite_inputs.S_ 1 1#1) hr hu ix0 = 1#1) :
    ∀ i, IsReal (v i) := by
  intro i
  have hi := Host.reduce_andi_all _ _ hr hu ix0 e i
  exact isReal_of_test (v i) hi

/-- The precondition, claimed true, makes every entry of the three inputs a real number. -/
theorem pre_real [hP : Cert.Pre_finite_inputs.Facts]
    (x : FVec Ideal Cert.Pre_finite_inputs.S4x1024x2048 .f32)
    (w1 : FVec Ideal Cert.Pre_finite_inputs.S8192x2048 .f32)
    (w2 : FVec Ideal Cert.Pre_finite_inputs.S2048x8192 .f32)
    (h : Cert.Pre_finite_inputs.fn (F := Ideal) x w1 w2 = fun _ => 1#1) :
    (∀ i, IsReal (x i)) ∧ (∀ i, IsReal (w1 i)) ∧ (∀ i, IsReal (w2 i)) := by
  have h0 := congrFun h ix0
  dsimp only [Cert.Pre_finite_inputs.fn, andi] at h0
  obtain ⟨h12, h3⟩ := IntOp.andi_eq_one.1 h0
  obtain ⟨h1, h2⟩ := IntOp.andi_eq_one.1 h12
  exact ⟨all_real x _ _ _ h1, all_real w1 _ _ _ h2, all_real w2 _ _ _ h3⟩

end Cert.Spec

end
-- ==== Proof.lean ====
/-
  The certificate's five claims for the two-layer quantised linear network.

  Frames.  Both kernel programs run @main as thirteen segments — host stretches computing the quantisation scales, the two
  kernel regions, the closing reshape — and end with every argument array as launched (KRun / KIRun, one text at the two
  float instances).  The reference has no kernel: its frame is its run with the result dropped.

  Preserves.  The idealization rewrote nothing, so there is nothing to state.

  Algebraic.  On the extended reals the kernel's result at (b, t, d) is the specification's network at token
  b · 1024 + t and feature d (KIOut), and so is the reference's (RefValue, RefValue2).  The reference writes every quantised
  operand a in the straight-through form a + (q(a) − a); that is q(a) because a is a real number: the inputs by the
  precondition, the hidden activations because a clamped value over a nonzero real scale is real and a finite sum of
  products of reals is real.  The kernel accumulates the second contraction in eight blocks of 1024; addition on the
  extended reals is commutative and associative, so the blocks add up to the one sum over 8192 the reference takes.
-/
import proofs.«174975_j41592463294489_1_alg».proof.Defs
import proofs.«174975_j41592463294489_1_alg».proof.Proof.Gen.Kernel
import proofs.«174975_j41592463294489_1_alg».proof.Proof.Gen.KernelIdeal
import proofs.«174975_j41592463294489_1_alg».proof.Proof.Gen.ReferenceIdeal
import proofs.«174975_j41592463294489_1_alg».proof.Proof.Gen.Pre_finite_inputs
import proofs.«174975_j41592463294489_1_alg».proof.Proof.KRun
import proofs.«174975_j41592463294489_1_alg».proof.Proof.KIRun
import proofs.«174975_j41592463294489_1_alg».proof.Proof.KIOut
import proofs.«174975_j41592463294489_1_alg».proof.Proof.RefRun
import proofs.«174975_j41592463294489_1_alg».proof.Proof.RefValue
import proofs.«174975_j41592463294489_1_alg».proof.Proof.RefValue2
import proofs.«174975_j41592463294489_1_alg».proof.Proof.PreReal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_p : Cert.frame_Kernel := fun m ρ _ => Cert.Kernel.Hand.frame_all (F := Bits) m ρ

theorem frame_pi : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.ReferenceIdeal.ValueP.run m ρ)

theorem preserves : Cert.preserves_Kernel_KernelIdeal := trivial

/-- Both idealized programs, from memories agreeing on the arguments, end with the same result: the specification's
    network of the shared inputs, entry by entry. -/
theorem algebraic : Cert.algebraic_KernelIdeal_ReferenceIdeal := by
  intro m ρ m' ρ' hpre hagree
  refine ⟨fun c => Cert.KernelIdeal.Hand.W13 m c (Proc.devRef .tc Cert.KernelIdeal.main_v27),
    Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run m' ρ')
  rw [(hagree c).1, (hagree c).2.1, (hagree c).2.2]
  obtain ⟨hx, hw1, hw2⟩ := Cert.Spec.pre_real _ _ _ (hpre c)
  funext i
  obtain ⟨b, t, d, rfl⟩ : ∃ (b : Fin 4) (t : Fin 1024) (d : Fin 2048), i = ix3 b t d := ⟨i 0, i 1, i 2, eq_ix3 i⟩
  exact (Cert.ReferenceIdeal.RefValue2.ref_out_of_hidden _ _ _ hx hw1 hw2
      (fun b t n => Cert.ReferenceIdeal.RefValue.ref_hidden _ _ hx hw1 b t n) b t d).trans
    (Cert.KernelIdeal.Hand.kernel_out m c b t d).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
